-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x256 : Shape := ⟨3, ![8192, 1, 256]⟩
abbrev S8192 : Shape := ⟨1, ![8192]⟩
abbrev S_ : Shape := ⟨0, ![]⟩

class Facts : Prop where
  bcast_S_S8192x1x256 : S_.BroadcastsInDim S8192x1x256 (![] : Fin 0 → Fin S8192x1x256.rank)
  reducesTo_S8192x1x256_S_d0_1_2 : S8192x1x256.ReducesTo [0, 1, 2] S_
  h_S_ : 0 < S_.numel

variable [Facts]

def fn {F : FTy → Type} [FloatOps F] (main_arg0 : FVec F S8192x1x256 .f32) (main_arg1 : IVec S8192 32) : IVec S_ 1 :=
  let main_v0 : FVec F S8192x1x256 .f32 := Host.absf main_arg0
  let main_cst : FVec F S_ .f32 := constant S_ .f32 0x7F800000#32
  let main_v1 : FVec F S8192x1x256 .f32 := broadcastInDim S8192x1x256 ![] bcast_S_S8192x1x256 main_cst
  let main_v2 : IVec S8192x1x256 1 := cmpf .olt main_v0 main_v1
  let main_c : IVec S_ 1 := constantI S_ 1 1#1
  let main_v3 : IVec S_ 1 := (fun x v => Host.reduce IntOp.andi x v reducesTo_S8192x1x256_S_d0_1_2 h_S_) main_v2 main_c
  main_v3
-- ==== Kernel.lean ====
abbrev S8192x1x256 : Shape := ⟨3, ![8192, 1, 256]⟩
abbrev S8192 : Shape := ⟨1, ![8192]⟩
abbrev S8192x256 : Shape := ⟨2, ![8192, 256]⟩
abbrev S8192x1 : Shape := ⟨2, ![8192, 1]⟩
abbrev S1x8192 : Shape := ⟨2, ![1, 8192]⟩
abbrev S256x1 : Shape := ⟨2, ![256, 1]⟩
abbrev S256x8192 : Shape := ⟨2, ![256, 8192]⟩
abbrev S256x128 : Shape := ⟨2, ![256, 128]⟩
abbrev S256x256 : Shape := ⟨2, ![256, 256]⟩
abbrev S512x256 : Shape := ⟨2, ![512, 256]⟩
abbrev S1x512 : Shape := ⟨2, ![1, 512]⟩
abbrev S256x512 : Shape := ⟨2, ![256, 512]⟩
abbrev S256 : Shape := ⟨1, ![256]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S8192x1x256, .f32⟩
  | .hbm, ⟨1, _⟩ => ⟨S8192, .i32⟩
  | .hbm, ⟨2, _⟩ => ⟨S8192x256, .f32⟩
  | .hbm, ⟨3, _⟩ => ⟨S8192x256, .bf16⟩
  | .hbm, ⟨4, _⟩ => ⟨S8192x1, .i32⟩
  | .hbm, ⟨5, _⟩ => ⟨S1x8192, .i32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S8192x256, .bf16⟩
  | .local _ .vmem, ⟨1, _⟩ => ⟨S256x1, .i32⟩
  | .local _ .vmem, ⟨2, _⟩ => ⟨S256x1, .i32⟩
  | .local _ .vmem, ⟨3, _⟩ => ⟨S1x8192, .i32⟩
  | .local _ .vmem, ⟨4, _⟩ => ⟨S256x1, .f32⟩
  | .local _ .vmem, ⟨5, _⟩ => ⟨S256x1, .f32⟩
  | .local _ .vmem, ⟨6, _⟩ => ⟨S256x8192, .f32⟩
  | .local _ .vmem, ⟨7, _⟩ => ⟨S256x8192, .f32⟩
  | .local _ .vmem, ⟨8, _⟩ => ⟨S256x128, .f32⟩
  | _, _ => ⟨S8192x1x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v22 : BitVec 32 := Scalar.muli arg8 c512_i32
  v22
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v22 : BitVec 32 := Scalar.muli arg8 c512_i32
  let v23 : BitVec 32 := v22
  let v24 : Index := Scalar.indexCast v23
  let c0_13 : Index := 0#32
  ![v24.toNat, 0]
def k0_off3 (k0_t1 : Fin k0_t1_loop.trips) : Fin 2 → Nat :=
  let c0_14 : Index := 0#32
  let c0_i32 : BitVec 32 := 0#32
  let c1_i32 : BitVec 32 := 1#32
  let arg8 : BitVec 32 := Scf.iv c0_i32 c1_i32 k0_t1
  let c512_i32 : BitVec 32 := 512#32
  let v22 : BitVec 32 := Scalar.muli arg8 c512_i32
  let v23 : BitVec 32 := v22
  let v27 : Index := Scalar.indexCast v23
  ![0, v27.toNat]
def k0_off4 (k0_t1 : Fin k0_t1_loop.trips) : Fin 2 → Nat :=
  let c0_17 : Index := 0#32
  let c0_i32 : BitVec 32 := 0#32
  let c1_i32 : BitVec 32 := 1#32
  let arg8 : BitVec 32 := Scf.iv c0_i32 c1_i32 k0_t1
  let c512_i32 : BitVec 32 := 512#32
  let v22 : BitVec 32 := Scalar.muli arg8 c512_i32
  let v23 : BitVec 32 := v22
  let v33 : Index := Scalar.indexCast v23
  ![0, v33.toNat]
@[reducible] def k0_t2_loop : Scf.Loop 32 :=
  let c0_i32_6 : BitVec 32 := 0#32
  let c16_i32_7 : BitVec 32 := 16#32
  let v16 : BitVec 32 := Scalar.addi c0_i32_6 c16_i32_7
  let c1_i32_8 : BitVec 32 := 1#32
  ⟨c0_i32_6, v16, c1_i32_8⟩
def k0_mult3 (k0_t2 : Fin k0_t2_loop.trips) : BitVec 32 :=
  let c0_i32_6 : BitVec 32 := 0#32
  let c1_i32_8 : BitVec 32 := 1#32
  let arg8 : BitVec 32 := Scf.iv c0_i32_6 c1_i32_8 k0_t2
  let c512_i32 : BitVec 32 := 512#32
  let v22 : BitVec 32 := Scalar.muli arg8 c512_i32
  v22
def k0_off5 (k0_t2 : Fin k0_t2_loop.trips) : Fin 2 → Nat :=
  let c0_13 : Index := 0#32
  let c0_i32_6 : BitVec 32 := 0#32
  let c1_i32_8 : BitVec 32 := 1#32
  let arg8 : BitVec 32 := Scf.iv c0_i32_6 c1_i32_8 k0_t2
  let c512_i32 : BitVec 32 := 512#32
  let v22 : BitVec 32 := Scalar.muli arg8 c512_i32
  let v23 : BitVec 32 := v22
  let v24 : Index := Scalar.indexCast v23
  ![0, v24.toNat]
def k0_off6 (k0_t2 : Fin k0_t2_loop.trips) : Fin 2 → Nat :=
  let c0_14 : Index := 0#32
  let c0_i32_6 : BitVec 32 := 0#32
  let c1_i32_8 : BitVec 32 := 1#32
  let arg8 : BitVec 32 := Scf.iv c0_i32_6 c1_i32_8 k0_t2
  let c512_i32 : BitVec 32 := 512#32
  let v22 : BitVec 32 := Scalar.muli arg8 c512_i32
  let v23 : BitVec 32 := v22
  let v30 : Index := Scalar.indexCast v23
  ![0, v30.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x1x256_S8192x256 : S8192x1x256.ShapeCasts S8192x256
  bitsLt_bf16_f32 : FTy.bits .bf16 < FTy.bits .f32
  shapeCasts_S8192_S8192x1 : S8192.ShapeCasts S8192x1
  shapeCasts_S8192_S1x8192 : S8192.ShapeCasts S1x8192
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1_d0_w32 : S256x1.Iotas .tc 32 [0]
  h_S512x256 : 0 < S512x256.numel
  shapeCasts_S512x256_S512x256 : S512x256.ShapeCasts S512x256
  h_S1x512 : 0 < S1x512.numel
  shapeCasts_S1x512_S1x512 : S1x512.ShapeCasts S1x512
  h_S256x512 : 0 < S256x512.numel
  shapeCasts_S256x512_S256x512 : S256x512.ShapeCasts S256x512
  reduces_S256x512_S256 : S256x512.Reduces [1] S256
  shapeCasts_S256_S256x1 : S256.ShapeCasts S256x1
  broadcasts_S256x1_S256x512 : S256x1.Broadcasts S256x512
  iota_S256x128_d1_w32 : S256x128.Iotas .tc 32 [1]
  broadcasts_S256x1_S256x128 : S256x1.Broadcasts S256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x512_S256x512 : S1x512.Broadcasts S256x512
  reduces_S256x128_S256 : S256x128.Reduces [1] S256
  iota_S1x512_d1_w32 : S1x512.Iotas .tc 32 [1]
  reducesTo_S8192x1_S_d0_1 : S8192x1.ReducesTo [0, 1] S_
  h_S_ : 0 < S_.numel
  dot_S256x256_S512x256_S256x512_1_1_0_0_n_n_wf : DotDims.WF S256x256 S512x256 S256x512 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x256.size a ≤ S8192x256.size a
  k0_t1_ok : k0_t1_loop.OK
  k0_mult2_dvd : ∀ k0_t1 : Fin k0_t1_loop.trips, 512 ∣ (k0_mult2 k0_t1).toNat
  k0_off2_inb : ∀ k0_t1 : Fin k0_t1_loop.trips, ∀ a, (k0_off2 k0_t1) a + S512x256.size a ≤ S8192x256.size a
  k0_off3_inb : ∀ k0_t1 : Fin k0_t1_loop.trips, ∀ a, (k0_off3 k0_t1) a + S1x512.size a ≤ S1x8192.size a
  k0_off4_inb : ∀ k0_t1 : Fin k0_t1_loop.trips, ∀ a, (k0_off4 k0_t1) a + S256x512.size a ≤ S256x8192.size a
  k0_t2_ok : k0_t2_loop.OK
  k0_mult3_dvd : ∀ k0_t2 : Fin k0_t2_loop.trips, 512 ∣ (k0_mult3 k0_t2).toNat
  k0_off5_inb : ∀ k0_t2 : Fin k0_t2_loop.trips, ∀ a, (k0_off5 k0_t2) a + S1x512.size a ≤ S1x8192.size a
  k0_off6_inb : ∀ k0_t2 : Fin k0_t2_loop.trips, ∀ a, (k0_off6 k0_t2) a + S256x512.size a ≤ S256x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .bf16 = 32 ∨ (Rect.block (s := S8192x256) S8192x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def dot_S256x256_S512x256_S256x512_1_1_0_0_n_n : DotDims S256x256 S512x256 S256x512 where
  lhsContracting := [1]
  rhsContracting := [1]
  lhsNonContracting := [0]
  rhsNonContracting := [0]
  lhsBatch := []
  rhsBatch := []
  wf := dot_S256x256_S512x256_S256x512_1_1_0_0_n_n_wf

abbrev win0_0 : Pipeline.Window sig grid0 :=
  Pipeline.Window.ofSpec (Memref.whole main_v1) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1x256 : Shape := ⟨3, ![8192, 1, 256]⟩
abbrev S8192 : Shape := ⟨1, ![8192]⟩
abbrev S1x8192x256 : Shape := ⟨3, ![1, 8192, 256]⟩
abbrev S8192x256 : Shape := ⟨2, ![8192, 256]⟩
abbrev S8192x1 : Shape := ⟨2, ![8192, 1]⟩
abbrev S1x8192 : Shape := ⟨2, ![1, 8192]⟩
abbrev S8192x8192 : Shape := ⟨2, ![8192, 8192]⟩
abbrev S1x8192x1x8192 : Shape := ⟨4, ![1, 8192, 1, 8192]⟩
abbrev S_ : Shape := ⟨0, ![]⟩
abbrev S256x8192 : Shape := ⟨2, ![256, 8192]⟩

abbrev nBuf : Space → Nat
  | .hbm => 59
  | .vmem => 0
  | .smem => 0
  | _ => 0

abbrev bufTy : (tb : Table) → Fin (tcTables nBuf tb) → BufTy
  | .hbm, ⟨0, _⟩ => ⟨S8192x1x256, .f32⟩
  | .hbm, ⟨1, _⟩ => ⟨S8192, .i32⟩
  | .hbm, ⟨2, _⟩ => ⟨S1x8192x256, .f32⟩
  | .hbm, ⟨3, _⟩ => ⟨S8192x256, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S1x8192x1x8192, .f32⟩
  | .hbm, ⟨11, _⟩ => ⟨S1x8192x1x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S256x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S8192x1x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  transposes_S8192x1x256_S1x8192x256_1_0_2 : S8192x1x256.Transposes [1, 0, 2] S1x8192x256
  shapeCasts_S1x8192x256_S8192x256 : S1x8192x256.ShapeCasts S8192x256
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  shapeCasts_S8192x8192_S1x8192x1x8192 : S8192x8192.ShapeCasts S1x8192x1x8192
  bcast_S1x8192x1x8192_S1x8192x1x8192_0_1_2_3 : S1x8192x1x8192.BroadcastsInDim S1x8192x1x8192 (![0, 1, 2, 3] : Fin 4 → Fin S1x8192x1x8192.rank)
  shapeCasts_S1x8192x1x8192_S8192x8192 : S1x8192x1x8192.ShapeCasts S8192x8192
  bcast_S_S8192x8192 : S_.BroadcastsInDim S8192x8192 (![] : Fin 0 → Fin S8192x8192.rank)
  transposes_S8192x256_S256x8192_1_0 : S8192x256.Transposes [1, 0] S256x8192
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KModel.lean ====
/-
  The kernel body as a pure function of the values it loads, for any float instance: Q the query rows' block, LQ their
  labels, and per column chunk k the key rows K k and their labels LK k. Pass 1 carries the running row maximum and the
  rescaled sum over the negatives, and leaves three caches: chunk k of the logits, chunk k of exp (logit - running
  maximum after chunk k), and lane k of the history holding the running maximum after chunk k. Pass 2 reads the caches
  back, rescales the cached exponentials to the final maximum, and carries the positives' log-probability sum and count.
  The result block is minus the quotient of the two. The history's lanes from 16 on are whatever the buffer held; the
  result does not depend on them (pass 2 selects lane k only).
-/
import proofs.«406646_j46145128629053_3_alg».proof.Proof.Gen.Kernel.Skeleton

noncomputable section

namespace Cert.Kernel.Model

open Idealize.ShloMosaic Cert.Kernel Cert.Kernel.Gen

variable {F : FTy → Type} [FloatOps F]

variable (i : grid0.Coords) (Q : Vec F S256x256 .bf16) (LQ : Vec F S256x1 .i32)
  (K : ℕ → Vec F S512x256 .bf16) (LK : ℕ → Vec F S1x512 .i32)

/-- Pass 1 before chunk k: the running row maximum and the sum over the negatives rescaled to it. -/
def st1 : ℕ → FVec F S256x1 .f32 × FVec F S256x1 .f32
  | 0 => (k0_pay4, k0_pay5)
  | k + 1 => (k0_pay13 (k0_pay1 Q) (st1 k).1 (K k),
      k0_pay6 (k0_pay17 (k0_pay1 Q) (k0_pay2 LQ) (st1 k).1 (K k) (LK k)) (k0_pay18 (k0_pay1 Q) (st1 k).1 (st1 k).2 (K k)))

/-- Chunk k of the cached logits. -/
def logitsC (k : ℕ) : FVec F S256x512 .f32 := k0_pay12 (k0_pay1 Q) (K k)

/-- Chunk k of the cached exponentials: exp (logit - running maximum after chunk k). -/
def expC (k : ℕ) : FVec F S256x512 .f32 := k0_pay15 (k0_pay1 Q) (st1 Q LQ K LK k).1 (K k)

/-- The history buffer before chunk k, from contents h0: chunk k writes the new running maximum into lane k. -/
def hist (h0 : Vec F S256x128 .f32) : ℕ → Vec F S256x128 .f32
  | 0 => h0
  | k + 1 => if h : k < k0_t1_loop.trips then
      k0_pay16 (k0_pay1 Q) 0#32 1#32 ⟨k, h⟩ (st1 Q LQ K LK k).1 (K k) (hist h0 k) else hist h0 k

/-- Pass 2 before chunk k, reading the history H: the positives' log-probability sum and their count. -/
def st2 (H : Vec F S256x128 .f32) : ℕ → FVec F S256x1 .f32 × FVec F S256x1 .f32
  | 0 => (k0_pay7, k0_pay8)
  | k + 1 => if h : k < k0_t2_loop.trips then
      (k0_pay20 (k0_pay2 LQ) (k0_pay3 i) (st1 Q LQ K LK 16).1 (st1 Q LQ K LK 16).2 0#32 1#32 ⟨k, h⟩ (st2 H k).1 (LK k)
          (logitsC Q K k) (expC Q LQ K LK k) H,
        k0_pay9 (st2 H k).2 (k0_pay21 (k0_pay2 LQ) (k0_pay3 i) 0#32 1#32 ⟨k, h⟩ (LK k)))
    else st2 H k

/-- The result block, reading the history H. -/
def outOf (H : Vec F S256x128 .f32) : FVec F S256x1 .f32 :=
  k0_pay10 (st2 i Q LQ K LK H 16).1 (st2 i Q LQ K LK H 16).2

/-- The result block: the history after pass 1 from ANY contents gives the same (outOf_hist_indep), so one is fixed. -/
def out : FVec F S256x1 .f32 :=
  outOf i Q LQ K LK (hist Q LQ K LK (constant S256x128 .f32 0x00000000#32 : FVec F S256x128 .f32) 16)

end Cert.Kernel.Model

end
-- ==== Proof.KTripEq1.lean ====
/-
  Pass 1 of the kernel body, as the loop's run records it, is the pure recursion Model.st1: trip k carries the running
  maximum and the rescaled sum computed from chunk k of the key rows and labels, and stores chunk k of the logits, chunk
  k of the exponentials and the history with lane k rewritten. Read back after the loop, chunk k of the first cache is
  Model.logitsC k, chunk k of the second is Model.expC k (the sixteen stores are through disjoint column ranges, so the
  one at chunk k is what a read of chunk k sees), and the history is Model.hist from what the buffer held.
-/
import proofs.«406646_j46145128629053_3_alg».proof.Proof.Gen.Kernel.Loops
import proofs.«406646_j46145128629053_3_alg».proof.Proof.KModel
import Idealize.ShloMosaic.Lib.WritesUnit

set_option maxRecDepth 16384

noncomputable section

namespace Cert.Kernel.Body

open Cert.Kernel Cert.Kernel.Gen
open Idealize.ShloMosaic Idealize.ShloMosaic.TcCoe Idealize.SL.Sem

variable {F : FTy → Type} [FloatOps F]

theorem trips1_pos : 0 < k0_t1_loop.trips := by decide
theorem trips1_eq : k0_t1_loop.trips = 16 := by decide
theorem trips2_eq : k0_t2_loop.trips = 16 := by decide

/-- Chunk k of the key rows, as the body loads it from the resident feature block (any k: taken modulo the trip count). -/
def Kof (arg1 : Memref sig .tc .vmem S8192x256 .bf16) (f0 : BufTy.Contents (Elt F) arg1.view.ty) (k : ℕ) : Vec F S512x256 .bf16 :=
  View.readAt (Elt F) arg1.view (Rect.unit (s := S8192x256) (k0_off2 ⟨k % k0_t1_loop.trips, Nat.mod_lt _ trips1_pos⟩) S512x256.size (k0_off2_inb _)).toLoadRect f0

/-- Chunk k of the key labels, as the body loads it from the resident label row. -/
def LKof (arg3 : Memref sig .tc .vmem S1x8192 .i32) (f2 : BufTy.Contents (Elt F) arg3.view.ty) (k : ℕ) : Vec F S1x512 .i32 :=
  View.readAt (Elt F) arg3.view (Rect.unit (s := S1x8192) (k0_off3 ⟨k % k0_t1_loop.trips, Nat.mod_lt _ trips1_pos⟩) S1x512.size (k0_off3_inb _)).toLoadRect f2

/-- A read through a unit-stride rectangle depends on the rectangle's offsets only. -/
theorem readAt_unit_congr {κ : Kind} {sp : Space} {s : Shape} {e : EltTy} (v : View sig κ sp s e) (f : BufTy.Contents (Elt F) v.ty)
    {off off' size : Fin s.rank → ℕ} (h : off = off')
    (inb : ∀ a, off a + size a ≤ s.size a) (inb' : ∀ a, off' a + size a ≤ s.size a) :
    View.readAt (Elt F) v (Rect.unit off size inb).toLoadRect f = View.readAt (Elt F) v (Rect.unit off' size inb').toLoadRect f := by
  subst h; rfl

/-- A trip index taken modulo the trip count is itself. -/
theorem fin_mod_self (k : Fin k0_t1_loop.trips) :
    (⟨k.val % k0_t1_loop.trips, Nat.mod_lt _ trips1_pos⟩ : Fin k0_t1_loop.trips) = k :=
  Fin.ext (Nat.mod_eq_of_lt k.isLt)

/-- At a trip index, chunk k of the key rows is the block the trip loads. -/
theorem Kof_fin (arg1 : Memref sig .tc .vmem S8192x256 .bf16) (X1 : BufTy.Contents (Elt F) arg1.view.ty) (k : Fin k0_t1_loop.trips) :
    Kof arg1 X1 k.val = (View.readAt (Elt F) arg1.view (Rect.unit (s := S8192x256) (k0_off2 k) S512x256.size (k0_off2_inb k)).toLoadRect X1) := by
  unfold Kof
  exact readAt_unit_congr arg1.view X1 (congrArg k0_off2 (fin_mod_self k)) _ _

/-- At a trip index, chunk k of the key labels is the block the trip loads. -/
theorem LKof_fin (arg3 : Memref sig .tc .vmem S1x8192 .i32) (X3 : BufTy.Contents (Elt F) arg3.view.ty) (k : Fin k0_t1_loop.trips) :
    LKof arg3 X3 k.val = (View.readAt (Elt F) arg3.view (Rect.unit (s := S1x8192) (k0_off3 k) S1x512.size (k0_off3_inb k)).toLoadRect X3) := by
  unfold LKof
  exact readAt_unit_congr arg3.view X3 (congrArg k0_off3 (fin_mod_self k)) _ _

/-- A read of the whole 256x128 block just after a store of the whole block is the stored payload. -/
theorem readAt_writes_cons_whole7 (arg7 : Memref sig .tc .vmem S256x128 .f32) (g7 : BufTy.Contents (Elt F) arg7.view.ty)
    (w : (Rect.unit (s := S256x128) ![0, 0] S256x128.size inb_S256x128_S256x128_0_0).shape.Idx → Elt F .f32) (L : List (View.Piece (Elt F) S256x128 .f32)) :
    View.readAt (Elt F) arg7.view (Rect.unit (s := S256x128) ![0, 0] S256x128.size inb_S256x128_S256x128_0_0).toLoadRect (arg7.view.writes (Elt F) g7 (⟨(Rect.unit (s := S256x128) ![0, 0] S256x128.size inb_S256x128_S256x128_0_0), w⟩ :: L)) = w := by
  funext x
  rw [View.readAt_apply]
  exact View.read_writes_cons_unit_of_mem arg7.view g7 inb_S256x128_S256x128_0_0 w L _ x rfl (fun a => by
    rw [LoadRect.idx_apply]
    show (![0, 0] : Fin 2 → ℕ) a + 1 * (x a).val = (![0, 0] : Fin 2 → ℕ) a + (x a).val
    rw [Nat.one_mul])

section Pass1
variable (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
  (v3 : Vec F S256x256 .bf16) (v5 : Vec F S256x1 .i32) (X1 : BufTy.Contents (Elt F) arg1.view.ty) (X3 : BufTy.Contents (Elt F) arg3.view.ty)
  (G5 : BufTy.Contents (Elt F) arg5.view.ty) (G6 : BufTy.Contents (Elt F) arg6.view.ty) (G7 : BufTy.Contents (Elt F) arg7.view.ty)

/-- What trip k yields, in the body's own operations: the new running maximum and the rescaled sum. -/
theorem tripR1_eq (k : Fin k0_t1_loop.trips) (acc : FVec F S256x1 .f32 × FVec F S256x1 .f32)
    (g5 : BufTy.Contents (Elt F) arg5.view.ty) (g6 : BufTy.Contents (Elt F) arg6.view.ty) (g7 : BufTy.Contents (Elt F) arg7.view.ty) :
    tripR_k0_t1 (F := F) 𝒱 c bd i arg1 harg1 arg2 harg2 arg3 harg3 arg4 harg4 arg5 harg5 arg6 harg6 arg7 harg7 v3 v5 X1 X3 k acc g5 g6 g7
      = (k0_pay13 (k0_pay1 v3) acc.1 (View.readAt (Elt F) arg1.view (Rect.unit (s := S8192x256) (k0_off2 k) S512x256.size (k0_off2_inb k)).toLoadRect X1),
         k0_pay6 (k0_pay17 (k0_pay1 v3) (k0_pay2 v5) acc.1 (View.readAt (Elt F) arg1.view (Rect.unit (s := S8192x256) (k0_off2 k) S512x256.size (k0_off2_inb k)).toLoadRect X1) (View.readAt (Elt F) arg3.view (Rect.unit (s := S1x8192) (k0_off3 k) S1x512.size (k0_off3_inb k)).toLoadRect X3))
           (k0_pay18 (k0_pay1 v3) acc.1 acc.2 (View.readAt (Elt F) arg1.view (Rect.unit (s := S8192x256) (k0_off2 k) S512x256.size (k0_off2_inb k)).toLoadRect X1))) := by
  unfold tripR_k0_t1 trip_k0_t1
  rfl

/-- What trip k stores: chunk k of the logits, chunk k of the exponentials, and the history block with lane k rewritten. -/
theorem tripL1_eq (k : Fin k0_t1_loop.trips) (acc : FVec F S256x1 .f32 × FVec F S256x1 .f32)
    (g5 : BufTy.Contents (Elt F) arg5.view.ty) (g6 : BufTy.Contents (Elt F) arg6.view.ty) (g7 : BufTy.Contents (Elt F) arg7.view.ty) :
    tripL_k0_t1 (F := F) 𝒱 c bd i arg1 harg1 arg2 harg2 arg3 harg3 arg4 harg4 arg5 harg5 arg6 harg6 arg7 harg7 v3 v5 X1 X3 k acc g5 g6 g7
      = ([⟨(Rect.unit (s := S256x8192) (k0_off4 k) S256x512.size (k0_off4_inb k)), k0_pay12 (k0_pay1 v3) (View.readAt (Elt F) arg1.view (Rect.unit (s := S8192x256) (k0_off2 k) S512x256.size (k0_off2_inb k)).toLoadRect X1)⟩],
         [⟨(Rect.unit (s := S256x8192) (k0_off4 k) S256x512.size (k0_off4_inb k)), k0_pay15 (k0_pay1 v3) acc.1 (View.readAt (Elt F) arg1.view (Rect.unit (s := S8192x256) (k0_off2 k) S512x256.size (k0_off2_inb k)).toLoadRect X1)⟩],
         [⟨(Rect.unit (s := S256x128) ![0, 0] S256x128.size inb_S256x128_S256x128_0_0), k0_pay16 (k0_pay1 v3) 0#32 1#32 k acc.1 (View.readAt (Elt F) arg1.view (Rect.unit (s := S8192x256) (k0_off2 k) S512x256.size (k0_off2_inb k)).toLoadRect X1) (View.readAt (Elt F) arg7.view (Rect.unit (s := S256x128) ![0, 0] S256x128.size inb_S256x128_S256x128_0_0).toLoadRect g7)⟩]) := by
  unfold tripL_k0_t1 trip_k0_t1
  rfl

/-- The state after trip k from the state before it: the yield over chunk k, and one more piece in front of each list. -/
theorem st1_step (k : ℕ) (h : k < k0_t1_loop.trips) :
    (st_k0_t1 (F := F) 𝒱 c bd i arg1 harg1 arg2 harg2 arg3 harg3 arg4 harg4 arg5 harg5 arg6 harg6 arg7 harg7 v3 v5 X1 X3 G5 G6 G7 (k0_pay4, k0_pay5) (k + 1))
      = ((k0_pay13 (k0_pay1 v3) (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k),
          k0_pay6 (k0_pay17 (k0_pay1 v3) (k0_pay2 v5) (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k) ((LKof arg3 X3) k))
            (k0_pay18 (k0_pay1 v3) (st_k0_t1 (F := F) 𝒱 c bd i arg1 harg1 arg2 harg2 arg3 harg3 arg4 harg4 arg5 harg5 arg6 harg6 arg7 harg7 v3 v5 X1 X3 G5 G6 G7 (k0_pay4, k0_pay5) k).1.1 (st_k0_t1 (F := F) 𝒱 c bd i arg1 harg1 arg2 harg2 arg3 harg3 arg4 harg4 arg5 harg5 arg6 harg6 arg7 harg7 v3 v5 X1 X3 G5 G6 G7 (k0_pay4, k0_pay5) k).1.2 ((Kof arg1 X1) k))),
         (⟨(Rect.unit (s := S256x8192) (k0_off4 ⟨k, h⟩) S256x512.size (k0_off4_inb ⟨k, h⟩)), k0_pay12 (k0_pay1 v3) ((Kof arg1 X1) k)⟩ : View.Piece (Elt F) S256x8192 .f32) :: (st_k0_t1 (F := F) 𝒱 c bd i arg1 harg1 arg2 harg2 arg3 harg3 arg4 harg4 arg5 harg5 arg6 harg6 arg7 harg7 v3 v5 X1 X3 G5 G6 G7 (k0_pay4, k0_pay5) k).2.1,
         (⟨(Rect.unit (s := S256x8192) (k0_off4 ⟨k, h⟩) S256x512.size (k0_off4_inb ⟨k, h⟩)), k0_pay15 (k0_pay1 v3) (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k)⟩ : View.Piece (Elt F) S256x8192 .f32) :: (st_k0_t1 (F := F) 𝒱 c bd i arg1 harg1 arg2 harg2 arg3 harg3 arg4 harg4 arg5 harg5 arg6 harg6 arg7 harg7 v3 v5 X1 X3 G5 G6 G7 (k0_pay4, k0_pay5) k).2.2.1,
         (⟨(Rect.unit (s := S256x128) ![0, 0] S256x128.size inb_S256x128_S256x128_0_0), k0_pay16 (k0_pay1 v3) 0#32 1#32 ⟨k, h⟩ (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k) (View.readAt (Elt F) arg7.view (Rect.unit (s := S256x128) ![0, 0] S256x128.size inb_S256x128_S256x128_0_0).toLoadRect (arg7.view.writes (Elt F) G7 (st_k0_t1 (F := F) 𝒱 c bd i arg1 harg1 arg2 harg2 arg3 harg3 arg4 harg4 arg5 harg5 arg6 harg6 arg7 harg7 v3 v5 X1 X3 G5 G6 G7 (k0_pay4, k0_pay5) k).2.2.2))⟩ : View.Piece (Elt F) S256x128 .f32) :: (st_k0_t1 (F := F) 𝒱 c bd i arg1 harg1 arg2 harg2 arg3 harg3 arg4 harg4 arg5 harg5 arg6 harg6 arg7 harg7 v3 v5 X1 X3 G5 G6 G7 (k0_pay4, k0_pay5) k).2.2.2) := by
  refine (st_k0_t1_succ (F := F) 𝒱 c bd i arg1 harg1 arg2 harg2 arg3 harg3 arg4 harg4 arg5 harg5 arg6 harg6 arg7 harg7 v3 v5 X1 X3 G5 G6 G7 (k0_pay4, k0_pay5) ⟨k, h⟩).trans ?_
  rw [tripR1_eq, tripL1_eq, ← Kof_fin arg1 X1 ⟨k, h⟩, ← LKof_fin arg3 X3 ⟨k, h⟩]
  rfl

/-- The invariant of pass 1. Before trip k the carried pair is the model's; the pieces stored into the two caches are,
newest first, the chunks j < k of the logits and of the exponentials, each through its own column range; and the history
block reads as the model's history after k chunks. -/
theorem inv1 (k : ℕ) (hk : k ≤ k0_t1_loop.trips) :
    (st_k0_t1 (F := F) 𝒱 c bd i arg1 harg1 arg2 harg2 arg3 harg3 arg4 harg4 arg5 harg5 arg6 harg6 arg7 harg7 v3 v5 X1 X3 G5 G6 G7 (k0_pay4, k0_pay5) k).1 = (Model.st1 v3 v5 (Kof arg1 X1) (LKof arg3 X3) k)
    ∧ (st_k0_t1 (F := F) 𝒱 c bd i arg1 harg1 arg2 harg2 arg3 harg3 arg4 harg4 arg5 harg5 arg6 harg6 arg7 harg7 v3 v5 X1 X3 G5 G6 G7 (k0_pay4, k0_pay5) k).2.1 = View.tilePieces (s := S256x8192) (e := .f32) (Val := Elt F) S256x512.size (fun j : Fin k0_t1_loop.trips => k0_off4 j) k0_off4_inb (fun j => k0_pay12 (k0_pay1 v3) ((Kof arg1 X1) j.val)) k hk
    ∧ (st_k0_t1 (F := F) 𝒱 c bd i arg1 harg1 arg2 harg2 arg3 harg3 arg4 harg4 arg5 harg5 arg6 harg6 arg7 harg7 v3 v5 X1 X3 G5 G6 G7 (k0_pay4, k0_pay5) k).2.2.1 = View.tilePieces (s := S256x8192) (e := .f32) (Val := Elt F) S256x512.size (fun j : Fin k0_t1_loop.trips => k0_off4 j) k0_off4_inb (fun j => k0_pay15 (k0_pay1 v3) (Model.st1 v3 v5 (Kof arg1 X1) (LKof arg3 X3) j.val).1 ((Kof arg1 X1) j.val)) k hk
    ∧ (View.readAt (Elt F) arg7.view (Rect.unit (s := S256x128) ![0, 0] S256x128.size inb_S256x128_S256x128_0_0).toLoadRect (arg7.view.writes (Elt F) G7 (st_k0_t1 (F := F) 𝒱 c bd i arg1 harg1 arg2 harg2 arg3 harg3 arg4 harg4 arg5 harg5 arg6 harg6 arg7 harg7 v3 v5 X1 X3 G5 G6 G7 (k0_pay4, k0_pay5) k).2.2.2)) = Model.hist v3 v5 (Kof arg1 X1) (LKof arg3 X3) (View.readAt (Elt F) arg7.view (Rect.unit (s := S256x128) ![0, 0] S256x128.size inb_S256x128_S256x128_0_0).toLoadRect G7) k := by
  induction k with
  | zero => exact ⟨rfl, rfl, rfl, rfl⟩
  | succ k ih =>
    have h : k < k0_t1_loop.trips := hk
    obtain ⟨ih1, ih5, ih6, ih7⟩ := ih (Nat.le_of_succ_le hk)
    have hs := st1_step (F := F) 𝒱 c bd i arg1 harg1 arg2 harg2 arg3 harg3 arg4 harg4 arg5 harg5 arg6 harg6 arg7 harg7 v3 v5 X1 X3 G5 G6 G7 k h
    refine ⟨?_, ?_, ?_, ?_⟩
    · rw [hs, ih1]; rfl
    · rw [hs, ih5]; rfl
    · rw [hs, ih6, ih1]; rfl
    · rw [hs]
      refine (readAt_writes_cons_whole7 arg7 G7 _ _).trans ?_
      rw [ih1, ih7]
      symm
      rw [Model.hist, dif_pos h]

end Pass1

/-- The sixteen chunk stores go through disjoint column ranges: a read of the column range of chunk j after all of
them is chunk j's payload. The range read is given by its offsets, equal to those chunk j was stored at. -/
theorem readAt_tiles (arg : Memref sig .tc .vmem S256x8192 .f32) (g : BufTy.Contents (Elt F) arg.view.ty)
    (P : Fin k0_t1_loop.trips → (⟨S256x8192.rank, S256x512.size⟩ : Shape).Idx → Elt F .f32) (j : Fin k0_t1_loop.trips)
    (off : Fin S256x8192.rank → ℕ) (inb : ∀ a, off a + S256x512.size a ≤ S256x8192.size a) (hoff : off = k0_off4 j) :
    View.readAt (Elt F) arg.view (Rect.unit (s := S256x8192) off S256x512.size inb).toLoadRect
        (arg.view.writes (Elt F) g (View.tilePieces (s := S256x8192) (e := .f32) (Val := Elt F) S256x512.size (fun j : Fin k0_t1_loop.trips => k0_off4 j) k0_off4_inb P k0_t1_loop.trips (Nat.le_refl _)))
      = P j := by
  subst hoff
  funext x
  rw [View.readAt_apply]
  refine View.read_tilePieces arg.view g S256x512.size (fun j : Fin k0_t1_loop.trips => k0_off4 j) k0_off4_inb P _ _ _ j j.isLt x ?_ (1 : Fin 2) ?_
  · intro a
    rw [LoadRect.idx_apply]
    show k0_off4 j a + 1 * (x a).val = k0_off4 j a + (x a).val
    rw [Nat.one_mul]
  · intro i' hne
    rw [LoadRect.idx_apply]
    have h4j : k0_off4 j (1 : Fin 2) = 512 * j.val := congrFun (k0_off4_eq j) (1 : Fin 2)
    have h4i : k0_off4 i' (1 : Fin 2) = 512 * i'.val := congrFun (k0_off4_eq i') (1 : Fin 2)
    have hx : (x (1 : Fin 2)).val < 512 := (x (1 : Fin 2)).isLt
    have hij : i'.val ≠ j.val := fun e => hne (Fin.ext e)
    show k0_off4 j (1 : Fin 2) + 1 * (x (1 : Fin 2)).val < k0_off4 i' (1 : Fin 2) ∨ k0_off4 i' (1 : Fin 2) + 512 ≤ k0_off4 j (1 : Fin 2) + 1 * (x (1 : Fin 2)).val
    omega

/-- The two loops have the same trip count, so a trip index of pass 2 is one of pass 1. -/
theorem trips21 (k2 : Fin k0_t2_loop.trips) : k2.val < k0_t1_loop.trips :=
  Nat.lt_of_lt_of_le k2.isLt (le_of_eq (trips2_eq.trans trips1_eq.symm))

/-- Pass 2 reads chunk k of the caches at the offsets pass 1 stored chunk k at. -/
theorem off6_eq_off4 (k2 : Fin k0_t2_loop.trips) : k0_off6 k2 = k0_off4 ⟨k2.val, trips21 k2⟩ := by
  rw [k0_off6_eq, k0_off4_eq]

/-- The carried pair before trip k is the model's. -/
theorem st1_carried (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k : ℕ) (hk : k ≤ 16) :
    (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) k).1 = Model.st1 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2) k := by
  exact (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 k (by rw [trips1_eq]; exact hk)).1

/-- After the loop, chunk k of the logits cache reads as the model's chunk. -/
theorem arg5_chunk (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k2 : Fin k0_t2_loop.trips) :
    View.readAt (Elt F) arg5.view (Rect.unit (s := S256x8192) (k0_off6 k2) S256x512.size (k0_off6_inb k2)).toLoadRect
        (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1)
      = Model.logitsC (View.readAt (Elt F) arg1.view (Rect.unit (s := S8192x256) (k0_off1 i) S256x256.size (k0_off1_inb i)).toLoadRect f0) (Kof arg1 f0) k2.val := by
  have e : Scf.trips k0_t1_loop.lb k0_t1_loop.ub k0_t1_loop.st = k0_t1_loop.trips := rfl
  rw [e, (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 k0_t1_loop.trips (Nat.le_refl _)).2.1]
  exact readAt_tiles arg5 f5 _ ⟨k2.val, trips21 k2⟩ _ _ (off6_eq_off4 k2)

/-- After the loop, chunk k of the exponentials cache reads as the model's chunk. -/
theorem arg6_chunk (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k2 : Fin k0_t2_loop.trips) :
    View.readAt (Elt F) arg6.view (Rect.unit (s := S256x8192) (k0_off6 k2) S256x512.size (k0_off6_inb k2)).toLoadRect
        (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1)
      = Model.expC (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2) k2.val := by
  have e : Scf.trips k0_t1_loop.lb k0_t1_loop.ub k0_t1_loop.st = k0_t1_loop.trips := rfl
  rw [e, (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 k0_t1_loop.trips (Nat.le_refl _)).2.2.1]
  exact readAt_tiles arg6 f6 _ ⟨k2.val, trips21 k2⟩ _ _ (off6_eq_off4 k2)

/-- After the loop, the history buffer reads as the model's history from what the buffer held before. -/
theorem arg7_whole (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) :
    View.readAt (Elt F) arg7.view (Rect.unit (s := S256x128) ![0, 0] S256x128.size inb_S256x128_S256x128_0_0).toLoadRect
        (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2)
      = Model.hist (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2)
          (View.readAt (Elt F) arg7.view (Rect.unit (s := S256x128) ![0, 0] S256x128.size inb_S256x128_S256x128_0_0).toLoadRect f7) 16 := by
  have e : Scf.trips k0_t1_loop.lb k0_t1_loop.ub k0_t1_loop.st = 16 := trips1_eq
  rw [e]
  exact (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 16 (by rw [trips1_eq])).2.2.2

/-- Pass 2 loads chunk k of the label row through its own offsets: the same chunk as pass 1's. -/
theorem lk_chunk (arg3 : Memref sig .tc .vmem S1x8192 .i32) (f2 : BufTy.Contents (Elt F) arg3.view.ty) (k2 : Fin k0_t2_loop.trips) :
    View.readAt (Elt F) arg3.view (Rect.unit (s := S1x8192) (k0_off5 k2) S1x512.size (k0_off5_inb k2)).toLoadRect f2 = LKof arg3 f2 k2.val := by
  unfold LKof
  refine readAt_unit_congr arg3.view f2 ?_ _ _
  have hm : k2.val % k0_t1_loop.trips = k2.val := Nat.mod_eq_of_lt (trips21 k2)
  rw [k0_off5_eq, k0_off3_eq]
  show (![0, 512 * k2.val] : Fin 2 → ℕ) = ![0, 512 * (k2.val % k0_t1_loop.trips)]
  rw [hm]

end Cert.Kernel.Body

end
-- ==== Proof.KTripEq2.lean ====
/-
  Pass 2 of the kernel body, as the loop's run records it, is the pure recursion Model.st2 over the caches pass 1 left;
  the block it stores is Model.out. Pass 2 reads the history only through a select on lane k at trip k, and pass 1 has
  written lanes 0 to 15, so what the history buffer held before the body does not matter.
-/
import proofs.«406646_j46145128629053_3_alg».proof.Proof.KTripEq1

set_option maxRecDepth 16384

noncomputable section

namespace Cert.Kernel.Body

open Cert.Kernel Cert.Kernel.Gen
open Idealize.ShloMosaic Idealize.ShloMosaic.TcCoe Idealize.SL.Sem

variable {F : FTy → Type} [FloatOps F]

/-- The loop's induction word from 0 by steps of 1 is the trip number's word. -/
theorem iv_word (n : ℕ) : Scf.iv 0#32 1#32 n = BitVec.ofNat 32 n := by
  unfold Scf.iv
  simp

/-- An equality test of two words is 1 exactly when the words are equal. -/
theorem cmpi_eq_one_iff (x y : BitVec 32) : IntOp.cmpi .eq x y = 1#1 ↔ x = y := by
  show BitVec.ofBool (x == y) = 1#1 ↔ x = y
  by_cases h : x = y
  · subst h
    simp
  · have hb : (x == y) = false := beq_eq_false_iff_ne.mpr h
    rw [hb]
    exact ⟨fun e => absurd e (by decide), fun e => absurd e h⟩

/-- Two numbers below 2^32 have the same 32-bit word exactly when they are equal. -/
theorem ofNat32_inj {a b : ℕ} (ha : a < 2 ^ 32) (hb : b < 2 ^ 32) : BitVec.ofNat 32 a = BitVec.ofNat 32 b ↔ a = b := by
  constructor
  · intro h
    have h1 : (BitVec.ofNat 32 a).toNat = (BitVec.ofNat 32 b).toNat := congrArg BitVec.toNat h
    rw [BitVec.toNat_ofNat, BitVec.toNat_ofNat, Nat.mod_eq_of_lt ha, Nat.mod_eq_of_lt hb] at h1
    exact h1
  · rintro rfl; rfl

/-- The lane word at index j of a 256 x 128 block is the word of j's lane. -/
theorem lane_word (j : S256x128.Idx) : iota .tc S256x128 32 [1] iota_S256x128_d1_w32 j = BitVec.ofNat 32 (j 1).val := by
  simp [iota]

/-- The lane test of trip n: at index j of a 256 x 128 block the lane word equals the trip's word exactly when j's lane
    is n. -/
theorem laneTest (n : ℕ) (hn : n < 2 ^ 32) (j : S256x128.Idx) :
    cmpi .eq (iota .tc S256x128 32 [1] iota_S256x128_d1_w32) (broadcast S256x128 (Scf.iv 0#32 1#32 n)) j = 1#1
      ↔ (j 1).val = n := by
  show IntOp.cmpi .eq (iota .tc S256x128 32 [1] iota_S256x128_d1_w32 j) (Scf.iv 0#32 1#32 n) = 1#1 ↔ _
  rw [cmpi_eq_one_iff, lane_word, iv_word]
  have hj : (j 1).val < 128 := (j 1).isLt
  exact ofNat32_inj (by omega) hn

/-- A select on a bit that is not 1 takes its second value. -/
theorem select_of_ne_one {α : Type} {c : BitVec 1} (h : ¬ c = 1#1) (a b : α) : Scalar.select c a b = b := if_neg h

/-- Trip k's first carried value reads the history only on lane k. -/
theorem pay20_congr (v6 v9 : IVec S256x1 32) (v13_0 v13_1 : FVec F S256x1 .f32) (k : Fin k0_t2_loop.trips)
    (arg9 : FVec F S256x1 .f32) (v25 : Vec F S1x512 .i32) (v31 v33 : Vec F S256x512 .f32) (H H' : Vec F S256x128 .f32)
    (hH : ∀ j : S256x128.Idx, (j 1).val = k.val → H j = H' j) :
    k0_pay20 v6 v9 v13_0 v13_1 0#32 1#32 k arg9 v25 v31 v33 H = k0_pay20 v6 v9 v13_0 v13_1 0#32 1#32 k arg9 v25 v31 v33 H' := by
  have hsel : select (cmpi .eq (iota .tc S256x128 32 [1] iota_S256x128_d1_w32) (broadcast S256x128 (Scf.iv 0#32 1#32 k))) H
        (broadcast S256x128 (Scalar.ofBits (F := F) .f32 0x00000000#32))
      = select (cmpi .eq (iota .tc S256x128 32 [1] iota_S256x128_d1_w32) (broadcast S256x128 (Scf.iv 0#32 1#32 k))) H'
        (broadcast S256x128 (Scalar.ofBits (F := F) .f32 0x00000000#32)) := by
    funext j
    show Scalar.select (cmpi .eq (iota .tc S256x128 32 [1] iota_S256x128_d1_w32) (broadcast S256x128 (Scf.iv 0#32 1#32 k)) j) (H j) _
      = Scalar.select (cmpi .eq (iota .tc S256x128 32 [1] iota_S256x128_d1_w32) (broadcast S256x128 (Scf.iv 0#32 1#32 k)) j) (H' j) _
    by_cases hb : cmpi .eq (iota .tc S256x128 32 [1] iota_S256x128_d1_w32) (broadcast S256x128 (Scf.iv 0#32 1#32 k)) j = 1#1
    · rw [hH j ((laneTest k.val (by have := k.isLt; have := trips2_eq; omega) j).1 hb)]
    · rw [select_of_ne_one hb, select_of_ne_one hb]
  unfold k0_pay20
  dsimp only
  rw [hsel]

/-- A select on a bit that is 1 takes its first value. -/
theorem select_of_eq_one {α : Type} {c : BitVec 1} (h : c = 1#1) (a b : α) : Scalar.select c a b = a := if_pos h

/-- A shape cast to the same shape reads the same index. -/
theorem shapeCast_same_apply {s : Shape} {α : Type} (v : s.Idx → α) (h : s.ShapeCasts s) (j : s.Idx) : shapeCast s v h j = v j :=
  congrArg v (Shape.reshapeEquiv_self _ j)

/-- After n trips of pass 1 the histories from two starting contents agree on the lanes below n: trip n writes the new
    maximum, the same from both, into lane n and keeps every other lane. -/
theorem hist_agree (Q : Vec F S256x256 .bf16) (LQ : Vec F S256x1 .i32) (K : ℕ → Vec F S512x256 .bf16) (LK : ℕ → Vec F S1x512 .i32)
    (h0 h0' : Vec F S256x128 .f32) : ∀ n : ℕ, n ≤ 16 → ∀ j : S256x128.Idx, (j 1).val < n →
      Model.hist Q LQ K LK h0 n j = Model.hist Q LQ K LK h0' n j
  | 0, _, j, hj => absurd hj (Nat.not_lt_zero _)
  | n + 1, hn, j, hj => by
    have hlt : n < k0_t1_loop.trips := by rw [trips1_eq]; omega
    rw [Model.hist.eq_2, Model.hist.eq_2, dif_pos hlt, dif_pos hlt]
    unfold k0_pay16
    dsimp only
    rw [shapeCast_same_apply, shapeCast_same_apply]
    show Scalar.select (cmpi .eq (iota .tc S256x128 32 [1] iota_S256x128_d1_w32) (broadcast S256x128 (Scf.iv 0#32 1#32 n)) j) _
          (Model.hist Q LQ K LK h0 n j)
      = Scalar.select (cmpi .eq (iota .tc S256x128 32 [1] iota_S256x128_d1_w32) (broadcast S256x128 (Scf.iv 0#32 1#32 n)) j) _
          (Model.hist Q LQ K LK h0' n j)
    by_cases hb : cmpi .eq (iota .tc S256x128 32 [1] iota_S256x128_d1_w32) (broadcast S256x128 (Scf.iv 0#32 1#32 n)) j = 1#1
    · -- lane n: both sides take the new maximum
      rw [select_of_eq_one hb, select_of_eq_one hb]
    · -- another lane, so one below n: both sides keep the history, equal there by induction
      have hne : (j 1).val ≠ n := fun e => hb ((laneTest n (by omega) j).2 e)
      rw [select_of_ne_one hb, select_of_ne_one hb]
      exact hist_agree Q LQ K LK h0 h0' n (by omega) j (by omega)

/-- Pass 2 from two histories that agree on lanes 0 to 15 carries the same pair: trip k reads lane k only. -/
theorem st2_agree (i : grid0.Coords) (Q : Vec F S256x256 .bf16) (LQ : Vec F S256x1 .i32) (K : ℕ → Vec F S512x256 .bf16)
    (LK : ℕ → Vec F S1x512 .i32) (H H' : Vec F S256x128 .f32) (hH : ∀ j : S256x128.Idx, (j 1).val < 16 → H j = H' j) :
    ∀ k : ℕ, Model.st2 i Q LQ K LK H k = Model.st2 i Q LQ K LK H' k
  | 0 => rfl
  | k + 1 => by
    rw [Model.st2.eq_2, Model.st2.eq_2, st2_agree i Q LQ K LK H H' hH k]
    by_cases h : k < k0_t2_loop.trips
    · rw [dif_pos h, dif_pos h]
      rw [pay20_congr _ _ _ _ ⟨k, h⟩ _ _ _ _ H H' (fun j hj => hH j (by
        have h16 := trips2_eq
        have hjk : (j 1).val = k := hj
        omega))]
    · rw [dif_neg h, dif_neg h]

/-- The result block is the same from any two starting contents of the history: pass 1 writes lane k at trip k, and pass 2
    reads lane k only. -/
theorem outOf_hist_indep (i : grid0.Coords) (Q : Vec F S256x256 .bf16) (LQ : Vec F S256x1 .i32)
    (K : ℕ → Vec F S512x256 .bf16) (LK : ℕ → Vec F S1x512 .i32) (h0 h0' : Vec F S256x128 .f32) :
    Model.outOf i Q LQ K LK (Model.hist Q LQ K LK h0 16) = Model.outOf i Q LQ K LK (Model.hist Q LQ K LK h0' 16) := by
  unfold Model.outOf
  rw [st2_agree i Q LQ K LK _ _ (fun j hj => hist_agree Q LQ K LK h0 h0' 16 (le_refl _) j hj) 16]

/-- Trip k of pass 2, opened once: from the carried pair acc it yields the first payload of the four blocks it loads (chunk k
    of the label row, chunk k of each cache, the whole history) and the count's payload of the label chunk. -/
theorem tripR2_eq (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (v5 : Vec F S256x1 .i32) (v13_0 v13_1 : FVec F S256x1 .f32) (X_arg3 : BufTy.Contents (Elt F) arg3.view.ty)
    (X_arg5 : BufTy.Contents (Elt F) arg5.view.ty) (X_arg6 : BufTy.Contents (Elt F) arg6.view.ty) (X_arg7 : BufTy.Contents (Elt F) arg7.view.ty)
    (k : Fin k0_t2_loop.trips) (acc : FVec F S256x1 .f32 × FVec F S256x1 .f32) :
    tripR_k0_t2 (F := F) 𝒱 c bd i arg1 harg1 arg2 harg2 arg3 harg3 arg4 harg4 arg5 harg5 arg6 harg6 arg7 harg7 v5 v13_0 v13_1 X_arg3 X_arg5 X_arg6 X_arg7 k acc
      = (k0_pay20 (k0_pay2 v5) (k0_pay3 i) v13_0 v13_1 0#32 1#32 k acc.1
            (View.readAt (Elt F) arg3.view (Rect.unit (s := S1x8192) (k0_off5 k) S1x512.size (k0_off5_inb k)).toLoadRect X_arg3)
            (View.readAt (Elt F) arg5.view (Rect.unit (s := S256x8192) (k0_off6 k) S256x512.size (k0_off6_inb k)).toLoadRect X_arg5)
            (View.readAt (Elt F) arg6.view (Rect.unit (s := S256x8192) (k0_off6 k) S256x512.size (k0_off6_inb k)).toLoadRect X_arg6)
            (View.readAt (Elt F) arg7.view (Rect.unit (s := S256x128) ![0, 0] S256x128.size inb_S256x128_S256x128_0_0).toLoadRect X_arg7),
          k0_pay9 acc.2 (k0_pay21 (k0_pay2 v5) (k0_pay3 i) 0#32 1#32 k
            (View.readAt (Elt F) arg3.view (Rect.unit (s := S1x8192) (k0_off5 k) S1x512.size (k0_off5_inb k)).toLoadRect X_arg3))) := by
  unfold tripR_k0_t2
  rw [trip_k0_t2.eq_1]
  rfl

/-- Pass 2's recursion over ANY contents of the four buffers it reads: if chunk k of the label row reads as LK k, chunk k of
    the two caches as the model's chunks, the history as H, and the pair pass 1 left is the model's after 16 chunks, then
    the carried pair before trip k is the model's. By induction on k: trip k's yield, opened, is the model's step. -/
theorem st2_carried_gen (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (LQ : Vec F S256x1 .i32) (P : FVec F S256x1 .f32 × FVec F S256x1 .f32) (X_arg3 : BufTy.Contents (Elt F) arg3.view.ty)
    (X_arg5 : BufTy.Contents (Elt F) arg5.view.ty) (X_arg6 : BufTy.Contents (Elt F) arg6.view.ty) (X_arg7 : BufTy.Contents (Elt F) arg7.view.ty)
    (Q : Vec F S256x256 .bf16) (K : ℕ → Vec F S512x256 .bf16) (LK : ℕ → Vec F S1x512 .i32) (H : Vec F S256x128 .f32)
    (hP : P = Model.st1 Q LQ K LK 16)
    (h3 : ∀ k : Fin k0_t2_loop.trips, View.readAt (Elt F) arg3.view (Rect.unit (s := S1x8192) (k0_off5 k) S1x512.size (k0_off5_inb k)).toLoadRect X_arg3 = LK k.val)
    (h5 : ∀ k : Fin k0_t2_loop.trips, View.readAt (Elt F) arg5.view (Rect.unit (s := S256x8192) (k0_off6 k) S256x512.size (k0_off6_inb k)).toLoadRect X_arg5 = Model.logitsC Q K k.val)
    (h6 : ∀ k : Fin k0_t2_loop.trips, View.readAt (Elt F) arg6.view (Rect.unit (s := S256x8192) (k0_off6 k) S256x512.size (k0_off6_inb k)).toLoadRect X_arg6 = Model.expC Q LQ K LK k.val)
    (h7 : View.readAt (Elt F) arg7.view (Rect.unit (s := S256x128) ![0, 0] S256x128.size inb_S256x128_S256x128_0_0).toLoadRect X_arg7 = H) (k : ℕ) (hk : k ≤ 16) :
    st_k0_t2 (F := F) 𝒱 c bd i arg1 harg1 arg2 harg2 arg3 harg3 arg4 harg4 arg5 harg5 arg6 harg6 arg7 harg7 LQ P.1 P.2 X_arg3 X_arg5 X_arg6 X_arg7 (k0_pay7, k0_pay8) k = Model.st2 i Q LQ K LK H k := by
  subst hP
  induction k with
  | zero => rfl
  | succ k ih =>
    have hlt : k < k0_t2_loop.trips := by rw [trips2_eq]; omega
    refine (st_k0_t2_succ (F := F) 𝒱 c bd i arg1 harg1 arg2 harg2 arg3 harg3 arg4 harg4 arg5 harg5 arg6 harg6 arg7 harg7 LQ _ _ X_arg3 X_arg5 X_arg6 X_arg7 (k0_pay7, k0_pay8) ⟨k, hlt⟩).trans ?_
    rw [tripR2_eq, h3 ⟨k, hlt⟩, h5 ⟨k, hlt⟩, h6 ⟨k, hlt⟩, h7]
    dsimp only
    rw [ih (by omega), Model.st2.eq_2, dif_pos hlt]

/-- The carried pair of pass 2 before trip k is the model's, reading the history pass 1 left. -/
theorem st2_carried (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k : ℕ) (hk : k ≤ 16) :
    (st_k0_t2 (F := F) 𝒱 c bd i arg1 harg1 arg2 harg2 arg3 harg3 arg4 harg4 arg5 harg5 arg6 harg6 arg7 harg7 (View.readAt (Elt F) arg2.view (Rect.unit (s := S256x1) ![0, 0] S256x1.size inb_S256x1_S256x1_0_0).toLoadRect f1) (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.1 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.2 f2 (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1) (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1) (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2) (k0_pay7, k0_pay8) k)
      = Model.st2 i (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2)
          (Model.hist (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2)
            (View.readAt (Elt F) arg7.view (Rect.unit (s := S256x128) ![0, 0] S256x128.size inb_S256x128_S256x128_0_0).toLoadRect f7) 16) k := by
  have T1 : Scf.trips k0_t1_loop.lb k0_t1_loop.ub k0_t1_loop.st = 16 := trips1_eq
  refine st2_carried_gen 𝒱 c bd i arg1 harg1 arg2 harg2 arg3 harg3 arg4 harg4 arg5 harg5 arg6 harg6 arg7 harg7 _ _ f2 _ _ _ _ (Kof arg1 f0) (LKof arg3 f2) _ ?_ ?_ ?_ ?_ ?_ k hk
  · -- the pair pass 1 left is the model's after all 16 chunks
    exact (st1_carried 𝒱 c bd i arg1 harg1 arg2 harg2 arg3 harg3 arg4 harg4 arg5 harg5 arg6 harg6 arg7 harg7 f0 f1 f2 f5 f6 f7 _ (le_of_eq T1)).trans (congrArg (Model.st1 _ _ _ _) T1)
  · exact fun k2 => lk_chunk arg3 f2 k2
  · exact fun k2 => arg5_chunk 𝒱 c bd i arg1 harg1 arg2 harg2 arg3 harg3 arg4 harg4 arg5 harg5 arg6 harg6 arg7 harg7 f0 f1 f2 f5 f6 f7 k2
  · exact fun k2 => arg6_chunk 𝒱 c bd i arg1 harg1 arg2 harg2 arg3 harg3 arg4 harg4 arg5 harg5 arg6 harg6 arg7 harg7 f0 f1 f2 f5 f6 f7 k2
  · exact arg7_whole 𝒱 c bd i arg1 harg1 arg2 harg2 arg3 harg3 arg4 harg4 arg5 harg5 arg6 harg6 arg7 harg7 f0 f1 f2 f5 f6 f7

/-- What the body stores into the result block, in the run's own terms, is the model's block. -/
theorem out_eq (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) :
    k0_pay10 (st_k0_t2 (F := F) 𝒱 c bd i arg1 harg1 arg2 harg2 arg3 harg3 arg4 harg4 arg5 harg5 arg6 harg6 arg7 harg7 (View.readAt (Elt F) arg2.view (Rect.unit (s := S256x1) ![0, 0] S256x1.size inb_S256x1_S256x1_0_0).toLoadRect f1) (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.1 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.2 f2 (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1) (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1) (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2) (k0_pay7, k0_pay8) (Scf.trips k0_t2_loop.lb k0_t2_loop.ub k0_t2_loop.st)).1 (st_k0_t2 (F := F) 𝒱 c bd i arg1 harg1 arg2 harg2 arg3 harg3 arg4 harg4 arg5 harg5 arg6 harg6 arg7 harg7 (View.readAt (Elt F) arg2.view (Rect.unit (s := S256x1) ![0, 0] S256x1.size inb_S256x1_S256x1_0_0).toLoadRect f1) (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.1 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.2 f2 (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1) (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1) (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2) (k0_pay7, k0_pay8) (Scf.trips k0_t2_loop.lb k0_t2_loop.ub k0_t2_loop.st)).2
      = Model.out i (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2) := by
  have T2 : Scf.trips k0_t2_loop.lb k0_t2_loop.ub k0_t2_loop.st = 16 := trips2_eq
  -- the carried pair after the last trip is the model's after 16 chunks, over the history pass 1 left from f7's block
  have e := (st2_carried 𝒱 c bd i arg1 harg1 arg2 harg2 arg3 harg3 arg4 harg4 arg5 harg5 arg6 harg6 arg7 harg7 f0 f1 f2 f5 f6 f7 _ (le_of_eq T2)).trans (congrArg (Model.st2 i _ _ _ _ _) T2)
  rw [e]
  -- and that history may be exchanged for the one from the zero block
  exact outOf_hist_indep i _ _ _ _ _ _

end Cert.Kernel.Body

end
-- ==== Proof.KRun.lean ====
/-
  The kernel body's run and the launch. At a grid point the body finds the resident feature block, the point's label
  column and the resident label row in their staging buffers, and three scratch buffers holding anything; it leaves the
  inputs as they were, the scratch at something, and the result's staging buffer at the block Model.out computes from
  the loaded values (the two counted loops are run by their invariants; what they carry is the pure recursion of
  TripEq2.out_eq). With that as the proof data the pipeline's launch theorem gives the program's run: every array of
  the pipeline ends at what the write-backs leave, every other buffer as it was, and the host operations after the
  region read the result array.
-/
import proofs.«406646_j46145128629053_3_alg».proof.Proof.Gen.Kernel.Frame
import proofs.«406646_j46145128629053_3_alg».proof.Proof.Gen.Kernel.Loops
import proofs.«406646_j46145128629053_3_alg».proof.Proof.KTripEq2

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The whole result block as one rectangle. -/
abbrev rOut : Rect S256x1 := Rect.unit (s := S256x1) ![0, 0] S256x1.size inb_S256x1_S256x1_0_0

/-- The values the body loads, from the contents its three input buffers read as: the query rows of the point, the
    point's labels, chunk k of the key rows and of the key labels. -/
def ldQ (i : grid0.Coords) (x0 : Vec F S8192x256 .bf16) : Vec F S256x256 .bf16 :=
  View.ld x0 (Rect.unit (s := S8192x256) (k0_off1 i) S256x256.size (k0_off1_inb i))
def ldLQ (x1 : Vec F S256x1 .i32) : Vec F S256x1 .i32 :=
  View.ld x1 (Rect.unit (s := S256x1) ![0, 0] S256x1.size inb_S256x1_S256x1_0_0)
def ldK (x0 : Vec F S8192x256 .bf16) (k : ℕ) : Vec F S512x256 .bf16 :=
  View.ld x0 (Rect.unit (s := S8192x256) (k0_off2 ⟨k % k0_t1_loop.trips, Nat.mod_lt _ trips1_pos⟩) S512x256.size (k0_off2_inb _))
def ldLK (x2 : Vec F S1x8192 .i32) (k : ℕ) : Vec F S1x512 .i32 :=
  View.ld x2 (Rect.unit (s := S1x8192) (k0_off3 ⟨k % k0_t1_loop.trips, Nat.mod_lt _ trips1_pos⟩) S1x512.size (k0_off3_inb _))

/-- The result block the body leaves at grid coordinates i, from the contents of its three input buffers. -/
def outBlock (i : grid0.Coords) (x0 : Vec F S8192x256 .bf16) (x1 : Vec F S256x1 .i32) (x2 : Vec F S1x8192 .i32) : Vec F S256x1 .f32 :=
  View.canon [⟨rOut, Model.out i (ldQ i x0) (ldLQ x1) (ldK x0) (ldLK x2)⟩]

/-- The one store covers the block. -/
theorem coverOut (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

/-! ## The body's triple -/

set_option maxHeartbeats 4000000 in
/-- The kernel body on whole memrefs: the inputs at read contents, the result's buffer and the three scratch buffers at
    anything; it runs to the continuation with the inputs as they were, the result at outBlock, the scratch at something. -/
theorem sound_kernel (c : Dev nD) (E : Set ℕ) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (x0 : Vec F S8192x256 .bf16) (x1 : Vec F S256x1 .i32) (x2 : Vec F S1x8192 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f)
        ∗ (iprop(owns (c : Thread nD τ) arg1 fullShare x0 ∗ owns (c : Thread nD τ) arg2 fullShare x1 ∗ owns (c : Thread nD τ) arg3 fullShare x2 ∗ owns (c : Thread nD τ) arg4 fullShare (outBlock i x0 x1 x2)
            ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f)) -∗ K ⟨⟩))
      ⊢ wp frame (wpE (defs₀ (F := F)) Variants.none c none) E (cc0__contrastive_kernel i arg1 harg1 arg2 harg2 arg3 harg3 arg4 harg4 arg5 harg5 arg6 harg6 arg7 harg7) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%d3, %f3, -, H3⟩, ⟨%f5, H5⟩, ⟨%f6, H6⟩, ⟨%f7, H7⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (coverOut _)).trans
      (congrArg (fun w => View.canon [(⟨rOut, w⟩ : View.Piece (Elt F) S256x1 .f32)]) (out_eq Variants.none c none i arg1 harg1 arg2 harg2 arg3 harg3 arg4 harg4 arg5 harg5 arg6 harg6 arg7 harg7 f0 f1 f2 f5 f6 f7))
  isplitl [H5]; · iexists _; iexact H5
  isplitl [H6]; · iexists _; iexact H6
  iexists _; iexact H7

/-! ## The pipeline's proof data -/

/-- The proof data of the one pipeline on core c: the arrays as the region finds them; after the body at point t each
    input's buffer at its block and the result's at outBlock of the three input blocks; the invariant the scratch
    buffers at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (grid0.coords t) (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch buffer b, whole, at some contents: as the invariant states it and as the body's triple takes it. -/
theorem scratch_eq (c : Dev nD) (b : Ref sig .tc) :
    (iprop(∃ f : Buf (Elt F) ((c : Thread nD τ).loc b), ((c : Thread nD τ).loc b) ↦{fullShare} f) : sProp 𝕄)
      = iprop(∃ f, (Memref.whole b : Memref sig .tc _ _ _).view.loc (c : Thread nD τ) ↦[(Memref.whole b : Memref sig .tc _ _ _).view.set]{fullShare} f) := by
  simp only [Memref.view_whole, View.set_whole]

set_option maxHeartbeats 1000000 in
/-- The body at any point: the inputs' memrefs hold their blocks, the scratch buffers are the invariant's, so the body's
    triple applies; the generator register and the core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq, scratch_eq c cc0_scratch0, scratch_eq c cc0_scratch1, scratch_eq c cc0_scratch2]
  iintro ⟨⟨⟨H5, H6, H7⟩, Hr⟩, Ho, ⟨%d0, H0⟩, ⟨%d1, H1⟩, ⟨%d2, H2⟩, ⟨%d3, H3⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H5]; · iexact H5
  isplitl [H6]; · iexact H6
  isplitl [H7]; · iexact H7
  iintro ⟨H0, H1, H2, H3, H5, H6, H7⟩
  isplitl [H5 H6 H7 Hr]
  · isplitr [Hr]
    · isplitl [H5]; · iexact H5
      isplitl [H6]; · iexact H6
      iexact H7
    · iexact Hr
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; the pipeline's arrays end at what the write-backs leave, every
    other buffer at what the host operations after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Model.lean ====
/-
  The kernel body as a pure function of the values it loads, for any float instance: Q the query rows' block, LQ their
  labels, and per column chunk k the key rows K k and their labels LK k. Pass 1 carries the running row maximum and the
  rescaled sum over the negatives, and leaves three caches: chunk k of the logits, chunk k of exp (logit - running
  maximum after chunk k), and lane k of the history holding the running maximum after chunk k. Pass 2 reads the caches
  back, rescales the cached exponentials to the final maximum, and carries the positives' log-probability sum and count.
  The result block is minus the quotient of the two. The history's lanes from 16 on are whatever the buffer held; the
  result does not depend on them (pass 2 selects lane k only).
-/
import proofs.«406646_j46145128629053_3_alg».proof.Proof.Gen.KernelIdeal.Skeleton

noncomputable section

namespace Cert.KernelIdeal.Model

open Idealize.ShloMosaic Cert.KernelIdeal Cert.KernelIdeal.Gen

variable {F : FTy → Type} [FloatOps F] [Named F]

variable (i : grid0.Coords) (Q : Vec F S256x256 .bf16) (LQ : Vec F S256x1 .i32)
  (K : ℕ → Vec F S512x256 .bf16) (LK : ℕ → Vec F S1x512 .i32)

/-- Pass 1 before chunk k: the running row maximum and the sum over the negatives rescaled to it. -/
def st1 : ℕ → FVec F S256x1 .f32 × FVec F S256x1 .f32
  | 0 => (k0_pay4, k0_pay5)
  | k + 1 => (k0_pay13 (k0_pay1 Q) (st1 k).1 (K k),
      k0_pay6 (k0_pay17 (k0_pay1 Q) (k0_pay2 LQ) (st1 k).1 (K k) (LK k)) (k0_pay18 (k0_pay1 Q) (st1 k).1 (st1 k).2 (K k)))

/-- Chunk k of the cached logits. -/
def logitsC (k : ℕ) : FVec F S256x512 .f32 := k0_pay12 (k0_pay1 Q) (K k)

/-- Chunk k of the cached exponentials: exp (logit - running maximum after chunk k). -/
def expC (k : ℕ) : FVec F S256x512 .f32 := k0_pay15 (k0_pay1 Q) (st1 Q LQ K LK k).1 (K k)

/-- The history buffer before chunk k, from contents h0: chunk k writes the new running maximum into lane k. -/
def hist (h0 : Vec F S256x128 .f32) : ℕ → Vec F S256x128 .f32
  | 0 => h0
  | k + 1 => if h : k < k0_t1_loop.trips then
      k0_pay16 (k0_pay1 Q) 0#32 1#32 ⟨k, h⟩ (st1 Q LQ K LK k).1 (K k) (hist h0 k) else hist h0 k

/-- Pass 2 before chunk k, reading the history H: the positives' log-probability sum and their count. -/
def st2 (H : Vec F S256x128 .f32) : ℕ → FVec F S256x1 .f32 × FVec F S256x1 .f32
  | 0 => (k0_pay7, k0_pay8)
  | k + 1 => if h : k < k0_t2_loop.trips then
      (k0_pay20 (k0_pay2 LQ) (k0_pay3 i) (st1 Q LQ K LK 16).1 (st1 Q LQ K LK 16).2 0#32 1#32 ⟨k, h⟩ (st2 H k).1 (LK k)
          (logitsC Q K k) (expC Q LQ K LK k) H,
        k0_pay9 (st2 H k).2 (k0_pay21 (k0_pay2 LQ) (k0_pay3 i) 0#32 1#32 ⟨k, h⟩ (LK k)))
    else st2 H k

/-- The result block, reading the history H. -/
def outOf (H : Vec F S256x128 .f32) : FVec F S256x1 .f32 :=
  k0_pay10 (st2 i Q LQ K LK H 16).1 (st2 i Q LQ K LK H 16).2

/-- The result block: the history after pass 1 from ANY contents gives the same (outOf_hist_indep), so one is fixed. -/
def out : FVec F S256x1 .f32 :=
  outOf i Q LQ K LK (hist Q LQ K LK (constant S256x128 .f32 0x00000000#32 : FVec F S256x128 .f32) 16)

end Cert.KernelIdeal.Model

end
-- ==== Proof.TripEq1.lean ====
/-
  Pass 1 of the kernel body, as the loop's run records it, is the pure recursion Model.st1: trip k carries the running
  maximum and the rescaled sum computed from chunk k of the key rows and labels, and stores chunk k of the logits, chunk
  k of the exponentials and the history with lane k rewritten. Read back after the loop, chunk k of the first cache is
  Model.logitsC k, chunk k of the second is Model.expC k (the sixteen stores are through disjoint column ranges, so the
  one at chunk k is what a read of chunk k sees), and the history is Model.hist from what the buffer held.
-/
import proofs.«406646_j46145128629053_3_alg».proof.Proof.Gen.KernelIdeal.Loops
import proofs.«406646_j46145128629053_3_alg».proof.Proof.Model
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F] [Named F]

theorem trips1_pos : 0 < k0_t1_loop.trips := by decide
theorem trips1_eq : k0_t1_loop.trips = 16 := by decide
theorem trips2_eq : k0_t2_loop.trips = 16 := by decide

/-- Chunk k of the key rows, as the body loads it from the resident feature block (any k: taken modulo the trip count). -/
def Kof (arg1 : Memref sig .tc .vmem S8192x256 .bf16) (f0 : BufTy.Contents (Elt F) arg1.view.ty) (k : ℕ) : Vec F S512x256 .bf16 :=
  View.readAt (Elt F) arg1.view (Rect.unit (s := S8192x256) (k0_off2 ⟨k % k0_t1_loop.trips, Nat.mod_lt _ trips1_pos⟩) S512x256.size (k0_off2_inb _)).toLoadRect f0

/-- Chunk k of the key labels, as the body loads it from the resident label row. -/
def LKof (arg3 : Memref sig .tc .vmem S1x8192 .i32) (f2 : BufTy.Contents (Elt F) arg3.view.ty) (k : ℕ) : Vec F S1x512 .i32 :=
  View.readAt (Elt F) arg3.view (Rect.unit (s := S1x8192) (k0_off3 ⟨k % k0_t1_loop.trips, Nat.mod_lt _ trips1_pos⟩) S1x512.size (k0_off3_inb _)).toLoadRect f2

/-- A read through a unit-stride rectangle depends on the rectangle's offsets only. -/
theorem readAt_unit_congr {κ : Kind} {sp : Space} {s : Shape} {e : EltTy} (v : View sig κ sp s e) (f : BufTy.Contents (Elt F) v.ty)
    {off off' size : Fin s.rank → ℕ} (h : off = off')
    (inb : ∀ a, off a + size a ≤ s.size a) (inb' : ∀ a, off' a + size a ≤ s.size a) :
    View.readAt (Elt F) v (Rect.unit off size inb).toLoadRect f = View.readAt (Elt F) v (Rect.unit off' size inb').toLoadRect f := by
  subst h; rfl

/-- A trip index taken modulo the trip count is itself. -/
theorem fin_mod_self (k : Fin k0_t1_loop.trips) :
    (⟨k.val % k0_t1_loop.trips, Nat.mod_lt _ trips1_pos⟩ : Fin k0_t1_loop.trips) = k :=
  Fin.ext (Nat.mod_eq_of_lt k.isLt)

/-- At a trip index, chunk k of the key rows is the block the trip loads. -/
theorem Kof_fin (arg1 : Memref sig .tc .vmem S8192x256 .bf16) (X1 : BufTy.Contents (Elt F) arg1.view.ty) (k : Fin k0_t1_loop.trips) :
    Kof arg1 X1 k.val = (View.readAt (Elt F) arg1.view (Rect.unit (s := S8192x256) (k0_off2 k) S512x256.size (k0_off2_inb k)).toLoadRect X1) := by
  unfold Kof
  exact readAt_unit_congr arg1.view X1 (congrArg k0_off2 (fin_mod_self k)) _ _

/-- At a trip index, chunk k of the key labels is the block the trip loads. -/
theorem LKof_fin (arg3 : Memref sig .tc .vmem S1x8192 .i32) (X3 : BufTy.Contents (Elt F) arg3.view.ty) (k : Fin k0_t1_loop.trips) :
    LKof arg3 X3 k.val = (View.readAt (Elt F) arg3.view (Rect.unit (s := S1x8192) (k0_off3 k) S1x512.size (k0_off3_inb k)).toLoadRect X3) := by
  unfold LKof
  exact readAt_unit_congr arg3.view X3 (congrArg k0_off3 (fin_mod_self k)) _ _

/-- A read of the whole 256x128 block just after a store of the whole block is the stored payload. -/
theorem readAt_writes_cons_whole7 (arg7 : Memref sig .tc .vmem S256x128 .f32) (g7 : BufTy.Contents (Elt F) arg7.view.ty)
    (w : (Rect.unit (s := S256x128) ![0, 0] S256x128.size inb_S256x128_S256x128_0_0).shape.Idx → Elt F .f32) (L : List (View.Piece (Elt F) S256x128 .f32)) :
    View.readAt (Elt F) arg7.view (Rect.unit (s := S256x128) ![0, 0] S256x128.size inb_S256x128_S256x128_0_0).toLoadRect (arg7.view.writes (Elt F) g7 (⟨(Rect.unit (s := S256x128) ![0, 0] S256x128.size inb_S256x128_S256x128_0_0), w⟩ :: L)) = w := by
  funext x
  rw [View.readAt_apply]
  exact View.read_writes_cons_unit_of_mem arg7.view g7 inb_S256x128_S256x128_0_0 w L _ x rfl (fun a => by
    rw [LoadRect.idx_apply]
    show (![0, 0] : Fin 2 → ℕ) a + 1 * (x a).val = (![0, 0] : Fin 2 → ℕ) a + (x a).val
    rw [Nat.one_mul])

section Pass1
variable (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
  (v3 : Vec F S256x256 .bf16) (v5 : Vec F S256x1 .i32) (X1 : BufTy.Contents (Elt F) arg1.view.ty) (X3 : BufTy.Contents (Elt F) arg3.view.ty)
  (G5 : BufTy.Contents (Elt F) arg5.view.ty) (G6 : BufTy.Contents (Elt F) arg6.view.ty) (G7 : BufTy.Contents (Elt F) arg7.view.ty)

/-- What trip k yields, in the body's own operations: the new running maximum and the rescaled sum. -/
theorem tripR1_eq (k : Fin k0_t1_loop.trips) (acc : FVec F S256x1 .f32 × FVec F S256x1 .f32)
    (g5 : BufTy.Contents (Elt F) arg5.view.ty) (g6 : BufTy.Contents (Elt F) arg6.view.ty) (g7 : BufTy.Contents (Elt F) arg7.view.ty) :
    tripR_k0_t1 (F := F) 𝒱 c bd i arg1 harg1 arg2 harg2 arg3 harg3 arg4 harg4 arg5 harg5 arg6 harg6 arg7 harg7 v3 v5 X1 X3 k acc g5 g6 g7
      = (k0_pay13 (k0_pay1 v3) acc.1 (View.readAt (Elt F) arg1.view (Rect.unit (s := S8192x256) (k0_off2 k) S512x256.size (k0_off2_inb k)).toLoadRect X1),
         k0_pay6 (k0_pay17 (k0_pay1 v3) (k0_pay2 v5) acc.1 (View.readAt (Elt F) arg1.view (Rect.unit (s := S8192x256) (k0_off2 k) S512x256.size (k0_off2_inb k)).toLoadRect X1) (View.readAt (Elt F) arg3.view (Rect.unit (s := S1x8192) (k0_off3 k) S1x512.size (k0_off3_inb k)).toLoadRect X3))
           (k0_pay18 (k0_pay1 v3) acc.1 acc.2 (View.readAt (Elt F) arg1.view (Rect.unit (s := S8192x256) (k0_off2 k) S512x256.size (k0_off2_inb k)).toLoadRect X1))) := by
  unfold tripR_k0_t1 trip_k0_t1
  rfl

/-- What trip k stores: chunk k of the logits, chunk k of the exponentials, and the history block with lane k rewritten. -/
theorem tripL1_eq (k : Fin k0_t1_loop.trips) (acc : FVec F S256x1 .f32 × FVec F S256x1 .f32)
    (g5 : BufTy.Contents (Elt F) arg5.view.ty) (g6 : BufTy.Contents (Elt F) arg6.view.ty) (g7 : BufTy.Contents (Elt F) arg7.view.ty) :
    tripL_k0_t1 (F := F) 𝒱 c bd i arg1 harg1 arg2 harg2 arg3 harg3 arg4 harg4 arg5 harg5 arg6 harg6 arg7 harg7 v3 v5 X1 X3 k acc g5 g6 g7
      = ([⟨(Rect.unit (s := S256x8192) (k0_off4 k) S256x512.size (k0_off4_inb k)), k0_pay12 (k0_pay1 v3) (View.readAt (Elt F) arg1.view (Rect.unit (s := S8192x256) (k0_off2 k) S512x256.size (k0_off2_inb k)).toLoadRect X1)⟩],
         [⟨(Rect.unit (s := S256x8192) (k0_off4 k) S256x512.size (k0_off4_inb k)), k0_pay15 (k0_pay1 v3) acc.1 (View.readAt (Elt F) arg1.view (Rect.unit (s := S8192x256) (k0_off2 k) S512x256.size (k0_off2_inb k)).toLoadRect X1)⟩],
         [⟨(Rect.unit (s := S256x128) ![0, 0] S256x128.size inb_S256x128_S256x128_0_0), k0_pay16 (k0_pay1 v3) 0#32 1#32 k acc.1 (View.readAt (Elt F) arg1.view (Rect.unit (s := S8192x256) (k0_off2 k) S512x256.size (k0_off2_inb k)).toLoadRect X1) (View.readAt (Elt F) arg7.view (Rect.unit (s := S256x128) ![0, 0] S256x128.size inb_S256x128_S256x128_0_0).toLoadRect g7)⟩]) := by
  unfold tripL_k0_t1 trip_k0_t1
  rfl

/-- The state after trip k from the state before it: the yield over chunk k, and one more piece in front of each list. -/
theorem st1_step (k : ℕ) (h : k < k0_t1_loop.trips) :
    (st_k0_t1 (F := F) 𝒱 c bd i arg1 harg1 arg2 harg2 arg3 harg3 arg4 harg4 arg5 harg5 arg6 harg6 arg7 harg7 v3 v5 X1 X3 G5 G6 G7 (k0_pay4, k0_pay5) (k + 1))
      = ((k0_pay13 (k0_pay1 v3) (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k),
          k0_pay6 (k0_pay17 (k0_pay1 v3) (k0_pay2 v5) (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k) ((LKof arg3 X3) k))
            (k0_pay18 (k0_pay1 v3) (st_k0_t1 (F := F) 𝒱 c bd i arg1 harg1 arg2 harg2 arg3 harg3 arg4 harg4 arg5 harg5 arg6 harg6 arg7 harg7 v3 v5 X1 X3 G5 G6 G7 (k0_pay4, k0_pay5) k).1.1 (st_k0_t1 (F := F) 𝒱 c bd i arg1 harg1 arg2 harg2 arg3 harg3 arg4 harg4 arg5 harg5 arg6 harg6 arg7 harg7 v3 v5 X1 X3 G5 G6 G7 (k0_pay4, k0_pay5) k).1.2 ((Kof arg1 X1) k))),
         (⟨(Rect.unit (s := S256x8192) (k0_off4 ⟨k, h⟩) S256x512.size (k0_off4_inb ⟨k, h⟩)), k0_pay12 (k0_pay1 v3) ((Kof arg1 X1) k)⟩ : View.Piece (Elt F) S256x8192 .f32) :: (st_k0_t1 (F := F) 𝒱 c bd i arg1 harg1 arg2 harg2 arg3 harg3 arg4 harg4 arg5 harg5 arg6 harg6 arg7 harg7 v3 v5 X1 X3 G5 G6 G7 (k0_pay4, k0_pay5) k).2.1,
         (⟨(Rect.unit (s := S256x8192) (k0_off4 ⟨k, h⟩) S256x512.size (k0_off4_inb ⟨k, h⟩)), k0_pay15 (k0_pay1 v3) (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k)⟩ : View.Piece (Elt F) S256x8192 .f32) :: (st_k0_t1 (F := F) 𝒱 c bd i arg1 harg1 arg2 harg2 arg3 harg3 arg4 harg4 arg5 harg5 arg6 harg6 arg7 harg7 v3 v5 X1 X3 G5 G6 G7 (k0_pay4, k0_pay5) k).2.2.1,
         (⟨(Rect.unit (s := S256x128) ![0, 0] S256x128.size inb_S256x128_S256x128_0_0), k0_pay16 (k0_pay1 v3) 0#32 1#32 ⟨k, h⟩ (st_k0_t1 (F := F) 𝒱 c bd i arg1 harg1 arg2 harg2 arg3 harg3 arg4 harg4 arg5 harg5 arg6 harg6 arg7 harg7 v3 v5 X1 X3 G5 G6 G7 (k0_pay4, k0_pay5) k).1.1 ((Kof arg1 X1) k) (View.readAt (Elt F) arg7.view (Rect.unit (s := S256x128) ![0, 0] S256x128.size inb_S256x128_S256x128_0_0).toLoadRect (arg7.view.writes (Elt F) G7 (st_k0_t1 (F := F) 𝒱 c bd i arg1 harg1 arg2 harg2 arg3 harg3 arg4 harg4 arg5 harg5 arg6 harg6 arg7 harg7 v3 v5 X1 X3 G5 G6 G7 (k0_pay4, k0_pay5) k).2.2.2))⟩ : View.Piece (Elt F) S256x128 .f32) :: (st_k0_t1 (F := F) 𝒱 c bd i arg1 harg1 arg2 harg2 arg3 harg3 arg4 harg4 arg5 harg5 arg6 harg6 arg7 harg7 v3 v5 X1 X3 G5 G6 G7 (k0_pay4, k0_pay5) k).2.2.2) := by
  refine (st_k0_t1_succ (F := F) 𝒱 c bd i arg1 harg1 arg2 harg2 arg3 harg3 arg4 harg4 arg5 harg5 arg6 harg6 arg7 harg7 v3 v5 X1 X3 G5 G6 G7 (k0_pay4, k0_pay5) ⟨k, h⟩).trans ?_
  rw [tripR1_eq, tripL1_eq, ← Kof_fin arg1 X1 ⟨k, h⟩, ← LKof_fin arg3 X3 ⟨k, h⟩]
  rfl

/-- The invariant of pass 1. Before trip k the carried pair is the model's; the pieces stored into the two caches are,
newest first, the chunks j < k of the logits and of the exponentials, each through its own column range; and the history
block reads as the model's history after k chunks. -/
theorem inv1 (k : ℕ) (hk : k ≤ k0_t1_loop.trips) :
    (st_k0_t1 (F := F) 𝒱 c bd i arg1 harg1 arg2 harg2 arg3 harg3 arg4 harg4 arg5 harg5 arg6 harg6 arg7 harg7 v3 v5 X1 X3 G5 G6 G7 (k0_pay4, k0_pay5) k).1 = (Model.st1 v3 v5 (Kof arg1 X1) (LKof arg3 X3) k)
    ∧ (st_k0_t1 (F := F) 𝒱 c bd i arg1 harg1 arg2 harg2 arg3 harg3 arg4 harg4 arg5 harg5 arg6 harg6 arg7 harg7 v3 v5 X1 X3 G5 G6 G7 (k0_pay4, k0_pay5) k).2.1 = View.tilePieces (s := S256x8192) (e := .f32) (Val := Elt F) S256x512.size (fun j : Fin k0_t1_loop.trips => k0_off4 j) k0_off4_inb (fun j => k0_pay12 (k0_pay1 v3) ((Kof arg1 X1) j.val)) k hk
    ∧ (st_k0_t1 (F := F) 𝒱 c bd i arg1 harg1 arg2 harg2 arg3 harg3 arg4 harg4 arg5 harg5 arg6 harg6 arg7 harg7 v3 v5 X1 X3 G5 G6 G7 (k0_pay4, k0_pay5) k).2.2.1 = View.tilePieces (s := S256x8192) (e := .f32) (Val := Elt F) S256x512.size (fun j : Fin k0_t1_loop.trips => k0_off4 j) k0_off4_inb (fun j => k0_pay15 (k0_pay1 v3) (Model.st1 v3 v5 (Kof arg1 X1) (LKof arg3 X3) j.val).1 ((Kof arg1 X1) j.val)) k hk
    ∧ (View.readAt (Elt F) arg7.view (Rect.unit (s := S256x128) ![0, 0] S256x128.size inb_S256x128_S256x128_0_0).toLoadRect (arg7.view.writes (Elt F) G7 (st_k0_t1 (F := F) 𝒱 c bd i arg1 harg1 arg2 harg2 arg3 harg3 arg4 harg4 arg5 harg5 arg6 harg6 arg7 harg7 v3 v5 X1 X3 G5 G6 G7 (k0_pay4, k0_pay5) k).2.2.2)) = Model.hist v3 v5 (Kof arg1 X1) (LKof arg3 X3) (View.readAt (Elt F) arg7.view (Rect.unit (s := S256x128) ![0, 0] S256x128.size inb_S256x128_S256x128_0_0).toLoadRect G7) k := by
  induction k with
  | zero => exact ⟨rfl, rfl, rfl, rfl⟩
  | succ k ih =>
    have h : k < k0_t1_loop.trips := hk
    obtain ⟨ih1, ih5, ih6, ih7⟩ := ih (Nat.le_of_succ_le hk)
    have hs := st1_step (F := F) 𝒱 c bd i arg1 harg1 arg2 harg2 arg3 harg3 arg4 harg4 arg5 harg5 arg6 harg6 arg7 harg7 v3 v5 X1 X3 G5 G6 G7 k h
    refine ⟨?_, ?_, ?_, ?_⟩
    · rw [hs, ih1]; rfl
    · rw [hs, ih5]; rfl
    · rw [hs, ih6, ih1]; rfl
    · rw [hs]
      refine (readAt_writes_cons_whole7 arg7 G7 _ _).trans ?_
      rw [ih1, ih7]
      symm
      rw [Model.hist, dif_pos h]

end Pass1

/-- The sixteen chunk stores go through disjoint column ranges: a read of the column range of chunk j after all of
them is chunk j's payload. The range read is given by its offsets, equal to those chunk j was stored at. -/
theorem readAt_tiles (arg : Memref sig .tc .vmem S256x8192 .f32) (g : BufTy.Contents (Elt F) arg.view.ty)
    (P : Fin k0_t1_loop.trips → (⟨S256x8192.rank, S256x512.size⟩ : Shape).Idx → Elt F .f32) (j : Fin k0_t1_loop.trips)
    (off : Fin S256x8192.rank → ℕ) (inb : ∀ a, off a + S256x512.size a ≤ S256x8192.size a) (hoff : off = k0_off4 j) :
    View.readAt (Elt F) arg.view (Rect.unit (s := S256x8192) off S256x512.size inb).toLoadRect
        (arg.view.writes (Elt F) g (View.tilePieces (s := S256x8192) (e := .f32) (Val := Elt F) S256x512.size (fun j : Fin k0_t1_loop.trips => k0_off4 j) k0_off4_inb P k0_t1_loop.trips (Nat.le_refl _)))
      = P j := by
  subst hoff
  funext x
  rw [View.readAt_apply]
  refine View.read_tilePieces arg.view g S256x512.size (fun j : Fin k0_t1_loop.trips => k0_off4 j) k0_off4_inb P _ _ _ j j.isLt x ?_ (1 : Fin 2) ?_
  · intro a
    rw [LoadRect.idx_apply]
    show k0_off4 j a + 1 * (x a).val = k0_off4 j a + (x a).val
    rw [Nat.one_mul]
  · intro i' hne
    rw [LoadRect.idx_apply]
    have h4j : k0_off4 j (1 : Fin 2) = 512 * j.val := congrFun (k0_off4_eq j) (1 : Fin 2)
    have h4i : k0_off4 i' (1 : Fin 2) = 512 * i'.val := congrFun (k0_off4_eq i') (1 : Fin 2)
    have hx : (x (1 : Fin 2)).val < 512 := (x (1 : Fin 2)).isLt
    have hij : i'.val ≠ j.val := fun e => hne (Fin.ext e)
    show k0_off4 j (1 : Fin 2) + 1 * (x (1 : Fin 2)).val < k0_off4 i' (1 : Fin 2) ∨ k0_off4 i' (1 : Fin 2) + 512 ≤ k0_off4 j (1 : Fin 2) + 1 * (x (1 : Fin 2)).val
    omega

/-- The two loops have the same trip count, so a trip index of pass 2 is one of pass 1. -/
theorem trips21 (k2 : Fin k0_t2_loop.trips) : k2.val < k0_t1_loop.trips :=
  Nat.lt_of_lt_of_le k2.isLt (le_of_eq (trips2_eq.trans trips1_eq.symm))

/-- Pass 2 reads chunk k of the caches at the offsets pass 1 stored chunk k at. -/
theorem off6_eq_off4 (k2 : Fin k0_t2_loop.trips) : k0_off6 k2 = k0_off4 ⟨k2.val, trips21 k2⟩ := by
  rw [k0_off6_eq, k0_off4_eq]

/-- The carried pair before trip k is the model's. -/
theorem st1_carried (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k : ℕ) (hk : k ≤ 16) :
    (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) k).1 = Model.st1 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2) k := by
  exact (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 k (by rw [trips1_eq]; exact hk)).1

/-- After the loop, chunk k of the logits cache reads as the model's chunk. -/
theorem arg5_chunk (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k2 : Fin k0_t2_loop.trips) :
    View.readAt (Elt F) arg5.view (Rect.unit (s := S256x8192) (k0_off6 k2) S256x512.size (k0_off6_inb k2)).toLoadRect
        (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1)
      = Model.logitsC (View.readAt (Elt F) arg1.view (Rect.unit (s := S8192x256) (k0_off1 i) S256x256.size (k0_off1_inb i)).toLoadRect f0) (Kof arg1 f0) k2.val := by
  have e : Scf.trips k0_t1_loop.lb k0_t1_loop.ub k0_t1_loop.st = k0_t1_loop.trips := rfl
  rw [e, (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 k0_t1_loop.trips (Nat.le_refl _)).2.1]
  exact readAt_tiles arg5 f5 _ ⟨k2.val, trips21 k2⟩ _ _ (off6_eq_off4 k2)

/-- After the loop, chunk k of the exponentials cache reads as the model's chunk. -/
theorem arg6_chunk (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k2 : Fin k0_t2_loop.trips) :
    View.readAt (Elt F) arg6.view (Rect.unit (s := S256x8192) (k0_off6 k2) S256x512.size (k0_off6_inb k2)).toLoadRect
        (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1)
      = Model.expC (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2) k2.val := by
  have e : Scf.trips k0_t1_loop.lb k0_t1_loop.ub k0_t1_loop.st = k0_t1_loop.trips := rfl
  rw [e, (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 k0_t1_loop.trips (Nat.le_refl _)).2.2.1]
  exact readAt_tiles arg6 f6 _ ⟨k2.val, trips21 k2⟩ _ _ (off6_eq_off4 k2)

/-- After the loop, the history buffer reads as the model's history from what the buffer held before. -/
theorem arg7_whole (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) :
    View.readAt (Elt F) arg7.view (Rect.unit (s := S256x128) ![0, 0] S256x128.size inb_S256x128_S256x128_0_0).toLoadRect
        (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2)
      = Model.hist (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2)
          (View.readAt (Elt F) arg7.view (Rect.unit (s := S256x128) ![0, 0] S256x128.size inb_S256x128_S256x128_0_0).toLoadRect f7) 16 := by
  have e : Scf.trips k0_t1_loop.lb k0_t1_loop.ub k0_t1_loop.st = 16 := trips1_eq
  rw [e]
  exact (inv1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 16 (by rw [trips1_eq])).2.2.2

/-- Pass 2 loads chunk k of the label row through its own offsets: the same chunk as pass 1's. -/
theorem lk_chunk (arg3 : Memref sig .tc .vmem S1x8192 .i32) (f2 : BufTy.Contents (Elt F) arg3.view.ty) (k2 : Fin k0_t2_loop.trips) :
    View.readAt (Elt F) arg3.view (Rect.unit (s := S1x8192) (k0_off5 k2) S1x512.size (k0_off5_inb k2)).toLoadRect f2 = LKof arg3 f2 k2.val := by
  unfold LKof
  refine readAt_unit_congr arg3.view f2 ?_ _ _
  have hm : k2.val % k0_t1_loop.trips = k2.val := Nat.mod_eq_of_lt (trips21 k2)
  rw [k0_off5_eq, k0_off3_eq]
  show (![0, 512 * k2.val] : Fin 2 → ℕ) = ![0, 512 * (k2.val % k0_t1_loop.trips)]
  rw [hm]

end Cert.KernelIdeal.Body

end
-- ==== Proof.TripEq2.lean ====
/-
  Pass 2 of the kernel body, as the loop's run records it, is the pure recursion Model.st2 over the caches pass 1 left;
  the block it stores is Model.out. Pass 2 reads the history only through a select on lane k at trip k, and pass 1 has
  written lanes 0 to 15, so what the history buffer held before the body does not matter.
-/
import proofs.«406646_j46145128629053_3_alg».proof.Proof.TripEq1

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F] [Named F]

/-- The loop's induction word from 0 by steps of 1 is the trip number's word. -/
theorem iv_word (n : ℕ) : Scf.iv 0#32 1#32 n = BitVec.ofNat 32 n := by
  unfold Scf.iv
  simp

/-- An equality test of two words is 1 exactly when the words are equal. -/
theorem cmpi_eq_one_iff (x y : BitVec 32) : IntOp.cmpi .eq x y = 1#1 ↔ x = y := by
  show BitVec.ofBool (x == y) = 1#1 ↔ x = y
  by_cases h : x = y
  · subst h
    simp
  · have hb : (x == y) = false := beq_eq_false_iff_ne.mpr h
    rw [hb]
    exact ⟨fun e => absurd e (by decide), fun e => absurd e h⟩

/-- Two numbers below 2^32 have the same 32-bit word exactly when they are equal. -/
theorem ofNat32_inj {a b : ℕ} (ha : a < 2 ^ 32) (hb : b < 2 ^ 32) : BitVec.ofNat 32 a = BitVec.ofNat 32 b ↔ a = b := by
  constructor
  · intro h
    have h1 : (BitVec.ofNat 32 a).toNat = (BitVec.ofNat 32 b).toNat := congrArg BitVec.toNat h
    rw [BitVec.toNat_ofNat, BitVec.toNat_ofNat, Nat.mod_eq_of_lt ha, Nat.mod_eq_of_lt hb] at h1
    exact h1
  · rintro rfl; rfl

/-- The lane word at index j of a 256 x 128 block is the word of j's lane. -/
theorem lane_word (j : S256x128.Idx) : iota .tc S256x128 32 [1] iota_S256x128_d1_w32 j = BitVec.ofNat 32 (j 1).val := by
  simp [iota]

/-- The lane test of trip n: at index j of a 256 x 128 block the lane word equals the trip's word exactly when j's lane
    is n. -/
theorem laneTest (n : ℕ) (hn : n < 2 ^ 32) (j : S256x128.Idx) :
    cmpi .eq (iota .tc S256x128 32 [1] iota_S256x128_d1_w32) (broadcast S256x128 (Scf.iv 0#32 1#32 n)) j = 1#1
      ↔ (j 1).val = n := by
  show IntOp.cmpi .eq (iota .tc S256x128 32 [1] iota_S256x128_d1_w32 j) (Scf.iv 0#32 1#32 n) = 1#1 ↔ _
  rw [cmpi_eq_one_iff, lane_word, iv_word]
  have hj : (j 1).val < 128 := (j 1).isLt
  exact ofNat32_inj (by omega) hn

/-- A select on a bit that is not 1 takes its second value. -/
theorem select_of_ne_one {α : Type} {c : BitVec 1} (h : ¬ c = 1#1) (a b : α) : Scalar.select c a b = b := if_neg h

/-- Trip k's first carried value reads the history only on lane k. -/
theorem pay20_congr (v6 v9 : IVec S256x1 32) (v13_0 v13_1 : FVec F S256x1 .f32) (k : Fin k0_t2_loop.trips)
    (arg9 : FVec F S256x1 .f32) (v25 : Vec F S1x512 .i32) (v31 v33 : Vec F S256x512 .f32) (H H' : Vec F S256x128 .f32)
    (hH : ∀ j : S256x128.Idx, (j 1).val = k.val → H j = H' j) :
    k0_pay20 v6 v9 v13_0 v13_1 0#32 1#32 k arg9 v25 v31 v33 H = k0_pay20 v6 v9 v13_0 v13_1 0#32 1#32 k arg9 v25 v31 v33 H' := by
  have hsel : select (cmpi .eq (iota .tc S256x128 32 [1] iota_S256x128_d1_w32) (broadcast S256x128 (Scf.iv 0#32 1#32 k))) H
        (broadcast S256x128 (Scalar.ofBits (F := F) .f32 0x00000000#32))
      = select (cmpi .eq (iota .tc S256x128 32 [1] iota_S256x128_d1_w32) (broadcast S256x128 (Scf.iv 0#32 1#32 k))) H'
        (broadcast S256x128 (Scalar.ofBits (F := F) .f32 0x00000000#32)) := by
    funext j
    show Scalar.select (cmpi .eq (iota .tc S256x128 32 [1] iota_S256x128_d1_w32) (broadcast S256x128 (Scf.iv 0#32 1#32 k)) j) (H j) _
      = Scalar.select (cmpi .eq (iota .tc S256x128 32 [1] iota_S256x128_d1_w32) (broadcast S256x128 (Scf.iv 0#32 1#32 k)) j) (H' j) _
    by_cases hb : cmpi .eq (iota .tc S256x128 32 [1] iota_S256x128_d1_w32) (broadcast S256x128 (Scf.iv 0#32 1#32 k)) j = 1#1
    · rw [hH j ((laneTest k.val (by have := k.isLt; have := trips2_eq; omega) j).1 hb)]
    · rw [select_of_ne_one hb, select_of_ne_one hb]
  unfold k0_pay20
  dsimp only
  rw [hsel]

/-- A select on a bit that is 1 takes its first value. -/
theorem select_of_eq_one {α : Type} {c : BitVec 1} (h : c = 1#1) (a b : α) : Scalar.select c a b = a := if_pos h

/-- A shape cast to the same shape reads the same index. -/
theorem shapeCast_same_apply {s : Shape} {α : Type} (v : s.Idx → α) (h : s.ShapeCasts s) (j : s.Idx) : shapeCast s v h j = v j :=
  congrArg v (Shape.reshapeEquiv_self _ j)

/-- After n trips of pass 1 the histories from two starting contents agree on the lanes below n: trip n writes the new
    maximum, the same from both, into lane n and keeps every other lane. -/
theorem hist_agree (Q : Vec F S256x256 .bf16) (LQ : Vec F S256x1 .i32) (K : ℕ → Vec F S512x256 .bf16) (LK : ℕ → Vec F S1x512 .i32)
    (h0 h0' : Vec F S256x128 .f32) : ∀ n : ℕ, n ≤ 16 → ∀ j : S256x128.Idx, (j 1).val < n →
      Model.hist Q LQ K LK h0 n j = Model.hist Q LQ K LK h0' n j
  | 0, _, j, hj => absurd hj (Nat.not_lt_zero _)
  | n + 1, hn, j, hj => by
    have hlt : n < k0_t1_loop.trips := by rw [trips1_eq]; omega
    rw [Model.hist.eq_2, Model.hist.eq_2, dif_pos hlt, dif_pos hlt]
    unfold k0_pay16
    dsimp only
    rw [shapeCast_same_apply, shapeCast_same_apply]
    show Scalar.select (cmpi .eq (iota .tc S256x128 32 [1] iota_S256x128_d1_w32) (broadcast S256x128 (Scf.iv 0#32 1#32 n)) j) _
          (Model.hist Q LQ K LK h0 n j)
      = Scalar.select (cmpi .eq (iota .tc S256x128 32 [1] iota_S256x128_d1_w32) (broadcast S256x128 (Scf.iv 0#32 1#32 n)) j) _
          (Model.hist Q LQ K LK h0' n j)
    by_cases hb : cmpi .eq (iota .tc S256x128 32 [1] iota_S256x128_d1_w32) (broadcast S256x128 (Scf.iv 0#32 1#32 n)) j = 1#1
    · -- lane n: both sides take the new maximum
      rw [select_of_eq_one hb, select_of_eq_one hb]
    · -- another lane, so one below n: both sides keep the history, equal there by induction
      have hne : (j 1).val ≠ n := fun e => hb ((laneTest n (by omega) j).2 e)
      rw [select_of_ne_one hb, select_of_ne_one hb]
      exact hist_agree Q LQ K LK h0 h0' n (by omega) j (by omega)

/-- Pass 2 from two histories that agree on lanes 0 to 15 carries the same pair: trip k reads lane k only. -/
theorem st2_agree (i : grid0.Coords) (Q : Vec F S256x256 .bf16) (LQ : Vec F S256x1 .i32) (K : ℕ → Vec F S512x256 .bf16)
    (LK : ℕ → Vec F S1x512 .i32) (H H' : Vec F S256x128 .f32) (hH : ∀ j : S256x128.Idx, (j 1).val < 16 → H j = H' j) :
    ∀ k : ℕ, Model.st2 i Q LQ K LK H k = Model.st2 i Q LQ K LK H' k
  | 0 => rfl
  | k + 1 => by
    rw [Model.st2.eq_2, Model.st2.eq_2, st2_agree i Q LQ K LK H H' hH k]
    by_cases h : k < k0_t2_loop.trips
    · rw [dif_pos h, dif_pos h]
      rw [pay20_congr _ _ _ _ ⟨k, h⟩ _ _ _ _ H H' (fun j hj => hH j (by
        have h16 := trips2_eq
        have hjk : (j 1).val = k := hj
        omega))]
    · rw [dif_neg h, dif_neg h]

/-- The result block is the same from any two starting contents of the history: pass 1 writes lane k at trip k, and pass 2
    reads lane k only. -/
theorem outOf_hist_indep (i : grid0.Coords) (Q : Vec F S256x256 .bf16) (LQ : Vec F S256x1 .i32)
    (K : ℕ → Vec F S512x256 .bf16) (LK : ℕ → Vec F S1x512 .i32) (h0 h0' : Vec F S256x128 .f32) :
    Model.outOf i Q LQ K LK (Model.hist Q LQ K LK h0 16) = Model.outOf i Q LQ K LK (Model.hist Q LQ K LK h0' 16) := by
  unfold Model.outOf
  rw [st2_agree i Q LQ K LK _ _ (fun j hj => hist_agree Q LQ K LK h0 h0' 16 (le_refl _) j hj) 16]

/-- Trip k of pass 2, opened once: from the carried pair acc it yields the first payload of the four blocks it loads (chunk k
    of the label row, chunk k of each cache, the whole history) and the count's payload of the label chunk. -/
theorem tripR2_eq (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (v5 : Vec F S256x1 .i32) (v13_0 v13_1 : FVec F S256x1 .f32) (X_arg3 : BufTy.Contents (Elt F) arg3.view.ty)
    (X_arg5 : BufTy.Contents (Elt F) arg5.view.ty) (X_arg6 : BufTy.Contents (Elt F) arg6.view.ty) (X_arg7 : BufTy.Contents (Elt F) arg7.view.ty)
    (k : Fin k0_t2_loop.trips) (acc : FVec F S256x1 .f32 × FVec F S256x1 .f32) :
    tripR_k0_t2 (F := F) 𝒱 c bd i arg1 harg1 arg2 harg2 arg3 harg3 arg4 harg4 arg5 harg5 arg6 harg6 arg7 harg7 v5 v13_0 v13_1 X_arg3 X_arg5 X_arg6 X_arg7 k acc
      = (k0_pay20 (k0_pay2 v5) (k0_pay3 i) v13_0 v13_1 0#32 1#32 k acc.1
            (View.readAt (Elt F) arg3.view (Rect.unit (s := S1x8192) (k0_off5 k) S1x512.size (k0_off5_inb k)).toLoadRect X_arg3)
            (View.readAt (Elt F) arg5.view (Rect.unit (s := S256x8192) (k0_off6 k) S256x512.size (k0_off6_inb k)).toLoadRect X_arg5)
            (View.readAt (Elt F) arg6.view (Rect.unit (s := S256x8192) (k0_off6 k) S256x512.size (k0_off6_inb k)).toLoadRect X_arg6)
            (View.readAt (Elt F) arg7.view (Rect.unit (s := S256x128) ![0, 0] S256x128.size inb_S256x128_S256x128_0_0).toLoadRect X_arg7),
          k0_pay9 acc.2 (k0_pay21 (k0_pay2 v5) (k0_pay3 i) 0#32 1#32 k
            (View.readAt (Elt F) arg3.view (Rect.unit (s := S1x8192) (k0_off5 k) S1x512.size (k0_off5_inb k)).toLoadRect X_arg3))) := by
  unfold tripR_k0_t2
  rw [trip_k0_t2.eq_1]
  rfl

/-- Pass 2's recursion over ANY contents of the four buffers it reads: if chunk k of the label row reads as LK k, chunk k of
    the two caches as the model's chunks, the history as H, and the pair pass 1 left is the model's after 16 chunks, then
    the carried pair before trip k is the model's. By induction on k: trip k's yield, opened, is the model's step. -/
theorem st2_carried_gen (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (LQ : Vec F S256x1 .i32) (P : FVec F S256x1 .f32 × FVec F S256x1 .f32) (X_arg3 : BufTy.Contents (Elt F) arg3.view.ty)
    (X_arg5 : BufTy.Contents (Elt F) arg5.view.ty) (X_arg6 : BufTy.Contents (Elt F) arg6.view.ty) (X_arg7 : BufTy.Contents (Elt F) arg7.view.ty)
    (Q : Vec F S256x256 .bf16) (K : ℕ → Vec F S512x256 .bf16) (LK : ℕ → Vec F S1x512 .i32) (H : Vec F S256x128 .f32)
    (hP : P = Model.st1 Q LQ K LK 16)
    (h3 : ∀ k : Fin k0_t2_loop.trips, View.readAt (Elt F) arg3.view (Rect.unit (s := S1x8192) (k0_off5 k) S1x512.size (k0_off5_inb k)).toLoadRect X_arg3 = LK k.val)
    (h5 : ∀ k : Fin k0_t2_loop.trips, View.readAt (Elt F) arg5.view (Rect.unit (s := S256x8192) (k0_off6 k) S256x512.size (k0_off6_inb k)).toLoadRect X_arg5 = Model.logitsC Q K k.val)
    (h6 : ∀ k : Fin k0_t2_loop.trips, View.readAt (Elt F) arg6.view (Rect.unit (s := S256x8192) (k0_off6 k) S256x512.size (k0_off6_inb k)).toLoadRect X_arg6 = Model.expC Q LQ K LK k.val)
    (h7 : View.readAt (Elt F) arg7.view (Rect.unit (s := S256x128) ![0, 0] S256x128.size inb_S256x128_S256x128_0_0).toLoadRect X_arg7 = H) (k : ℕ) (hk : k ≤ 16) :
    st_k0_t2 (F := F) 𝒱 c bd i arg1 harg1 arg2 harg2 arg3 harg3 arg4 harg4 arg5 harg5 arg6 harg6 arg7 harg7 LQ P.1 P.2 X_arg3 X_arg5 X_arg6 X_arg7 (k0_pay7, k0_pay8) k = Model.st2 i Q LQ K LK H k := by
  subst hP
  induction k with
  | zero => rfl
  | succ k ih =>
    have hlt : k < k0_t2_loop.trips := by rw [trips2_eq]; omega
    refine (st_k0_t2_succ (F := F) 𝒱 c bd i arg1 harg1 arg2 harg2 arg3 harg3 arg4 harg4 arg5 harg5 arg6 harg6 arg7 harg7 LQ _ _ X_arg3 X_arg5 X_arg6 X_arg7 (k0_pay7, k0_pay8) ⟨k, hlt⟩).trans ?_
    rw [tripR2_eq, h3 ⟨k, hlt⟩, h5 ⟨k, hlt⟩, h6 ⟨k, hlt⟩, h7]
    dsimp only
    rw [ih (by omega), Model.st2.eq_2, dif_pos hlt]

/-- The carried pair of pass 2 before trip k is the model's, reading the history pass 1 left. -/
theorem st2_carried (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) (k : ℕ) (hk : k ≤ 16) :
    (st_k0_t2 (F := F) 𝒱 c bd i arg1 harg1 arg2 harg2 arg3 harg3 arg4 harg4 arg5 harg5 arg6 harg6 arg7 harg7 (View.readAt (Elt F) arg2.view (Rect.unit (s := S256x1) ![0, 0] S256x1.size inb_S256x1_S256x1_0_0).toLoadRect f1) (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.1 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.2 f2 (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1) (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1) (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2) (k0_pay7, k0_pay8) k)
      = Model.st2 i (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2)
          (Model.hist (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2)
            (View.readAt (Elt F) arg7.view (Rect.unit (s := S256x128) ![0, 0] S256x128.size inb_S256x128_S256x128_0_0).toLoadRect f7) 16) k := by
  have T1 : Scf.trips k0_t1_loop.lb k0_t1_loop.ub k0_t1_loop.st = 16 := trips1_eq
  refine st2_carried_gen 𝒱 c bd i arg1 harg1 arg2 harg2 arg3 harg3 arg4 harg4 arg5 harg5 arg6 harg6 arg7 harg7 _ _ f2 _ _ _ _ (Kof arg1 f0) (LKof arg3 f2) _ ?_ ?_ ?_ ?_ ?_ k hk
  · -- the pair pass 1 left is the model's after all 16 chunks
    exact (st1_carried 𝒱 c bd i arg1 harg1 arg2 harg2 arg3 harg3 arg4 harg4 arg5 harg5 arg6 harg6 arg7 harg7 f0 f1 f2 f5 f6 f7 _ (le_of_eq T1)).trans (congrArg (Model.st1 _ _ _ _) T1)
  · exact fun k2 => lk_chunk arg3 f2 k2
  · exact fun k2 => arg5_chunk 𝒱 c bd i arg1 harg1 arg2 harg2 arg3 harg3 arg4 harg4 arg5 harg5 arg6 harg6 arg7 harg7 f0 f1 f2 f5 f6 f7 k2
  · exact fun k2 => arg6_chunk 𝒱 c bd i arg1 harg1 arg2 harg2 arg3 harg3 arg4 harg4 arg5 harg5 arg6 harg6 arg7 harg7 f0 f1 f2 f5 f6 f7 k2
  · exact arg7_whole 𝒱 c bd i arg1 harg1 arg2 harg2 arg3 harg3 arg4 harg4 arg5 harg5 arg6 harg6 arg7 harg7 f0 f1 f2 f5 f6 f7

/-- What the body stores into the result block, in the run's own terms, is the model's block. -/
theorem out_eq (𝒱 : Variants) (c : Dev nD) (bd : Option 𝒱.V) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (f0 : BufTy.Contents (Elt F) arg1.view.ty) (f1 : BufTy.Contents (Elt F) arg2.view.ty) (f2 : BufTy.Contents (Elt F) arg3.view.ty)
    (f5 : BufTy.Contents (Elt F) arg5.view.ty) (f6 : BufTy.Contents (Elt F) arg6.view.ty) (f7 : BufTy.Contents (Elt F) arg7.view.ty) :
    k0_pay10 (st_k0_t2 (F := F) 𝒱 c bd i arg1 harg1 arg2 harg2 arg3 harg3 arg4 harg4 arg5 harg5 arg6 harg6 arg7 harg7 (View.readAt (Elt F) arg2.view (Rect.unit (s := S256x1) ![0, 0] S256x1.size inb_S256x1_S256x1_0_0).toLoadRect f1) (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.1 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.2 f2 (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1) (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1) (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2) (k0_pay7, k0_pay8) (Scf.trips k0_t2_loop.lb k0_t2_loop.ub k0_t2_loop.st)).1 (st_k0_t2 (F := F) 𝒱 c bd i arg1 harg1 arg2 harg2 arg3 harg3 arg4 harg4 arg5 harg5 arg6 harg6 arg7 harg7 (View.readAt (Elt F) arg2.view (Rect.unit (s := S256x1) ![0, 0] S256x1.size inb_S256x1_S256x1_0_0).toLoadRect f1) (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.1 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).1.2 f2 (arg5.view.writes (Elt F) f5 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.1) (arg6.view.writes (Elt F) f6 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.1) (arg7.view.writes (Elt F) f7 (st_k0_t1 (F := F) 𝒱 c bd i arg1 harg1 arg2 harg2 arg3 harg3 arg4 harg4 arg5 harg5 arg6 harg6 arg7 harg7 (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) f0 f2 f5 f6 f7 (k0_pay4, k0_pay5) (Scf.trips k0_t1_loop.lb k0_t1_loop.ub k0_t1_loop.st)).2.2.2) (k0_pay7, k0_pay8) (Scf.trips k0_t2_loop.lb k0_t2_loop.ub k0_t2_loop.st)).2
      = Model.out i (View.readAt (Elt F) arg1.view (Rect.unit (s := S8192x256) (k0_off1 i) S256x256.size (k0_off1_inb i)).toLoadRect f0) (View.readAt (Elt F) arg2.view (Rect.unit (s := S256x1) ![0, 0] S256x1.size inb_S256x1_S256x1_0_0).toLoadRect f1) (Kof arg1 f0) (LKof arg3 f2) := by
  have T2 : Scf.trips k0_t2_loop.lb k0_t2_loop.ub k0_t2_loop.st = 16 := trips2_eq
  -- the carried pair after the last trip is the model's after 16 chunks, over the history pass 1 left from f7's block
  have e := (st2_carried 𝒱 c bd i arg1 harg1 arg2 harg2 arg3 harg3 arg4 harg4 arg5 harg5 arg6 harg6 arg7 harg7 f0 f1 f2 f5 f6 f7 _ (le_of_eq T2)).trans (congrArg (Model.st2 i _ _ _ _ _) T2)
  rw [e]
  -- and that history may be exchanged for the one from the zero block
  exact outOf_hist_indep i _ _ _ _ _ _

end Cert.KernelIdeal.Body

end
-- ==== Proof.Run.lean ====
/-
  The kernel body's run and the launch. At a grid point the body finds the resident feature block, the point's label
  column and the resident label row in their staging buffers, and three scratch buffers holding anything; it leaves the
  inputs as they were, the scratch at something, and the result's staging buffer at the block Model.out computes from
  the loaded values (the two counted loops are run by their invariants; what they carry is the pure recursion of
  TripEq2.out_eq). With that as the proof data the pipeline's launch theorem gives the program's run: every array of
  the pipeline ends at what the write-backs leave, every other buffer as it was, and the host operations after the
  region read the result array.
-/
import proofs.«406646_j46145128629053_3_alg».proof.Proof.Gen.KernelIdeal.Frame
import proofs.«406646_j46145128629053_3_alg».proof.Proof.Gen.KernelIdeal.Loops
import proofs.«406646_j46145128629053_3_alg».proof.Proof.TripEq2

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The whole result block as one rectangle. -/
abbrev rOut : Rect S256x1 := Rect.unit (s := S256x1) ![0, 0] S256x1.size inb_S256x1_S256x1_0_0

/-- The values the body loads, from the contents its three input buffers read as: the query rows of the point, the
    point's labels, chunk k of the key rows and of the key labels. -/
def ldQ (i : grid0.Coords) (x0 : Vec F S8192x256 .bf16) : Vec F S256x256 .bf16 :=
  View.ld x0 (Rect.unit (s := S8192x256) (k0_off1 i) S256x256.size (k0_off1_inb i))
def ldLQ (x1 : Vec F S256x1 .i32) : Vec F S256x1 .i32 :=
  View.ld x1 (Rect.unit (s := S256x1) ![0, 0] S256x1.size inb_S256x1_S256x1_0_0)
def ldK (x0 : Vec F S8192x256 .bf16) (k : ℕ) : Vec F S512x256 .bf16 :=
  View.ld x0 (Rect.unit (s := S8192x256) (k0_off2 ⟨k % k0_t1_loop.trips, Nat.mod_lt _ trips1_pos⟩) S512x256.size (k0_off2_inb _))
def ldLK (x2 : Vec F S1x8192 .i32) (k : ℕ) : Vec F S1x512 .i32 :=
  View.ld x2 (Rect.unit (s := S1x8192) (k0_off3 ⟨k % k0_t1_loop.trips, Nat.mod_lt _ trips1_pos⟩) S1x512.size (k0_off3_inb _))

/-- The result block the body leaves at grid coordinates i, from the contents of its three input buffers. -/
def outBlock (i : grid0.Coords) (x0 : Vec F S8192x256 .bf16) (x1 : Vec F S256x1 .i32) (x2 : Vec F S1x8192 .i32) : Vec F S256x1 .f32 :=
  View.canon [⟨rOut, Model.out i (ldQ i x0) (ldLQ x1) (ldK x0) (ldLK x2)⟩]

/-- The one store covers the block. -/
theorem coverOut (p0 : Vec F S256x1 .f32) (y : S256x1.Idx) :
    ∃ pc ∈ ([⟨rOut, p0⟩] : List (View.Piece (Elt F) S256x1 .f32)), y ∈ pc.1.set :=
  View.cover_of_tiled [⟨rOut, p0⟩] S256x1.size (by rfl) y

/-! ## The body's triple -/

set_option maxHeartbeats 4000000 in
/-- The kernel body on whole memrefs: the inputs at read contents, the result's buffer and the three scratch buffers at
    anything; it runs to the continuation with the inputs as they were, the result at outBlock, the scratch at something. -/
theorem sound_kernel (c : Dev nD) (E : Set ℕ) (i : grid0.Coords) (arg1 : Memref sig .tc .vmem S8192x256 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole) (arg5 : Memref sig .tc .vmem S256x8192 .f32) (harg5 : arg5.IsWhole) (arg6 : Memref sig .tc .vmem S256x8192 .f32) (harg6 : arg6.IsWhole) (arg7 : Memref sig .tc .vmem S256x128 .f32) (harg7 : arg7.IsWhole)
    (x0 : Vec F S8192x256 .bf16) (x1 : Vec F S256x1 .i32) (x2 : Vec F S1x8192 .i32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f)
        ∗ (iprop(owns (c : Thread nD τ) arg1 fullShare x0 ∗ owns (c : Thread nD τ) arg2 fullShare x1 ∗ owns (c : Thread nD τ) arg3 fullShare x2 ∗ owns (c : Thread nD τ) arg4 fullShare (outBlock i x0 x1 x2)
            ∗ (∃ f, arg5.view.loc (c : Thread nD τ) ↦[arg5.view.set]{fullShare} f) ∗ (∃ f, arg6.view.loc (c : Thread nD τ) ↦[arg6.view.set]{fullShare} f) ∗ (∃ f, arg7.view.loc (c : Thread nD τ) ↦[arg7.view.set]{fullShare} f)) -∗ K ⟨⟩))
      ⊢ wp frame (wpE (defs₀ (F := F)) Variants.none c none) E (cc0__contrastive_kernel i arg1 harg1 arg2 harg2 arg3 harg3 arg4 harg4 arg5 harg5 arg6 harg6 arg7 harg7) K := by
  simp only [cc0__contrastive_kernel_eq_skeleton]; unfold cc0__contrastive_kernel_skel
  unfold owns
  iintro ⟨⟨%f0, %hf0, H0⟩, ⟨%f1, %hf1, H1⟩, ⟨%f2, %hf2, H2⟩, ⟨%d3, %f3, -, H3⟩, ⟨%f5, H5⟩, ⟨%f6, H6⟩, ⟨%f7, H7⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact (View.read_writes_eq_canon _ _ _ (coverOut _)).trans
      (congrArg (fun w => View.canon [(⟨rOut, w⟩ : View.Piece (Elt F) S256x1 .f32)]) (out_eq Variants.none c none i arg1 harg1 arg2 harg2 arg3 harg3 arg4 harg4 arg5 harg5 arg6 harg6 arg7 harg7 f0 f1 f2 f5 f6 f7))
  isplitl [H5]; · iexists _; iexact H5
  isplitl [H6]; · iexists _; iexact H6
  iexists _; iexact H7

/-! ## The pipeline's proof data -/

/-- The proof data of the one pipeline on core c: the arrays as the region finds them; after the body at point t each
    input's buffer at its block and the result's at outBlock of the three input blocks; the invariant the scratch
    buffers at anything and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (grid0.coords t) (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch buffer b, whole, at some contents: as the invariant states it and as the body's triple takes it. -/
theorem scratch_eq (c : Dev nD) (b : Ref sig .tc) :
    (iprop(∃ f : Buf (Elt F) ((c : Thread nD τ).loc b), ((c : Thread nD τ).loc b) ↦{fullShare} f) : sProp 𝕄)
      = iprop(∃ f, (Memref.whole b : Memref sig .tc _ _ _).view.loc (c : Thread nD τ) ↦[(Memref.whole b : Memref sig .tc _ _ _).view.set]{fullShare} f) := by
  simp only [Memref.view_whole, View.set_whole]

set_option maxHeartbeats 1000000 in
/-- The body at any point: the inputs' memrefs hold their blocks, the scratch buffers are the invariant's, so the body's
    triple applies; the generator register and the core's owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq, scratch_eq c cc0_scratch0, scratch_eq c cc0_scratch1, scratch_eq c cc0_scratch2]
  iintro ⟨⟨⟨H5, H6, H7⟩, Hr⟩, Ho, ⟨%d0, H0⟩, ⟨%d1, H1⟩, ⟨%d2, H2⟩, ⟨%d3, H3⟩⟩
  iapply (sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H5]; · iexact H5
  isplitl [H6]; · iexact H6
  isplitl [H7]; · iexact H7
  iintro ⟨H0, H1, H2, H3, H5, H6, H7⟩
  isplitl [H5 H6 H7 Hr]
  · isplitr [Hr]
    · isplitl [H5]; · iexact H5
      isplitl [H6]; · iexact H6
      iexact H7
    · iexact Hr
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates; the pipeline's arrays end at what the write-backs leave, every
    other buffer at what the host operations after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The supervised contrastive loss over the extended reals, as ONE function of the feature rows f (8192 rows of 256
  entries) and the labels lab. For rows i, j: the similarity is the inner product of rows i and j; the logit is the
  similarity times the reciprocal of the temperature; each row's logits are shifted by the row's maximum; the negatives'
  sum adds exp of the shifted logit over the columns whose label differs; the log-probability of column j is its shifted
  logit minus log (exp of it + the negatives' sum); the row's loss is minus the mean of the log-probabilities over the
  positives (same label, other index); the result is the mean of the rows' losses.
  The reciprocal of the temperature is the exact rational 2^27 / 9395241: one over the binary32 value nearest 0.07.
-/
import Idealize.ShloMosaic.PureOps.Ideal
import Idealize.ShloMosaic.Lib.ValueIdx

noncomputable section

open scoped BigOperators

namespace Cert.Spec

open Idealize.ShloMosaic

/-- One over the temperature: 2^27 / 9395241, where 9395241 / 2^27 is the binary32 value nearest 0.07. -/
def invTemp : EReal := ((134217728 / 9395241 : ℝ) : EReal)

/-- The feature array (8192 x 1 x 256) as its 8192 rows of 256 entries: the middle axis has one position. -/
def rowsOf (x0 : (⟨3, ![8192, 1, 256]⟩ : Shape).Idx → EReal) : Fin 8192 → Fin 256 → EReal :=
  fun a d => x0 (ValueIdx.ix3 a (0 : Fin 1) d)
/-- The label array as a function of the row. -/
def labelsOf (x1 : (⟨1, ![8192]⟩ : Shape).Idx → BitVec 32) : Fin 8192 → BitVec 32 := fun a => x1 (ValueIdx.ix1 a)

variable (f : Fin 8192 → Fin 256 → EReal) (lab : Fin 8192 → BitVec 32)

/-- The inner product of rows i and j. -/
def sim (i j : Fin 8192) : EReal := ∑ d : Fin 256, f i d * f j d
/-- The logit of the pair: the similarity over the temperature. -/
def logit (i j : Fin 8192) : EReal := sim f i j * invTemp
/-- Row i's largest logit. -/
def rowMax (i : Fin 8192) : EReal := Finset.univ.sup (logit f i)
/-- The logit shifted by its row's maximum. -/
def shifted (i j : Fin 8192) : EReal := logit f i j - rowMax f i
/-- exp of the shifted logit. -/
def expo (i j : Fin 8192) : EReal := Ideal.exp (shifted f i j)
/-- The sum of exp of the shifted logits over the columns labelled otherwise than row i. -/
def negSum (i : Fin 8192) : EReal := ∑ j : Fin 8192, if lab i = lab j then 0 else expo f i j
/-- The log-probability of column j in row i. -/
def logProb (i j : Fin 8192) : EReal := shifted f i j - Ideal.log (expo f i j + negSum f lab i)
/-- 1 on row i's positives (the same label at another index), 0 elsewhere. -/
def pos (i j : Fin 8192) : EReal := if lab i = lab j ∧ i ≠ j then 1 else 0
/-- The sum of the log-probabilities over row i's positives. -/
def num (i : Fin 8192) : EReal := ∑ j : Fin 8192, pos lab i j * logProb f lab i j
/-- The number of row i's positives. -/
def den (i : Fin 8192) : EReal := ∑ j : Fin 8192, pos lab i j
/-- Row i's loss: minus the mean log-probability of its positives (the factor is the word of -1.0). -/
def loss (i : Fin 8192) : EReal := Ideal.ofBits .f32 0xBF800000#32 * Ideal.div (num f lab i) (den lab i)
/-- The mean of the rows' losses (the divisor is the word of 8192.0). -/
def result : EReal := Ideal.div (∑ i : Fin 8192, loss f lab i) (Ideal.ofBits .f32 0x46000000#32)

end Cert.Spec

end
-- ==== Proof.ModelIdeal1.lean ====
/-
  Pass 1 of the kernel body at the ideal instance, for real-valued features x. With a the query row and the first n
  columns seen, the carried maximum is the largest logit among them (bottom for none), and the carried sum is the sum
  over the seen columns labelled otherwise of exp (logit - that maximum): rescaling the old sum by exp (old maximum -
  new maximum) and adding the new chunk's terms keeps this, because exp (u - v) * exp (v - w) = exp (u - w) for reals.
  The caches: chunk k of the logits, chunk k of exp (logit - maximum after chunk k), lane k of the history = maximum
  after chunk k.
-/
import proofs.«406646_j46145128629053_3_alg».proof.Proof.Model
import proofs.«406646_j46145128629053_3_alg».proof.Proof.Spec
import Idealize.ShloMosaic.Lib.ValueIdx
import Idealize.ShloMosaic.PureOps.Ideal.Laws
import Idealize.ShloMosaic.PureOps.IdealRules
import Idealize.ShloMosaic.Lib.ValueLayout
import Idealize.ShloMosaic.Lib.Scf

noncomputable section

open scoped BigOperators

namespace Cert.KernelIdeal.ModelIdeal

open Idealize.ShloMosaic Idealize.ShloMosaic.ValueIdx Cert.KernelIdeal Cert.KernelIdeal.Gen

/-- Row r of query tile t. -/
def row (t : Fin 32) (r : Fin 256) : Fin 8192 := ⟨256 * t.val + r.val, by have := t.isLt; have := r.isLt; omega⟩
/-- Column j of chunk k. -/
def col (k : ℕ) (hk : k < 16) (j : Fin 512) : Fin 8192 := ⟨512 * k + j.val, by have := j.isLt; omega⟩

variable (x : Fin 8192 → Fin 256 → ℝ) (lab : Fin 8192 → BitVec 32)

/-- The features as extended reals. -/
abbrev fE : Fin 8192 → Fin 256 → EReal := fun a d => ((x a d : ℝ) : EReal)

/-- The logit of rows a, b as a real. -/
def ℓ (a b : Fin 8192) : ℝ := (∑ d : Fin 256, x a d * x b d) * (134217728 / 9395241)

/-- The largest logit of row a among the first n columns (bottom when n = 0). -/
def μ (a : Fin 8192) (n : ℕ) : EReal :=
  (Finset.univ.filter fun b : Fin 8192 => b.val < n).sup fun b => ((ℓ x a b : ℝ) : EReal)

/-- What ties the loaded blocks to the arrays: tile t's query rows and labels, chunk k's key rows and labels. -/
structure Loaded (t : Fin 32) (i : grid0.Coords) (Q : Vec Ideal S256x256 .bf16) (LQ : Vec Ideal S256x1 .i32)
    (K : ℕ → Vec Ideal S512x256 .bf16) (LK : ℕ → Vec Ideal S1x512 .i32) : Prop where
  hi : (i 0).val = t.val
  hQ : ∀ (r : Fin 256) (d : Fin 256), (Q (ix2 r d) : EReal) = ((x (row t r) d : ℝ) : EReal)
  hLQ : ∀ r : Fin 256, (LQ (ix2 r (0 : Fin 1)) : BitVec 32) = lab (row t r)
  hK : ∀ (k : ℕ) (hk : k < 16) (j : Fin 512) (d : Fin 256), (K k (ix2 j d) : EReal) = ((x (col k hk j) d : ℝ) : EReal)
  hLK : ∀ (k : ℕ) (hk : k < 16) (j : Fin 512), (LK k (ix2 (0 : Fin 1) j) : BitVec 32) = lab (col k hk j)

variable {x lab} {t : Fin 32} {i : grid0.Coords} {Q : Vec Ideal S256x256 .bf16} {LQ : Vec Ideal S256x1 .i32}
  {K : ℕ → Vec Ideal S512x256 .bf16} {LK : ℕ → Vec Ideal S1x512 .i32}

/-- The named reciprocal of the temperature denotes the rational 2^27 / 9395241 at the ideal instance. -/
theorem named_inv : Named.named (F := Ideal) Cert.KernelIdeal.κ "inv_temperature" (φ := .f32) 0x41649249#32 = Spec.invTemp := by
  unfold Spec.invTemp
  exact IdealRules.named_const.ideal_named_scalar _ _ _ _ rfl

/-! ## The payloads of pass 1 read at an index, at the ideal instance -/

namespace Pass1

/-- The reshape of the query block to its own shape is the identity. -/
theorem pay1_eq (Q : Vec Ideal S256x256 .bf16) : k0_pay1 (F := Ideal) Q = Q := shapeCast_self _ _
/-- So is the reshape of the query labels. -/
theorem pay2_eq (LQ : Vec Ideal S256x1 .i32) : k0_pay2 (F := Ideal) LQ = LQ := shapeCast_self _ _
/-- The initial maximum is bottom in every row. -/
theorem pay4_apply (i : S256x1.Idx) : k0_pay4 (F := Ideal) i = ⊥ := by
  show Ideal.ofBits .f32 0xFF800000#32 = ⊥
  simp [Ideal.ofBits, Ideal.ieee]
/-- The initial sum is zero in every row. -/
theorem pay5_apply (i : S256x1.Idx) : k0_pay5 (F := Ideal) i = 0 := Ideal.ofBits_zero_f32

/-- Row r of a 256 x 512 block with the column k put back: the index (r, k). -/
theorem lift_row (r : Fin 256) (k : Fin 512) : reduces_S256x512_S256.lift (ix1 r) k = ix2 r k := by
  funext c
  apply Fin.ext
  match c with
  | ⟨0, _⟩ => rfl
  | ⟨1, _⟩ => rfl

/-- A vector of 256 entries viewed as a 256 x 1 column reads entry r at (r, 0). -/
theorem cast_col {α : Type} (v : S256.Idx → α) (r : Fin 256) : shapeCast S256x1 v shapeCasts_S256_S256x1 (ix2 r (0 : Fin 1)) = v (ix1 r) := by
  refine shapeCast_apply v _ _ _ ?_
  rw [Shape.rowMajor_val_one, Shape.rowMajor_val_two]
  show r.val = r.val * 1 + 0
  omega

/-- A 256 x 1 column broadcast along 512 columns reads its row's entry. -/
theorem bcast_row {α : Type} (v : S256x1.Idx → α) (r : Fin 256) (j : Fin 512) : broadcastTo S256x512 v broadcasts_S256x1_S256x512 (ix2 r j) = v (ix2 r (0 : Fin 1)) := by
  refine broadcastTo_apply v _ _ _ fun a => ?_
  match a with
  | ⟨0, _⟩ => rfl
  | ⟨1, _⟩ => rfl

/-- The same along 128 lanes. -/
theorem bcast_row128 {α : Type} (v : S256x1.Idx → α) (r : Fin 256) (j : Fin 128) : broadcastTo S256x128 v broadcasts_S256x1_S256x128 (ix2 r j) = v (ix2 r (0 : Fin 1)) := by
  refine broadcastTo_apply v _ _ _ fun a => ?_
  match a with
  | ⟨0, _⟩ => rfl
  | ⟨1, _⟩ => rfl

/-- A 1 x 512 row broadcast along 256 rows reads its column's entry. -/
theorem bcast_col {α : Type} (v : S1x512.Idx → α) (r : Fin 256) (j : Fin 512) : broadcastTo S256x512 v broadcasts_S1x512_S256x512 (ix2 r j) = v (ix2 (0 : Fin 1) j) :=
  broadcastTo_1b_ab_apply v _ r j

/-- The product's operand coordinates, both operands contracted along their axis 1: the left operand reads (row of the
    result, contraction position) … -/
theorem dot_lhs0 (i : S256x512.Idx) (q : dot_S256x256_S512x256_S256x512_1_1_0_0_n_n.contr.Idx) :
    (dot_S256x256_S512x256_S256x512_1_1_0_0_n_n.lhsIdx i q 0).val = (i 0).val := by
  unfold DotDims.lhsIdx
  rw [dif_neg (show ¬(0 : Fin S256x256.rank) ∈ dot_S256x256_S512x256_S256x512_1_1_0_0_n_n.lhsBatch by decide), dif_pos (show (0 : Fin S256x256.rank) ∈ dot_S256x256_S512x256_S256x512_1_1_0_0_n_n.lhsNonContracting by decide)]
  rfl
theorem dot_lhs1 (i : S256x512.Idx) (q : dot_S256x256_S512x256_S256x512_1_1_0_0_n_n.contr.Idx) :
    (dot_S256x256_S512x256_S256x512_1_1_0_0_n_n.lhsIdx i q 1).val = (q ⟨0, by decide⟩).val :=
  dot_S256x256_S512x256_S256x512_1_1_0_0_n_n.lhsIdx_val_of_single rfl i q
/-- … and the right one (column of the result, contraction position). -/
theorem dot_rhs0 (i : S256x512.Idx) (q : dot_S256x256_S512x256_S256x512_1_1_0_0_n_n.contr.Idx) :
    (dot_S256x256_S512x256_S256x512_1_1_0_0_n_n.rhsIdx i q 0).val = (i 1).val := by
  unfold DotDims.rhsIdx
  rw [dif_neg (show ¬(0 : Fin S512x256.rank) ∈ dot_S256x256_S512x256_S256x512_1_1_0_0_n_n.rhsBatch by decide), dif_pos (show (0 : Fin S512x256.rank) ∈ dot_S256x256_S512x256_S256x512_1_1_0_0_n_n.rhsNonContracting by decide)]
  rfl
theorem dot_rhs1 (i : S256x512.Idx) (q : dot_S256x256_S512x256_S256x512_1_1_0_0_n_n.contr.Idx) :
    (dot_S256x256_S512x256_S256x512_1_1_0_0_n_n.rhsIdx i q 1).val = (q ⟨0, by decide⟩).val :=
  dot_S256x256_S512x256_S256x512_1_1_0_0_n_n.rhsIdx_val_of_single rfl i q

/-- The scaled product block at (r, j): the inner product of row r of the left block and row j of the right block, times
    the reciprocal of the temperature. -/
theorem pay11_apply (Q : FVec Ideal S256x256 .bf16) (Kk : Vec Ideal S512x256 .bf16) (r : Fin 256) (j : Fin 512) :
    k0_pay11 (F := Ideal) Q Kk (ix2 r j) = (∑ d : Fin 256, Q (ix2 r d) * Kk (ix2 j d)) * Spec.invTemp := by
  show mulf (matmul dot_S256x256_S512x256_S256x512_1_1_0_0_n_n none Q (shapeCast S512x256 Kk shapeCasts_S512x256_S512x256) (constant S256x512 .f32 0x00000000#32))
      (broadcast S256x512 (Named.named κ "inv_temperature" 0x41649249#32)) (ix2 r j) = _
  rw [mulf_apply, broadcast_apply, named_inv, shapeCast_self]
  refine congrArg (· * Spec.invTemp) ?_
  refine (Ideal.matmul_constant_zero_apply dot_S256x256_S512x256_S256x512_1_1_0_0_n_n none Q Kk (ix2 r j)).trans ?_
  rw [← Equiv.sum_comp (contrEquiv1 dot_S256x256_S512x256_S256x512_1_1_0_0_n_n 256 rfl rfl).symm]
  refine Finset.sum_congr rfl fun d _ => ?_
  have hk := contrEquiv1_symm_val dot_S256x256_S512x256_S256x512_1_1_0_0_n_n 256 rfl rfl d
  have el : dot_S256x256_S512x256_S256x512_1_1_0_0_n_n.lhsIdx (ix2 r j) ((contrEquiv1 dot_S256x256_S512x256_S256x512_1_1_0_0_n_n 256 rfl rfl).symm d) = ix2 r d := funext fun a => Fin.ext (by
    match a with
    | ⟨0, _⟩ => exact dot_lhs0 _ _
    | ⟨1, _⟩ => exact (dot_lhs1 _ _).trans hk)
  have er : dot_S256x256_S512x256_S256x512_1_1_0_0_n_n.rhsIdx (ix2 r j) ((contrEquiv1 dot_S256x256_S512x256_S256x512_1_1_0_0_n_n 256 rfl rfl).symm d) = ix2 j d := funext fun a => Fin.ext (by
    match a with
    | ⟨0, _⟩ => exact dot_rhs0 _ _
    | ⟨1, _⟩ => exact (dot_rhs1 _ _).trans hk)
  rw [el, er]

/-- A fold of max from bottom is the supremum. -/
theorem fold_max_bot {ι : Type} (s : Finset ι) (f : ι → EReal) : s.fold max ⊥ f = s.sup f := rfl

/-- The word of minus infinity denotes bottom. -/
theorem ofBits_ninf : Ideal.ofBits .f32 0xFF800000#32 = ⊥ := by simp [Ideal.ofBits, Ideal.ieee]

/-- The new maximum of row r: the carried one against the largest entry of row r of the scaled product block. -/
theorem pay13_apply (Q : FVec Ideal S256x256 .bf16) (a : FVec Ideal S256x1 .f32) (Kk : Vec Ideal S512x256 .bf16) (r : Fin 256) :
    k0_pay13 (F := Ideal) Q a Kk (ix2 r (0 : Fin 1)) = max (a (ix2 r (0 : Fin 1))) (Finset.univ.sup fun j : Fin 512 => k0_pay11 (F := Ideal) Q Kk (ix2 r j)) := by
  show maximumf a (shapeCast S256x1 (multiReduction .maximumf [1] S256 (k0_pay11 (F := Ideal) Q Kk) 0xFF800000#32 reduces_S256x512_S256 (.inl rfl) rfl) shapeCasts_S256_S256x1) (ix2 r (0 : Fin 1)) = _
  rw [maximumf_apply, cast_col]
  refine congrArg (max (a (ix2 r (0 : Fin 1)))) ?_
  refine (Ideal.multiReduction_maximumf_single (k0_pay11 (F := Ideal) Q Kk) _ reduces_S256x512_S256 (.inl rfl) rfl (ix1 r)).trans ?_
  show (Finset.univ : Finset (Fin 512)).fold max (Ideal.ofBits .f32 0xFF800000#32) (fun k => k0_pay11 (F := Ideal) Q Kk (reduces_S256x512_S256.lift (ix1 r) k)) = _
  refine (congrArg (fun b => (Finset.univ : Finset (Fin 512)).fold max b _) ofBits_ninf).trans ?_
  refine (fold_max_bot _ _).trans ?_
  exact congrArg (Finset.univ.sup) (funext fun k => congrArg _ (lift_row r k))

/-- The exponentials: exp (entry - new maximum of its row). -/
theorem pay14_apply (Q : FVec Ideal S256x256 .bf16) (a : FVec Ideal S256x1 .f32) (Kk : Vec Ideal S512x256 .bf16) (r : Fin 256) (j : Fin 512) :
    k0_pay14 (F := Ideal) Q a Kk (ix2 r j) = Ideal.exp (k0_pay11 (F := Ideal) Q Kk (ix2 r j) - k0_pay13 (F := Ideal) Q a Kk (ix2 r (0 : Fin 1))) := by
  show Ideal.exp (k0_pay11 (F := Ideal) Q Kk (ix2 r j) - broadcastTo S256x512 (k0_pay13 (F := Ideal) Q a Kk) broadcasts_S256x1_S256x512 (ix2 r j)) = _
  rw [bcast_row]

/-- The two cached blocks are reshapes to their own shapes. -/
theorem pay12_eq (Q : FVec Ideal S256x256 .bf16) (Kk : Vec Ideal S512x256 .bf16) : k0_pay12 (F := Ideal) Q Kk = k0_pay11 (F := Ideal) Q Kk := shapeCast_self _ _
theorem pay15_eq (Q : FVec Ideal S256x256 .bf16) (a : FVec Ideal S256x1 .f32) (Kk : Vec Ideal S512x256 .bf16) : k0_pay15 (F := Ideal) Q a Kk = k0_pay14 (F := Ideal) Q a Kk := shapeCast_self _ _

/-- The old sum rescaled: times exp (old maximum - new maximum). -/
theorem pay18_apply (Q : FVec Ideal S256x256 .bf16) (a s : FVec Ideal S256x1 .f32) (Kk : Vec Ideal S512x256 .bf16) (r : Fin 256) :
    k0_pay18 (F := Ideal) Q a s Kk (ix2 r (0 : Fin 1)) = s (ix2 r (0 : Fin 1)) * Ideal.exp (a (ix2 r (0 : Fin 1)) - k0_pay13 (F := Ideal) Q a Kk (ix2 r (0 : Fin 1))) := rfl

/-- The new sum: the rescaled old sum plus the sum of the block's row. -/
theorem pay6_apply (v63 : FVec Ideal S256x512 .f32) (v64 : FVec Ideal S256x1 .f32) (r : Fin 256) :
    k0_pay6 (F := Ideal) v63 v64 (ix2 r (0 : Fin 1)) = v64 (ix2 r (0 : Fin 1)) + ∑ j : Fin 512, v63 (ix2 r j) := by
  show addf v64 (shapeCast S256x1 (multiReduction .add [1] S256 v63 0x00000000#32 reduces_S256x512_S256 (.inl rfl) rfl) shapeCasts_S256_S256x1) (ix2 r (0 : Fin 1)) = _
  rw [addf_apply, cast_col]
  refine congrArg (v64 (ix2 r (0 : Fin 1)) + ·) ?_
  refine (Ideal.multiReduction_add_single v63 _ reduces_S256x512_S256 (.inl rfl) rfl (ix1 r)).trans ?_
  show ∑ k : Fin 512, v63 (reduces_S256x512_S256.lift (ix1 r) k) = _
  exact Finset.sum_congr rfl fun k _ => congrArg v63 (lift_row r k)

/-- The block's entry is zeroed where the query's label equals the key's. -/
theorem pay17_apply (Q : FVec Ideal S256x256 .bf16) (LQ : IVec S256x1 32) (a : FVec Ideal S256x1 .f32) (Kk : Vec Ideal S512x256 .bf16) (LKk : Vec Ideal S1x512 .i32) (r : Fin 256) (j : Fin 512) :
    k0_pay17 (F := Ideal) Q LQ a Kk LKk (ix2 r j) = if LQ (ix2 r (0 : Fin 1)) = (LKk (ix2 (0 : Fin 1) j) : BitVec 32) then 0 else k0_pay14 (F := Ideal) Q a Kk (ix2 r j) := by
  show Scalar.select (IntOp.cmpi .eq (broadcastTo S256x512 LQ broadcasts_S256x1_S256x512 (ix2 r j)) (broadcastTo S256x512 (shapeCast S1x512 LKk shapeCasts_S1x512_S1x512) broadcasts_S1x512_S256x512 (ix2 r j)))
      (Ideal.ofBits .f32 0x00000000#32) (k0_pay14 (F := Ideal) Q a Kk (ix2 r j)) = _
  rw [bcast_row, bcast_col, shapeCast_self, Ideal.ofBits_zero_f32]
  by_cases h : LQ (ix2 r (0 : Fin 1)) = (LKk (ix2 (0 : Fin 1) j) : BitVec 32)
  · rw [if_pos h, IntOp.cmpi_eq.2 h, select_one]
  · rw [if_neg h, eq_zero_of_ne_one (fun hc => h (IntOp.cmpi_eq.1 hc)), select_zero]

/-- The first loop runs 16 trips. -/
theorem trips1 : k0_t1_loop.trips = 16 := by decide

/-- From 0 with step 1 the induction word at trip k is the word of k. -/
theorem iv01 (k : ℕ) : Scf.iv 0#32 1#32 k = BitVec.ofNat 32 k := by
  unfold Scf.iv
  rw [BitVec.mul_one, BitVec.zero_add]

/-- Words of small naturals are equal exactly when the naturals are. -/
theorem ofNat_eq_iff (l k : ℕ) (hl : l < 2 ^ 32) (hk : k < 2 ^ 32) : BitVec.ofNat 32 l = BitVec.ofNat 32 k ↔ l = k := by
  constructor
  · intro h
    have := congrArg BitVec.toNat h
    rw [BitVec.toNat_ofNat, BitVec.toNat_ofNat, Nat.mod_eq_of_lt hl, Nat.mod_eq_of_lt hk] at this
    exact this
  · intro h; rw [h]

/-- The history after trip k: lane k takes the new maximum, every other lane keeps what it held. -/
theorem pay16_apply (Q : FVec Ideal S256x256 .bf16) (k : ℕ) (h : k < k0_t1_loop.trips) (a : FVec Ideal S256x1 .f32) (Kk : Vec Ideal S512x256 .bf16)
    (v54 : Vec Ideal S256x128 .f32) (r : Fin 256) (l : Fin 128) :
    k0_pay16 (F := Ideal) Q 0#32 1#32 ⟨k, h⟩ a Kk v54 (ix2 r l)
      = if l.val = k then k0_pay13 (F := Ideal) Q a Kk (ix2 r (0 : Fin 1)) else v54 (ix2 r l) := by
  show shapeCast S256x128 (select (cmpi .eq (iota .tc S256x128 32 [1] iota_S256x128_d1_w32) (broadcast S256x128 (Scf.iv 0#32 1#32 k)))
        (broadcastTo S256x128 (shapeCast S256x1 (k0_pay13 (F := Ideal) Q a Kk) shapeCasts_S256x1_S256x1) broadcasts_S256x1_S256x128) v54)
      shapeCasts_S256x128_S256x128 (ix2 r l) = _
  rw [shapeCast_self, select_apply, bcast_row128, shapeCast_self]
  show Scalar.select (IntOp.cmpi .eq (iota .tc S256x128 32 [1] iota_S256x128_d1_w32 (ix2 r l)) (Scf.iv 0#32 1#32 k)) _ _ = _
  rw [iota_single_apply, iv01]
  have hk16 : k < 16 := trips1 ▸ h
  have hl := l.isLt
  have hiff := ofNat_eq_iff l.val k (by omega) (by omega)
  by_cases e : l.val = k
  · rw [if_pos e, IntOp.cmpi_eq.2 (hiff.2 e), select_one]
  · rw [if_neg e, eq_zero_of_ne_one (fun hc => e (hiff.1 (IntOp.cmpi_eq.1 hc))), select_zero]

/-- The coercion of the reals into the extended reals goes through a finite sum. -/
theorem coe_sum {ι : Type} (s : Finset ι) (f : ι → ℝ) : ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

end Pass1

open Pass1

/-- The spec's logit of real features is the real logit. -/
theorem logit_eq (a b : Fin 8192) : Spec.logit (fE x) a b = ((ℓ x a b : ℝ) : EReal) := by
  unfold Spec.logit Spec.sim Spec.invTemp ℓ
  rw [EReal.coe_mul, coe_sum]
  exact congrArg (· * _) (Finset.sum_congr rfl fun d _ => (EReal.coe_mul _ _).symm)

/-- The maximum over all columns is the spec's row maximum. -/
theorem μ_full (a : Fin 8192) : μ x a 8192 = Spec.rowMax (fE x) a := by
  unfold μ Spec.rowMax
  rw [Finset.filter_true_of_mem fun b _ => b.isLt]
  exact congrArg (Finset.univ.sup) (funext fun b => (logit_eq a b).symm)

/-- Over at least one column the maximum is a real. -/
theorem μ_real (a : Fin 8192) (n : ℕ) (hn : 0 < n) : ∃ v : ℝ, μ x a n = ((v : ℝ) : EReal) := by
  have hne : (Finset.univ.filter fun b : Fin 8192 => b.val < n).Nonempty :=
    ⟨⟨0, by omega⟩, Finset.mem_filter.2 ⟨Finset.mem_univ _, hn⟩⟩
  obtain ⟨b, _, hb⟩ := Finset.exists_mem_eq_sup _ hne fun b => ((ℓ x a b : ℝ) : EReal)
  exact ⟨ℓ x a b, hb⟩

/-- The maximum grows with the columns seen. -/
theorem μ_mono (a : Fin 8192) {n n' : ℕ} (h : n ≤ n') : μ x a n ≤ μ x a n' := by
  exact Finset.sup_mono fun b hb => Finset.mem_filter.2 ⟨Finset.mem_univ _, lt_of_lt_of_le (Finset.mem_filter.1 hb).2 h⟩

namespace Pass1

/-- Every column index below 512 (k + 1) and not below 512 k is a column of chunk k. -/
theorem col_of_mem (k : ℕ) (hk : k < 16) (b : Fin 8192) (h1 : ¬ b.val < 512 * k) (h2 : b.val < 512 * (k + 1)) :
    b = col k hk ⟨b.val - 512 * k, by omega⟩ := Fin.ext (by show b.val = 512 * k + (b.val - 512 * k); omega)

/-- The maximum after chunk k: the maximum before it, against the chunk's own largest logit. -/
theorem μ_succ (a : Fin 8192) (k : ℕ) (hk : k < 16) :
    μ x a (512 * (k + 1)) = max (μ x a (512 * k)) (Finset.univ.sup fun j : Fin 512 => ((ℓ x a (col k hk j) : ℝ) : EReal)) := by
  refine le_antisymm (Finset.sup_le fun b hb => ?_) (max_le (μ_mono a (by omega)) (Finset.sup_le fun j _ => ?_))
  · by_cases h1 : b.val < 512 * k
    · exact le_max_of_le_left (Finset.le_sup (f := fun b => ((ℓ x a b : ℝ) : EReal)) (Finset.mem_filter.2 ⟨Finset.mem_univ _, h1⟩))
    · rw [col_of_mem k hk b h1 (Finset.mem_filter.1 hb).2]
      exact le_max_of_le_right (Finset.le_sup (f := fun j : Fin 512 => ((ℓ x a (col k hk j) : ℝ) : EReal)) (Finset.mem_univ _))
  · exact Finset.le_sup (f := fun b => ((ℓ x a b : ℝ) : EReal)) (Finset.mem_filter.2 ⟨Finset.mem_univ _, by show 512 * k + j.val < 512 * (k + 1); have := j.isLt; omega⟩)

/-- Over no columns the maximum is bottom. -/
theorem μ_zero (a : Fin 8192) : μ x a 0 = ⊥ := by
  unfold μ
  rw [Finset.filter_false_of_mem fun b _ => Nat.not_lt_zero _]
  exact Finset.sup_empty

/-- Under the loading hypotheses the product block of chunk k holds the real logits. -/
theorem logit_chunk (hL : Loaded x lab t i Q LQ K LK) (k : ℕ) (hk : k < 16) (r : Fin 256) (j : Fin 512) :
    k0_pay11 (F := Ideal) Q (K k) (ix2 r j) = ((ℓ x (row t r) (col k hk j) : ℝ) : EReal) := by
  rw [pay11_apply]
  refine Eq.trans ?_ (logit_eq (row t r) (col k hk j))
  show _ = (∑ d : Fin 256, fE x (row t r) d * fE x (col k hk j) d) * Spec.invTemp
  exact congrArg (· * Spec.invTemp) (Finset.sum_congr rfl fun d _ => by rw [hL.hQ, hL.hK k hk])

end Pass1

/-- Pass 1's carried maximum before chunk k is the maximum over the first 512 k columns. -/
theorem st1_max (hL : Loaded x lab t i Q LQ K LK) (k : ℕ) (hk : k ≤ 16) (r : Fin 256) :
    (Model.st1 (F := Ideal) Q LQ K LK k).1 (ix2 r (0 : Fin 1)) = μ x (row t r) (512 * k) := by
  induction k with
  | zero => exact (pay4_apply (ix2 r (0 : Fin 1))).trans (μ_zero (row t r)).symm
  | succ k ih =>
    have hk' : k < 16 := by omega
    show k0_pay13 (F := Ideal) (k0_pay1 (F := Ideal) Q) (Model.st1 (F := Ideal) Q LQ K LK k).1 (K k) (ix2 r (0 : Fin 1)) = _
    rw [pay1_eq, pay13_apply, ih (by omega), μ_succ _ k hk']
    exact congrArg (max _) (congrArg Finset.univ.sup (funext fun j => logit_chunk hL k hk' r j))

namespace Pass1

/-- The new maximum chunk k computes is the maximum over the first 512 (k + 1) columns. -/
theorem pay13_st1 (hL : Loaded x lab t i Q LQ K LK) (k : ℕ) (hk : k < 16) (r : Fin 256) :
    k0_pay13 (F := Ideal) Q (Model.st1 (F := Ideal) Q LQ K LK k).1 (K k) (ix2 r (0 : Fin 1)) = μ x (row t r) (512 * (k + 1)) := by
  refine Eq.trans ?_ (st1_max hL (k + 1) (by omega) r)
  show _ = k0_pay13 (F := Ideal) (k0_pay1 (F := Ideal) Q) (Model.st1 (F := Ideal) Q LQ K LK k).1 (K k) (ix2 r (0 : Fin 1))
  rw [pay1_eq]

/-- The columns below 512 (k + 1) are those below 512 k and the columns of chunk k. -/
theorem sum_chunk_split (k : ℕ) (hk : k < 16) (f : Fin 8192 → EReal) :
    (∑ b : Fin 8192, if b.val < 512 * (k + 1) then f b else 0)
      = (∑ b : Fin 8192, if b.val < 512 * k then f b else 0) + ∑ j : Fin 512, f (col k hk j) := by
  classical
  have hinj : Function.Injective (col k hk) := fun j j' e => Fin.ext (by
    have h := congrArg Fin.val e
    change 512 * k + j.val = 512 * k + j'.val at h
    omega)
  have hsplit : (Finset.univ.filter fun b : Fin 8192 => b.val < 512 * (k + 1))
      = (Finset.univ.filter fun b : Fin 8192 => b.val < 512 * k) ∪ Finset.univ.image (col k hk) := by
    ext b
    simp only [Finset.mem_filter, Finset.mem_univ, true_and, Finset.mem_union, Finset.mem_image]
    constructor
    · intro h
      by_cases h1 : b.val < 512 * k
      · exact Or.inl h1
      · exact Or.inr ⟨_, (col_of_mem k hk b h1 h).symm⟩
    · rintro (h | ⟨j, rfl⟩)
      · omega
      · show 512 * k + j.val < 512 * (k + 1)
        have := j.isLt
        omega
  have hdisj : Disjoint (Finset.univ.filter fun b : Fin 8192 => b.val < 512 * k) (Finset.univ.image (col k hk)) := by
    rw [Finset.disjoint_left]
    intro b hb hc
    obtain ⟨j, _, rfl⟩ := Finset.mem_image.1 hc
    have h := (Finset.mem_filter.1 hb).2
    change 512 * k + j.val < 512 * k at h
    omega
  rw [← Finset.sum_filter, ← Finset.sum_filter, hsplit, Finset.sum_union hdisj, Finset.sum_image fun j _ j' _ e => hinj e]

/-- One term of the carried sum against a real maximum is the coercion of a real. -/
theorem term_coe (c p : Prop) [Decidable c] [Decidable p] (e w : ℝ) :
    (if c then (if p then (0 : EReal) else Ideal.exp (((e : ℝ) : EReal) - ((w : ℝ) : EReal))) else 0)
      = (((if c then (if p then 0 else Real.exp (e - w)) else 0) : ℝ) : EReal) := by
  by_cases hc : c
  · by_cases hp : p
    · rw [if_pos hc, if_pos hp, if_pos hc, if_pos hp, EReal.coe_zero]
    · rw [if_pos hc, if_neg hp, if_pos hc, if_neg hp, ← EReal.coe_sub, Ideal.exp_coe]
  · rw [if_neg hc, if_neg hc, EReal.coe_zero]

/-- Rescaling the sum over the columns seen so far from the maximum m to the maximum m': every term is multiplied by
    exp (m - m'), since exp (u - m) * exp (m - m') = exp (u - m') for reals; over no columns both sides are 0. -/
theorem rescale (a : Fin 8192) (n : ℕ) (m m' : EReal) (hm : 0 < n → ∃ u : ℝ, m = ((u : ℝ) : EReal))
    (hm' : 0 < n → ∃ v : ℝ, m' = ((v : ℝ) : EReal)) :
    (∑ b : Fin 8192, if b.val < n then (if lab a = lab b then 0 else Ideal.exp (((ℓ x a b : ℝ) : EReal) - m')) else 0)
      = (∑ b : Fin 8192, if b.val < n then (if lab a = lab b then 0 else Ideal.exp (((ℓ x a b : ℝ) : EReal) - m)) else 0)
          * Ideal.exp (m - m') := by
  rcases Nat.eq_zero_or_pos n with h0 | hpos
  · subst h0
    rw [Finset.sum_eq_zero fun b _ => if_neg (Nat.not_lt_zero _), Finset.sum_eq_zero fun b _ => if_neg (Nat.not_lt_zero _), zero_mul]
  · obtain ⟨u, rfl⟩ := hm hpos
    obtain ⟨v, rfl⟩ := hm' hpos
    simp only [term_coe]
    rw [← coe_sum, ← coe_sum, ← EReal.coe_sub, Ideal.exp_coe, ← EReal.coe_mul, Finset.sum_mul]
    refine congrArg _ (Finset.sum_congr rfl fun b _ => ?_)
    by_cases hc : b.val < n
    · by_cases hp : lab a = lab b
      · rw [if_pos hc, if_pos hp, if_pos hc, if_pos hp, zero_mul]
      · rw [if_pos hc, if_neg hp, if_pos hc, if_neg hp, ← Real.exp_add]
        congr 1
        ring
    · rw [if_neg hc, if_neg hc, zero_mul]

/-- The carried sum after chunk k: the sum before it rescaled to the new maximum, plus the chunk's own terms. -/
theorem negsum_succ (a : Fin 8192) (k : ℕ) (hk : k < 16) :
    (∑ b : Fin 8192, if b.val < 512 * (k + 1) then
        (if lab a = lab b then 0 else Ideal.exp (((ℓ x a b : ℝ) : EReal) - μ x a (512 * (k + 1)))) else 0)
      = (∑ b : Fin 8192, if b.val < 512 * k then
            (if lab a = lab b then 0 else Ideal.exp (((ℓ x a b : ℝ) : EReal) - μ x a (512 * k))) else 0)
          * Ideal.exp (μ x a (512 * k) - μ x a (512 * (k + 1)))
        + ∑ j : Fin 512, if lab a = lab (col k hk j) then 0
            else Ideal.exp (((ℓ x a (col k hk j) : ℝ) : EReal) - μ x a (512 * (k + 1))) := by
  refine (sum_chunk_split k hk fun b => if lab a = lab b then 0 else Ideal.exp (((ℓ x a b : ℝ) : EReal) - μ x a (512 * (k + 1)))).trans ?_
  rw [rescale (lab := lab) a (512 * k) (μ x a (512 * k)) (μ x a (512 * (k + 1))) (fun h => μ_real a _ h) (fun _ => μ_real a _ (by omega))]

end Pass1

/-- Pass 1's carried sum before chunk k: over the first 512 k columns labelled otherwise, exp (logit - maximum so far). -/
theorem st1_negsum (hL : Loaded x lab t i Q LQ K LK) (k : ℕ) (hk : k ≤ 16) (r : Fin 256) :
    (Model.st1 (F := Ideal) Q LQ K LK k).2 (ix2 r (0 : Fin 1))
      = ∑ b : Fin 8192, if b.val < 512 * k then
          (if lab (row t r) = lab b then 0 else Ideal.exp (((ℓ x (row t r) b : ℝ) : EReal) - μ x (row t r) (512 * k)))
        else 0 := by
  induction k with
  | zero =>
    refine (pay5_apply (ix2 r (0 : Fin 1))).trans ?_
    exact (Finset.sum_eq_zero fun b _ => if_neg (by omega)).symm
  | succ k ih =>
    have hk' : k < 16 := by omega
    show k0_pay6 (F := Ideal) (k0_pay17 (F := Ideal) (k0_pay1 (F := Ideal) Q) (k0_pay2 (F := Ideal) LQ) (Model.st1 (F := Ideal) Q LQ K LK k).1 (K k) (LK k))
        (k0_pay18 (F := Ideal) (k0_pay1 (F := Ideal) Q) (Model.st1 (F := Ideal) Q LQ K LK k).1 (Model.st1 (F := Ideal) Q LQ K LK k).2 (K k)) (ix2 r (0 : Fin 1)) = _
    rw [pay6_apply, pay18_apply, pay1_eq, pay2_eq, ih (by omega), pay13_st1 hL k hk' r, st1_max hL k (by omega) r, negsum_succ (row t r) k hk']
    refine congrArg (_ + ·) (Finset.sum_congr rfl fun j _ => ?_)
    rw [pay17_apply, pay14_apply, logit_chunk hL k hk' r j, pay13_st1 hL k hk' r, hL.hLQ r, hL.hLK k hk' j]

/-- Chunk k of the cached logits. -/
theorem logitsC_apply (hL : Loaded x lab t i Q LQ K LK) (k : ℕ) (hk : k < 16) (r : Fin 256) (j : Fin 512) :
    Model.logitsC (F := Ideal) Q K k (ix2 r j) = ((ℓ x (row t r) (col k hk j) : ℝ) : EReal) := by
  show k0_pay12 (F := Ideal) (k0_pay1 (F := Ideal) Q) (K k) (ix2 r j) = _
  rw [pay1_eq, pay12_eq]
  exact logit_chunk hL k hk r j

/-- Chunk k of the cached exponentials: against the maximum AFTER chunk k. -/
theorem expC_apply (hL : Loaded x lab t i Q LQ K LK) (k : ℕ) (hk : k < 16) (r : Fin 256) (j : Fin 512) :
    Model.expC (F := Ideal) Q LQ K LK k (ix2 r j)
      = Ideal.exp (((ℓ x (row t r) (col k hk j) : ℝ) : EReal) - μ x (row t r) (512 * (k + 1))) := by
  show k0_pay15 (F := Ideal) (k0_pay1 (F := Ideal) Q) (Model.st1 (F := Ideal) Q LQ K LK k).1 (K k) (ix2 r j) = _
  rw [pay1_eq, pay15_eq, pay14_apply, logit_chunk hL k hk r j, pay13_st1 hL k hk r]

/-- The history before chunk n: lane l < n holds the maximum after chunk l; the other lanes are untouched. -/
theorem hist_apply (hL : Loaded x lab t i Q LQ K LK) (h0 : Vec Ideal S256x128 .f32) (n : ℕ) (hn : n ≤ 16) (r : Fin 256)
    (l : Fin 128) :
    Model.hist (F := Ideal) Q LQ K LK h0 n (ix2 r l)
      = if l.val < n then μ x (row t r) (512 * (l.val + 1)) else h0 (ix2 r l) := by
  induction n with
  | zero => exact (if_neg (Nat.not_lt_zero _)).symm
  | succ n ih =>
    have hn' : n < 16 := by omega
    have ht : n < k0_t1_loop.trips := trips1 ▸ hn'
    have e : Model.hist (F := Ideal) Q LQ K LK h0 (n + 1)
        = k0_pay16 (F := Ideal) (k0_pay1 (F := Ideal) Q) 0#32 1#32 ⟨n, ht⟩ (Model.st1 (F := Ideal) Q LQ K LK n).1 (K n) (Model.hist (F := Ideal) Q LQ K LK h0 n) := by
      show (if h : n < k0_t1_loop.trips then _ else _) = _
      rw [dif_pos ht]
    rw [e, pay1_eq, pay16_apply, ih (by omega)]
    by_cases e1 : l.val = n
    · rw [if_pos e1, if_pos (by omega), pay13_st1 hL n hn' r, e1]
    · rw [if_neg e1]
      by_cases e2 : l.val < n
      · rw [if_pos e2, if_pos (by omega)]
      · rw [if_neg e2, if_neg (by omega)]

end Cert.KernelIdeal.ModelIdeal

end
-- ==== Proof.ModelIdeal2.lean ====
/-
  Pass 2 of the kernel body at the ideal instance and the result block. Lane k of the history is the running maximum
  after chunk k, so the cached exp (logit - that maximum) times exp (that maximum - final maximum) is exp (logit - final
  maximum); with pass 1's final sum the log-probability of each column is the spec's, and the carried pair is the
  positives' log-probability sum and count over the columns seen. The block's entry r is the spec's loss of the row.
-/
import proofs.«406646_j46145128629053_3_alg».proof.Proof.ModelIdeal1
import Idealize.ShloMosaic.Lib.ValueLayout
import Idealize.ShloMosaic.Lib.IdealHost
import Idealize.ShloMosaic.Lib.Scf

noncomputable section

open scoped BigOperators

namespace Cert.KernelIdeal.ModelIdeal

open Idealize.ShloMosaic Idealize.ShloMosaic.ValueIdx Cert.KernelIdeal Cert.KernelIdeal.Gen

variable {x : Fin 8192 → Fin 256 → ℝ} {lab : Fin 8192 → BitVec 32} {t : Fin 32} {i : grid0.Coords}
  {Q : Vec Ideal S256x256 .bf16} {LQ : Vec Ideal S256x1 .i32} {K : ℕ → Vec Ideal S512x256 .bf16} {LK : ℕ → Vec Ideal S1x512 .i32}

namespace Pass2

/-! ## Shapes: a row's entries, a column broadcast along a row, a row sum -/

/-- Pass 2 runs over the sixteen column chunks. -/
theorem trips2 : k0_t2_loop.trips = 16 := by decide

/-- Putting column j back into row r of a 256 x 512 block gives the entry (r, j). -/
theorem lift512 (r : Fin 256) (j : Fin 512) : reduces_S256x512_S256.lift (ix1 r) j = ix2 r j := by
  funext c
  match c with
  | ⟨0, _⟩ => rfl
  | ⟨1, _⟩ => rfl

/-- Putting lane l back into row r of the 256 x 128 history gives the entry (r, l). -/
theorem lift128 (r : Fin 256) (l : Fin 128) : reduces_S256x128_S256.lift (ix1 r) l = ix2 r l := by
  funext c
  match c with
  | ⟨0, _⟩ => rfl
  | ⟨1, _⟩ => rfl

/-- The sum of a 256 x 512 block over its columns, at row r, is the sum of row r's 512 entries. -/
theorem rowsum512 (v : FVec Ideal S256x512 .f32) (r : Fin 256) :
    multiReduction .add [1] S256 v 0x00000000#32 reduces_S256x512_S256 (.inl rfl) rfl (ix1 r) = ∑ j : Fin 512, v (ix2 r j) := by
  refine (Ideal.multiReduction_add_single v _ reduces_S256x512_S256 _ _ (ix1 r)).trans ?_
  exact Finset.sum_congr rfl fun j _ => congrArg v (lift512 r j)

/-- The sum of a 256 x 128 block over its lanes, at row r, is the sum of row r's 128 entries. -/
theorem rowsum128 (v : FVec Ideal S256x128 .f32) (r : Fin 256) :
    multiReduction .add [1] S256 v 0x00000000#32 reduces_S256x128_S256 (.inl rfl) rfl (ix1 r) = ∑ l : Fin 128, v (ix2 r l) := by
  refine (Ideal.multiReduction_add_single v _ reduces_S256x128_S256 _ _ (ix1 r)).trans ?_
  exact Finset.sum_congr rfl fun l _ => congrArg v (lift128 r l)

/-- A vector of 256 entries seen as a column: entry (r, 0) is entry r (the same row-major position). -/
theorem cast_col {α : Type} (v : S256.Idx → α) (r : Fin 256) :
    shapeCast S256x1 v shapeCasts_S256_S256x1 (ix2 r (0 : Fin 1)) = v (ix1 r) :=
  shapeCast_apply v _ _ _ (by
    rw [Shape.rowMajor_val_two, Shape.rowMajor_val_one]
    show r.val = r.val * 1 + 0
    omega)

/-- A column broadcast along the 512 columns reads, at (r, j), the column's entry of row r. -/
theorem bcast_col512 {α : Type} (v : S256x1.Idx → α) (r : Fin 256) (j : Fin 512) :
    broadcastTo S256x512 v broadcasts_S256x1_S256x512 (ix2 r j) = v (ix2 r (0 : Fin 1)) :=
  broadcastTo_apply v _ _ _ fun ax => by
    match ax with
    | ⟨0, _⟩ => rfl
    | ⟨1, _⟩ => rfl

/-- A row broadcast along the 256 rows reads, at (r, j), the row's entry of column j. -/
theorem bcast_row512 {α : Type} (v : S1x512.Idx → α) (r : Fin 256) (j : Fin 512) :
    broadcastTo S256x512 v broadcasts_S1x512_S256x512 (ix2 r j) = v (ix2 (0 : Fin 1) j) :=
  broadcastTo_1b_ab_apply v _ r j

/-- The logarithm and the exponential of a block, read at an entry. -/
theorem log_at {s : Shape} (a : FVec Ideal s .f32) (i : s.Idx) : log a i = Ideal.log (a i) := rfl
theorem exp_at {s : Shape} (a : FVec Ideal s .f32) (i : s.Idx) : exp a i = Ideal.exp (a i) := rfl

/-! ## Index words: rows and columns as 32-bit numbers below 8192 -/

/-- The induction variable of trip k, counting from 0 by 1, is the word of k. -/
theorem iv_word (k : ℕ) : Scf.iv 0#32 1#32 k = BitVec.ofNat 32 k := by
  simp [Scf.iv]

/-- The row index word of entry r of tile t is the word of 256 t + r: the tile's base 256 t plus the position r, with
    no wrap (the sum is below 8192). -/
theorem row_word (hi : (i 0).val = t.val) (r : Fin 256) :
    k0_pay3 i (ix2 r (0 : Fin 1)) = BitVec.ofNat 32 (256 * t.val + r.val) := by
  show IntOp.addi (Scalar.muli (BitVec.ofNat 32 (i 0).val) 256#32) (BitVec.ofNat 32 (0 * 256 + r.val)) = _
  rw [hi]
  show BitVec.ofNat 32 t.val * 256#32 + BitVec.ofNat 32 (0 * 256 + r.val) = _
  apply BitVec.eq_of_toNat_eq
  simp only [BitVec.toNat_add, BitVec.toNat_mul, BitVec.toNat_ofNat]
  have := t.isLt; have := r.isLt
  omega

/-- The column index word of entry j of chunk k is the word of 512 k + j. -/
theorem col_word (k : ℕ) (hk : k < 16) (j : Fin 512) :
    addi (broadcast S1x512 (Scalar.muli (Scf.iv (0#32) (1#32) k) 512#32)) (iota Kind.tc S1x512 32 [1] iota_S1x512_d1_w32)
      (ix2 (0 : Fin 1) j) = BitVec.ofNat 32 (512 * k + j.val) := by
  show IntOp.addi (Scalar.muli (Scf.iv (0#32) (1#32) k) 512#32) (BitVec.ofNat 32 (0 * 512 + j.val)) = _
  rw [iv_word]
  show BitVec.ofNat 32 k * 512#32 + BitVec.ofNat 32 (0 * 512 + j.val) = _
  apply BitVec.eq_of_toNat_eq
  simp only [BitVec.toNat_add, BitVec.toNat_mul, BitVec.toNat_ofNat]
  have := j.isLt
  omega

/-- The equality test of two words is the bit 1 exactly when they are equal. -/
theorem cmpi_eq_ite (u v : BitVec 32) : IntOp.cmpi .eq u v = if u = v then 1#1 else 0#1 := by
  unfold IntOp.cmpi
  by_cases h : u = v
  · subst h; rw [if_pos rfl, beq_self_eq_true]; rfl
  · rw [if_neg h, beq_eq_false_iff_ne.mpr h]; rfl

/-- Words of numbers below 8192 are equal exactly when the numbers are: nothing wraps below 2^32. -/
theorem word_inj {m n : ℕ} (hm : m < 8192) (hn : n < 8192) : BitVec.ofNat 32 m = BitVec.ofNat 32 n ↔ m = n := by
  constructor
  · intro e
    have e' := congrArg BitVec.toNat e
    simp only [BitVec.toNat_ofNat] at e'
    omega
  · intro e; rw [e]

/-- A select on the bit (p and not q), the negation taken as exclusive-or with 1, chooses by the proposition p ∧ ¬ q. -/
theorem select_mask (p q : Prop) [Decidable p] [Decidable q] (A B : EReal) :
    Scalar.select (IntOp.andi (if p then 1#1 else 0#1) (IntOp.xori (if q then 1#1 else 0#1) 1#1)) A B
      = if p ∧ ¬ q then A else B := by
  by_cases hp : p <;> by_cases hq : q
  · rw [if_pos hp, if_pos hq, if_neg (fun h => h.2 hq)]; exact select_zero A B
  · rw [if_pos hp, if_neg hq, if_pos ⟨hp, hq⟩]; exact select_one A B
  · rw [if_neg hp, if_pos hq, if_neg (fun h => hp h.1)]; exact select_zero A B
  · rw [if_neg hp, if_neg hq, if_neg (fun h => hp h.1)]; exact select_zero A B

/-! ## The positives' mask of a chunk, its count, and the lane of the history pass 2 reads -/

/-- Chunk k's mask at (r, j) is 1 when row 256 t + r and column 512 k + j carry the same label at different indices, else
    0: the spec's indicator of the row's positives, at that column. -/
theorem mask_apply (hL : Loaded x lab t i Q LQ K LK) (k : ℕ) (hk : k < 16) (h : k < k0_t2_loop.trips) (r : Fin 256) (j : Fin 512) :
    k0_pay19 (F := Ideal) (k0_pay2 LQ) (k0_pay3 i) 0#32 1#32 ⟨k, h⟩ (LK k) (ix2 r j) = Spec.pos lab (row t r) (col k hk j) := by
  have e1 : k0_pay2 LQ (ix2 r (0 : Fin 1)) = lab (row t r) := by
    show shapeCast S256x1 LQ shapeCasts_S256x1_S256x1 (ix2 r (0 : Fin 1)) = _
    rw [shapeCast_self]; exact hL.hLQ r
  have e2 : shapeCast S1x512 (LK k) shapeCasts_S1x512_S1x512 (ix2 (0 : Fin 1) j) = lab (col k hk j) := by
    rw [shapeCast_self]; exact hL.hLK k hk j
  show Scalar.select
      (IntOp.andi
        (IntOp.cmpi .eq (broadcastTo S256x512 (k0_pay2 LQ) broadcasts_S256x1_S256x512 (ix2 r j))
          (broadcastTo S256x512 (shapeCast S1x512 (LK k) shapeCasts_S1x512_S1x512) broadcasts_S1x512_S256x512 (ix2 r j)))
        (IntOp.xori
          (IntOp.cmpi .eq
            (broadcastTo S256x512
              (addi (broadcast S1x512 (Scalar.muli (Scf.iv (0#32) (1#32) k) 512#32))
                (iota Kind.tc S1x512 32 [1] iota_S1x512_d1_w32))
              broadcasts_S1x512_S256x512 (ix2 r j))
            (broadcastTo S256x512 (k0_pay3 i) broadcasts_S256x1_S256x512 (ix2 r j)))
          1#1))
      (Ideal.ofBits .f32 0x3F800000#32) (Ideal.ofBits .f32 0x00000000#32) = _
  rw [bcast_col512, bcast_row512, bcast_row512, bcast_col512, e1, e2, col_word k hk j, row_word hL.hi r,
    cmpi_eq_ite, cmpi_eq_ite, select_mask, Ideal.ofBits_one_f32, Ideal.ofBits_zero_f32]
  unfold Spec.pos
  have hc : (512 * k + j.val = 256 * t.val + r.val) ↔ row t r = col k hk j := by
    constructor
    · intro e; exact Fin.ext e.symm
    · intro e; exact (congrArg Fin.val e).symm
  have hw : (BitVec.ofNat 32 (512 * k + j.val) = BitVec.ofNat 32 (256 * t.val + r.val)) ↔ row t r = col k hk j := by
    rw [word_inj (by have := j.isLt; omega) (by have := t.isLt; have := r.isLt; omega)]; exact hc
  simp only [hw, ne_eq]

/-- One step of the count: the carried count plus the number of the row's positives among chunk k's columns. -/
theorem count_step (hL : Loaded x lab t i Q LQ K LK) (k : ℕ) (hk : k < 16) (h : k < k0_t2_loop.trips)
    (c : FVec Ideal S256x1 .f32) (r : Fin 256) :
    k0_pay9 c (k0_pay21 (F := Ideal) (k0_pay2 LQ) (k0_pay3 i) 0#32 1#32 ⟨k, h⟩ (LK k)) (ix2 r (0 : Fin 1))
      = c (ix2 r (0 : Fin 1)) + ∑ j : Fin 512, Spec.pos lab (row t r) (col k hk j) := by
  show c (ix2 r (0 : Fin 1)) + shapeCast S256x1 (k0_pay21 (F := Ideal) (k0_pay2 LQ) (k0_pay3 i) 0#32 1#32 ⟨k, h⟩ (LK k))
      shapeCasts_S256_S256x1 (ix2 r (0 : Fin 1)) = _
  rw [cast_col]
  unfold k0_pay21
  rw [rowsum512]
  exact congrArg (c (ix2 r (0 : Fin 1)) + ·) (Finset.sum_congr rfl fun j _ => mask_apply hL k hk h r j)

/-- The history masked to lane k and summed over the lanes is its lane k: a sum with one term that is not zero. -/
theorem lane_pick (k : ℕ) (hk : k < 16) (H : Vec Ideal S256x128 .f32) (r : Fin 256) :
    multiReduction .add [1] S256
        (select (cmpi .eq (iota .tc S256x128 32 [1] iota_S256x128_d1_w32) (broadcast S256x128 (Scf.iv 0#32 1#32 k))) H
          (broadcast S256x128 (Scalar.ofBits (F := Ideal) .f32 0x00000000#32)))
        0x00000000#32 reduces_S256x128_S256 (.inl rfl) rfl (ix1 r)
      = H (ix2 r (⟨k, by omega⟩ : Fin 128)) := by
  rw [rowsum128]
  have hterm : ∀ l : Fin 128,
      select (cmpi .eq (iota .tc S256x128 32 [1] iota_S256x128_d1_w32) (broadcast S256x128 (Scf.iv 0#32 1#32 k))) H
          (broadcast S256x128 (Scalar.ofBits (F := Ideal) .f32 0x00000000#32)) (ix2 r l)
        = if l.val = k then H (ix2 r l) else 0 := by
    intro l
    show Scalar.select (IntOp.cmpi .eq (BitVec.ofNat 32 (0 * 128 + l.val)) (Scf.iv 0#32 1#32 k)) (H (ix2 r l))
        (Ideal.ofBits .f32 0x00000000#32) = _
    have hw : BitVec.ofNat 32 (0 * 128 + l.val) = BitVec.ofNat 32 k ↔ l.val = k := by
      rw [word_inj (by have := l.isLt; omega) (by omega)]; omega
    rw [iv_word, cmpi_eq_ite, Ideal.ofBits_zero_f32]
    by_cases e : l.val = k
    · rw [if_pos (hw.mpr e), if_pos e, select_one]
    · rw [if_neg (fun z => e (hw.mp z)), if_neg e, select_zero]
  rw [Finset.sum_congr rfl fun l _ => hterm l]
  rw [Finset.sum_eq_single (⟨k, by omega⟩ : Fin 128)]
  · rw [if_pos rfl]
  · intro l _ hl
    rw [if_neg (fun e => hl (Fin.ext e))]
  · intro hn; exact absurd (Finset.mem_univ _) hn

/-- One step of the log-probability sum, entry by entry: the carried sum plus, over chunk k's columns, the mask times
    (logit - m) - log (cached exponential * exp (lane k of the history - m) + ns), for any carried m, ns and caches. -/
theorem pay20_apply (hL : Loaded x lab t i Q LQ K LK) (k : ℕ) (hk : k < 16) (h : k < k0_t2_loop.trips)
    (m ns arg9 : FVec Ideal S256x1 .f32) (v31 v33 : Vec Ideal S256x512 .f32) (v37 : Vec Ideal S256x128 .f32) (r : Fin 256) :
    k0_pay20 (F := Ideal) (k0_pay2 LQ) (k0_pay3 i) m ns 0#32 1#32 ⟨k, h⟩ arg9 (LK k) v31 v33 v37 (ix2 r (0 : Fin 1))
      = arg9 (ix2 r (0 : Fin 1)) + ∑ j : Fin 512, Spec.pos lab (row t r) (col k hk j) *
          ((v31 (ix2 r j) - m (ix2 r (0 : Fin 1)))
            - Ideal.log (v33 (ix2 r j) * Ideal.exp (v37 (ix2 r (⟨k, by omega⟩ : Fin 128)) - m (ix2 r (0 : Fin 1)))
                + ns (ix2 r (0 : Fin 1)))) := by
  unfold k0_pay20
  rw [addf_apply, cast_col, rowsum512]
  refine congrArg (arg9 (ix2 r (0 : Fin 1)) + ·) (Finset.sum_congr rfl fun j _ => ?_)
  rw [mulf_apply, mask_apply hL k hk h r j, subf_apply, subf_apply, bcast_col512, log_at, addf_apply, mulf_apply,
    bcast_col512, bcast_col512, exp_at, subf_apply, cast_col]
  rw [lane_pick k hk v37 r]

/-! ## The mathematics: rescaling the cached exponentials, and the columns chunk by chunk -/

/-- For reals, exp (u - v) * exp (v - w) = exp (u - w): the exponential of a sum is the product. -/
theorem exp_rescale (u v w : ℝ) :
    Ideal.exp ((u : EReal) - (v : EReal)) * Ideal.exp ((v : EReal) - (w : EReal)) = Ideal.exp ((u : EReal) - (w : EReal)) := by
  rw [← EReal.coe_sub, ← EReal.coe_sub, ← EReal.coe_sub, Ideal.exp_coe, Ideal.exp_coe, Ideal.exp_coe, ← EReal.coe_mul,
    ← Real.exp_add]
  congr 2; ring

/-- The columns below 512 (k + 1) are the columns below 512 k and the 512 columns of chunk k: a sum over the former is
    the sum over the latter two. -/
theorem chunk_sum (f : Fin 8192 → EReal) (k : ℕ) (hk : k < 16) :
    (∑ b : Fin 8192, if b.val < 512 * (k + 1) then f b else 0)
      = (∑ b : Fin 8192, if b.val < 512 * k then f b else 0) + ∑ j : Fin 512, f (col k hk j) := by
  have hsplit : ∀ b : Fin 8192, (if b.val < 512 * (k + 1) then f b else 0)
      = (if b.val < 512 * k then f b else 0) + (if 512 * k ≤ b.val ∧ b.val < 512 * (k + 1) then f b else 0) := by
    intro b
    by_cases h1 : b.val < 512 * k
    · rw [if_pos (by omega), if_pos h1, if_neg (by omega), add_zero]
    · by_cases h2 : b.val < 512 * (k + 1)
      · rw [if_pos h2, if_neg h1, if_pos ⟨by omega, h2⟩, zero_add]
      · rw [if_neg h2, if_neg h1, if_neg (by omega), add_zero]
  rw [Finset.sum_congr rfl fun b _ => hsplit b, Finset.sum_add_distrib]
  congr 1
  rw [← Finset.sum_filter]
  have hinv : ∀ b ∈ Finset.univ.filter (fun b : Fin 8192 => 512 * k ≤ b.val ∧ b.val < 512 * (k + 1)),
      col k hk (⟨(b.val - 512 * k) % 512, Nat.mod_lt _ (by norm_num)⟩ : Fin 512) = b := by
    intro b hb
    rw [Finset.mem_filter] at hb
    apply Fin.ext
    show 512 * k + (b.val - 512 * k) % 512 = b.val
    omega
  refine Finset.sum_nbij' (fun b => (⟨(b.val - 512 * k) % 512, Nat.mod_lt _ (by norm_num)⟩ : Fin 512))
    (fun j => col k hk j) ?_ ?_ hinv ?_ ?_
  · intro b _; exact Finset.mem_univ _
  · intro j _
    rw [Finset.mem_filter]
    refine ⟨Finset.mem_univ _, ?_⟩
    show 512 * k ≤ 512 * k + j.val ∧ 512 * k + j.val < 512 * (k + 1)
    have := j.isLt; omega
  · intro j _
    apply Fin.ext
    show (512 * k + j.val - 512 * k) % 512 = j.val
    have := j.isLt; omega
  · intro b hb
    exact congrArg f (hinv b hb).symm

/-- Pass 1's final maximum is the spec's row maximum: all 8192 columns have been seen. -/
theorem max_eq (hL : Loaded x lab t i Q LQ K LK) (r : Fin 256) :
    (Model.st1 (F := Ideal) Q LQ K LK 16).1 (ix2 r (0 : Fin 1)) = Spec.rowMax (fE x) (row t r) := by
  rw [st1_max hL 16 le_rfl r, ← μ_full]

/-- Pass 1's final sum is the spec's sum over the negatives: every column is below 8192, and the maximum is the row's. -/
theorem negsum_eq (hL : Loaded x lab t i Q LQ K LK) (r : Fin 256) :
    (Model.st1 (F := Ideal) Q LQ K LK 16).2 (ix2 r (0 : Fin 1)) = Spec.negSum (fE x) lab (row t r) := by
  rw [st1_negsum hL 16 le_rfl r]
  unfold Spec.negSum Spec.expo Spec.shifted
  refine Finset.sum_congr rfl fun b _ => ?_
  rw [if_pos (by have := b.isLt; omega), logit_eq, ← μ_full]

/-- The bracket of pass 2 at entry (r, j) of chunk k is the spec's log-probability of that column: the cached
    exponential exp (logit - maximum after chunk k), times exp (maximum after chunk k - final maximum), is
    exp (logit - final maximum), all three being reals. -/
theorem entry (hL : Loaded x lab t i Q LQ K LK) (H : Vec Ideal S256x128 .f32)
    (hH : ∀ (r : Fin 256) (l : Fin 128), l.val < 16 → H (ix2 r l) = μ x (row t r) (512 * (l.val + 1)))
    (k : ℕ) (hk : k < 16) (r : Fin 256) (j : Fin 512) :
    (Model.logitsC (F := Ideal) Q K k (ix2 r j) - (Model.st1 (F := Ideal) Q LQ K LK 16).1 (ix2 r (0 : Fin 1)))
        - Ideal.log (Model.expC (F := Ideal) Q LQ K LK k (ix2 r j)
              * Ideal.exp (H (ix2 r (⟨k, by omega⟩ : Fin 128)) - (Model.st1 (F := Ideal) Q LQ K LK 16).1 (ix2 r (0 : Fin 1)))
            + (Model.st1 (F := Ideal) Q LQ K LK 16).2 (ix2 r (0 : Fin 1)))
      = Spec.logProb (fE x) lab (row t r) (col k hk j) := by
  rw [logitsC_apply hL k hk r j, expC_apply hL k hk r j, negsum_eq hL r, hH r ⟨k, by omega⟩ hk, st1_max hL 16 le_rfl r]
  show _ - Ideal.log (Ideal.exp (_ - μ x (row t r) (512 * (k + 1))) * Ideal.exp (μ x (row t r) (512 * (k + 1)) - _) + _) = _
  obtain ⟨v, hv⟩ := μ_real (x := x) (row t r) (512 * (k + 1)) (by omega)
  obtain ⟨w, hw⟩ := μ_real (x := x) (row t r) (512 * 16) (by omega)
  rw [hv, hw, exp_rescale, ← hw]
  unfold Spec.logProb Spec.expo Spec.shifted
  rw [logit_eq, ← μ_full]

/-- Pass 2 before chunk k, reading a history whose lane l holds the maximum after chunk l: the carried pair is the sum of
    the positives' log-probabilities, and the positives' count, over the first 512 k columns. By induction on k: both
    are zero before chunk 0, and chunk k adds its 512 columns' terms. -/
theorem st2_apply (hL : Loaded x lab t i Q LQ K LK) (H : Vec Ideal S256x128 .f32)
    (hH : ∀ (r : Fin 256) (l : Fin 128), l.val < 16 → H (ix2 r l) = μ x (row t r) (512 * (l.val + 1)))
    (k : ℕ) (hk : k ≤ 16) (r : Fin 256) :
    (Model.st2 (F := Ideal) i Q LQ K LK H k).1 (ix2 r (0 : Fin 1))
        = ∑ b : Fin 8192, (if b.val < 512 * k then Spec.pos lab (row t r) b * Spec.logProb (fE x) lab (row t r) b else 0)
      ∧ (Model.st2 (F := Ideal) i Q LQ K LK H k).2 (ix2 r (0 : Fin 1))
        = ∑ b : Fin 8192, (if b.val < 512 * k then Spec.pos lab (row t r) b else 0) := by
  induction k with
  | zero =>
    constructor
    · show Ideal.ofBits .f32 0x00000000#32 = _
      rw [Ideal.ofBits_zero_f32]
      exact (Finset.sum_eq_zero fun b _ => if_neg (by omega)).symm
    · show Ideal.ofBits .f32 0x00000000#32 = _
      rw [Ideal.ofBits_zero_f32]
      exact (Finset.sum_eq_zero fun b _ => if_neg (by omega)).symm
  | succ k ih =>
    have hk' : k < 16 := by omega
    have ht : k < k0_t2_loop.trips := by rw [trips2]; exact hk'
    obtain ⟨ih1, ih2⟩ := ih (by omega)
    have hst : Model.st2 (F := Ideal) i Q LQ K LK H (k + 1)
        = (k0_pay20 (k0_pay2 LQ) (k0_pay3 i) (Model.st1 Q LQ K LK 16).1 (Model.st1 Q LQ K LK 16).2 0#32 1#32 ⟨k, ht⟩
              (Model.st2 i Q LQ K LK H k).1 (LK k) (Model.logitsC Q K k) (Model.expC Q LQ K LK k) H,
            k0_pay9 (Model.st2 i Q LQ K LK H k).2 (k0_pay21 (k0_pay2 LQ) (k0_pay3 i) 0#32 1#32 ⟨k, ht⟩ (LK k))) := by
      rw [Model.st2, dif_pos ht]
    rw [hst]
    constructor
    · show k0_pay20 (F := Ideal) (k0_pay2 LQ) (k0_pay3 i) (Model.st1 Q LQ K LK 16).1 (Model.st1 Q LQ K LK 16).2 0#32 1#32 ⟨k, ht⟩
          (Model.st2 i Q LQ K LK H k).1 (LK k) (Model.logitsC Q K k) (Model.expC Q LQ K LK k) H (ix2 r (0 : Fin 1)) = _
      rw [pay20_apply hL k hk' ht, ih1, chunk_sum _ k hk']
      refine congrArg (_ + ·) (Finset.sum_congr rfl fun j _ => ?_)
      rw [entry hL H hH k hk' r j]
    · show k0_pay9 (Model.st2 (F := Ideal) i Q LQ K LK H k).2 (k0_pay21 (k0_pay2 LQ) (k0_pay3 i) 0#32 1#32 ⟨k, ht⟩ (LK k))
          (ix2 r (0 : Fin 1)) = _
      rw [count_step hL k hk' ht, ih2, chunk_sum _ k hk']

/-- The result block from such a history: minus the quotient of the two sums over all 8192 columns, the spec's loss. -/
theorem outOf_apply (hL : Loaded x lab t i Q LQ K LK) (H : Vec Ideal S256x128 .f32)
    (hH : ∀ (r : Fin 256) (l : Fin 128), l.val < 16 → H (ix2 r l) = μ x (row t r) (512 * (l.val + 1))) (r : Fin 256) :
    Model.outOf (F := Ideal) i Q LQ K LK H (ix2 r (0 : Fin 1)) = Spec.loss (fE x) lab (row t r) := by
  obtain ⟨h1, h2⟩ := st2_apply hL H hH 16 le_rfl r
  unfold Model.outOf k0_pay10
  have e1 : (∑ b : Fin 8192, if b.val < 512 * 16 then Spec.pos lab (row t r) b * Spec.logProb (fE x) lab (row t r) b else 0)
      = Spec.num (fE x) lab (row t r) :=
    Finset.sum_congr rfl fun b _ => if_pos (by have := b.isLt; omega)
  have e2 : (∑ b : Fin 8192, if b.val < 512 * 16 then Spec.pos lab (row t r) b else 0) = Spec.den lab (row t r) :=
    Finset.sum_congr rfl fun b _ => if_pos (by have := b.isLt; omega)
  rw [mulf_apply, broadcast_apply, divf_apply, h1, h2, e1, e2]
  rfl

end Pass2

/-- The result block's entry r is the loss of row r of tile t. -/
theorem out_apply (hL : Loaded x lab t i Q LQ K LK) (r : Fin 256) :
    Model.out (F := Ideal) i Q LQ K LK (ix2 r (0 : Fin 1)) = Spec.loss (fE x) lab (row t r) := by
  unfold Model.out
  refine Pass2.outOf_apply hL _ (fun r l hl => ?_) r
  rw [hist_apply hL _ 16 le_rfl r l, if_pos hl]

end Cert.KernelIdeal.ModelIdeal

end
-- ==== Proof.KernelLoads.lean ====
/-
  What the body loads at grid point t, at the ideal instance, in terms of the argument arrays: the host operations before
  the region reshape the features to 8192 rows of 256 (the change of float format is the identity on extended reals) and
  the labels to a column and to a row; window blocks and the body's rectangles then pick rows 256 t .. 256 t + 255 for the
  queries and their labels, and rows 512 k .. 512 k + 511 for chunk k of the keys and their labels.
-/
import proofs.«406646_j46145128629053_3_alg».proof.Proof.Run
import proofs.«406646_j46145128629053_3_alg».proof.Proof.ModelIdeal1

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx

/-- The grid's point t as a tile number. -/
def tileOf (t : Fin cfg0.N) : Fin 32 := ⟨t.val, by have h := t.isLt; have : cfg0.N = 32 := N_0; omega⟩

/-! ## The arrays as the region finds them -/

section Arrays
variable (m : (ℓ : Loc nD τ sig) → Buf (Elt Ideal) ℓ) (c : Dev nD)

/-- The feature rows the region finds: the feature array reshaped to 8192 rows of 256, then brought to the narrower float format. -/
theorem feat_arr : (V m c main_v1 : S8192x256.Idx → EReal)
    = (truncf (F := Ideal) .bf16 (shapeCast S8192x256 (m ((c.tc : Thread nD τ).loc main_arg0) : S8192x1x256.Idx → EReal) shapeCasts_S8192x1x256_S8192x256) bitsLt_bf16_f32 : S8192x256.Idx → EReal) := by
  show StableHlo.after hostOps0 (fun b => m (c, b)) (Proc.devRef .tc main_v1) = _
  after_results
  rfl

/-- The label column the region finds: the label array reshaped to 8192 rows of one entry. -/
theorem labcol_arr : (V m c main_v2 : S8192x1.Idx → BitVec 32)
    = shapeCast S8192x1 (m ((c.tc : Thread nD τ).loc main_arg1) : S8192.Idx → BitVec 32) shapeCasts_S8192_S8192x1 := by
  show StableHlo.after hostOps0 (fun b => m (c, b)) (Proc.devRef .tc main_v2) = _
  after_results
  rfl

/-- The label row the region finds: the label array reshaped to one row of 8192 entries. -/
theorem labrow_arr : (V m c main_v3 : S1x8192.Idx → BitVec 32)
    = shapeCast S1x8192 (m ((c.tc : Thread nD τ).loc main_arg1) : S8192.Idx → BitVec 32) shapeCasts_S8192_S1x8192 := by
  show StableHlo.after hostOps0 (fun b => m (c, b)) (Proc.devRef .tc main_v3) = _
  after_results
  rfl

end Arrays

/-! ## The reshaped arrays read at an index -/

/-- Row a, entry d of the reshaped features is entry (a, 0, d) of the feature array; the change of float format is the
    identity on extended reals. -/
theorem feat_apply (X0 : S8192x1x256.Idx → EReal) (a : Fin 8192) (d : Fin 256) :
    (truncf (F := Ideal) .bf16 (shapeCast S8192x256 X0 shapeCasts_S8192x1x256_S8192x256) bitsLt_bf16_f32 : S8192x256.Idx → EReal) (ix2 a d)
      = Spec.rowsOf X0 a d := by
  rw [truncf_apply]
  refine shapeCast_apply X0 shapeCasts_S8192x1x256_S8192x256 (ix2 a d) (ix3 a (0 : Fin 1) d) ?_
  rw [Shape.rowMajor_val_three, Shape.rowMajor_val_two]
  show (a.val * 1 + 0) * 256 + d.val = a.val * 256 + d.val
  omega

/-- Row a of the label column is entry a of the label array. -/
theorem labcol_apply (X1 : S8192.Idx → BitVec 32) (a : Fin 8192) :
    shapeCast S8192x1 X1 shapeCasts_S8192_S8192x1 (ix2 a (0 : Fin 1)) = Spec.labelsOf X1 a := by
  refine shapeCast_apply X1 shapeCasts_S8192_S8192x1 (ix2 a (0 : Fin 1)) (ix1 a) ?_
  rw [Shape.rowMajor_val_one, Shape.rowMajor_val_two]
  show a.val = a.val * 1 + 0
  omega

/-- Column a of the label row is entry a of the label array. -/
theorem labrow_apply (X1 : S8192.Idx → BitVec 32) (a : Fin 8192) :
    shapeCast S1x8192 X1 shapeCasts_S8192_S1x8192 (ix2 (0 : Fin 1) a) = Spec.labelsOf X1 a := by
  refine shapeCast_apply X1 shapeCasts_S8192_S1x8192 (ix2 (0 : Fin 1) a) (ix1 a) ?_
  rw [Shape.rowMajor_val_one, Shape.rowMajor_val_two]
  show a.val = 0 * 8192 + a.val
  omega

/-! ## The windows' blocks -/

/-- The block indices over the grid: the feature window and the label row's window are the whole array at every point,
    the label column's window is row block t; and the one grid coordinate of point t is t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ (grid0.coords t 0).val = t.val :=
  (by decide +kernel : ∀ t : Fin grid0.N, _)

section Blocks
variable (m : (ℓ : Loc nD τ sig) → Buf (Elt Ideal) ℓ) (c : Dev nD) (t : Fin cfg0.N)

/-- The feature window's block at any point is the whole array of feature rows. -/
theorem blk0_eq : (iblk m c 0 t : S8192x256.Idx → EReal) = V m c main_v1 := by
  obtain ⟨h0, h1, -⟩ := idx_facts t
  funext y
  show V m c main_v1 (((cfg0.win 0).blk t).view.emb y) = V m c main_v1 y
  refine congrArg (V m c main_v1) (funext fun a => Fin.ext ?_)
  match a with
  | ⟨0, _⟩ => show win0_0.index t (0 : Fin 2) * 8192 + 1 * (y 0).val = (y 0).val; omega
  | ⟨1, _⟩ => show win0_0.index t (1 : Fin 2) * 256 + 1 * (y 1).val = (y 1).val; omega

/-- The label row's window's block at any point is the whole label row. -/
theorem blk2_eq : (iblk m c 2 t : S1x8192.Idx → BitVec 32) = V m c main_v3 := by
  obtain ⟨-, -, -, -, h0, h1, -⟩ := idx_facts t
  funext y
  show V m c main_v3 (((cfg0.win 2).blk t).view.emb y) = V m c main_v3 y
  refine congrArg (V m c main_v3) (funext fun a => Fin.ext ?_)
  match a with
  | ⟨0, _⟩ => show win0_2.index t (0 : Fin 2) * 1 + 1 * (y 0).val = (y 0).val; omega
  | ⟨1, _⟩ => show win0_2.index t (1 : Fin 2) * 8192 + 1 * (y 1).val = (y 1).val; omega

/-- The label column's window's block at point t: rows 256 t .. 256 t + 255 of the label column. -/
theorem blk1_apply (r : Fin 256) (a : Fin 8192) (ha : a.val = 256 * t.val + r.val) :
    (iblk m c 1 t : S256x1.Idx → BitVec 32) (ix2 r (0 : Fin 1)) = V m c main_v2 (ix2 a (0 : Fin 1)) := by
  obtain ⟨-, -, h0, h1, -⟩ := idx_facts t
  show V m c main_v2 (((cfg0.win 1).blk t).view.emb (ix2 r (0 : Fin 1))) = V m c main_v2 (ix2 a (0 : Fin 1))
  refine congrArg (V m c main_v2) (funext fun ax => Fin.ext ?_)
  match ax with
  | ⟨0, _⟩ => show win0_1.index t (0 : Fin 2) * 256 + 1 * r.val = a.val; omega
  | ⟨1, _⟩ => show win0_1.index t (1 : Fin 2) * 1 + 1 * 0 = 0; omega

end Blocks

/-! ## The body's loads read at an index -/

/-- The query rows at grid coordinates i: row r is row 256 i + r of the resident feature block. -/
theorem ldQ_apply (i : grid0.Coords) (x0 : Vec Ideal S8192x256 .bf16) (r d : Fin 256) (a : Fin 8192)
    (ha : a.val = 256 * (i 0).val + r.val) : Body.ldQ i x0 (ix2 r d) = x0 (ix2 a d) := by
  unfold Body.ldQ
  show x0 ((Rect.unit (s := S8192x256) (k0_off1 i) S256x256.size (k0_off1_inb i)).idx (ix2 r d)) = x0 (ix2 a d)
  refine congrArg x0 (funext fun ax => Fin.ext ?_)
  rw [LoadRect.idx_apply]
  show k0_off1 i ax + 1 * ((ix2 r d) ax).val = ((ix2 a d) ax).val
  rw [k0_off1_eq]
  match ax with
  | ⟨0, _⟩ => show 256 * (i 0).val + 1 * r.val = a.val; omega
  | ⟨1, _⟩ => show 0 + 1 * d.val = d.val; omega

/-- The query labels: the whole label block. -/
theorem ldLQ_apply (x1 : Vec Ideal S256x1 .i32) (r : Fin 256) :
    Body.ldLQ x1 (ix2 r (0 : Fin 1)) = x1 (ix2 r (0 : Fin 1)) := by
  unfold Body.ldLQ
  show x1 ((Rect.unit (s := S256x1) ![0, 0] S256x1.size inb_S256x1_S256x1_0_0).idx (ix2 r (0 : Fin 1))) = x1 (ix2 r (0 : Fin 1))
  refine congrArg x1 (funext fun ax => Fin.ext ?_)
  rw [LoadRect.idx_apply]
  match ax with
  | ⟨0, _⟩ => show 0 + 1 * r.val = r.val; omega
  | ⟨1, _⟩ => show 0 + 1 * 0 = 0; omega

/-- Chunk k of the key rows: row j is row 512 k + j of the resident feature block. -/
theorem ldK_apply (x0 : Vec Ideal S8192x256 .bf16) (k : ℕ) (hk : k < 16) (j : Fin 512) (d : Fin 256) (a : Fin 8192)
    (ha : a.val = 512 * k + j.val) : Body.ldK x0 k (ix2 j d) = x0 (ix2 a d) := by
  have hm : k % k0_t1_loop.trips = k := Nat.mod_eq_of_lt (by rw [Body.trips1_eq]; exact hk)
  unfold Body.ldK
  show x0 ((Rect.unit (s := S8192x256) (k0_off2 ⟨k % k0_t1_loop.trips, Nat.mod_lt _ Body.trips1_pos⟩) S512x256.size (k0_off2_inb _)).idx (ix2 j d)) = x0 (ix2 a d)
  refine congrArg x0 (funext fun ax => Fin.ext ?_)
  rw [LoadRect.idx_apply]
  show k0_off2 ⟨k % k0_t1_loop.trips, Nat.mod_lt _ Body.trips1_pos⟩ ax + 1 * ((ix2 j d) ax).val = ((ix2 a d) ax).val
  rw [k0_off2_eq]
  match ax with
  | ⟨0, _⟩ => show 512 * (k % k0_t1_loop.trips) + 1 * j.val = a.val; rw [hm]; omega
  | ⟨1, _⟩ => show 0 + 1 * d.val = d.val; omega

/-- Chunk k of the key labels: column j is column 512 k + j of the resident label row. -/
theorem ldLK_apply (x2 : Vec Ideal S1x8192 .i32) (k : ℕ) (hk : k < 16) (j : Fin 512) (a : Fin 8192)
    (ha : a.val = 512 * k + j.val) : Body.ldLK x2 k (ix2 (0 : Fin 1) j) = x2 (ix2 (0 : Fin 1) a) := by
  have hm : k % k0_t1_loop.trips = k := Nat.mod_eq_of_lt (by rw [Body.trips1_eq]; exact hk)
  unfold Body.ldLK
  show x2 ((Rect.unit (s := S1x8192) (k0_off3 ⟨k % k0_t1_loop.trips, Nat.mod_lt _ Body.trips1_pos⟩) S1x512.size (k0_off3_inb _)).idx (ix2 (0 : Fin 1) j)) = x2 (ix2 (0 : Fin 1) a)
  refine congrArg x2 (funext fun ax => Fin.ext ?_)
  rw [LoadRect.idx_apply]
  show k0_off3 ⟨k % k0_t1_loop.trips, Nat.mod_lt _ Body.trips1_pos⟩ ax + 1 * ((ix2 (0 : Fin 1) j) ax).val = ((ix2 (0 : Fin 1) a) ax).val
  rw [k0_off3_eq]
  match ax with
  | ⟨0, _⟩ => show 0 + 1 * 0 = 0; omega
  | ⟨1, _⟩ => show 512 * (k % k0_t1_loop.trips) + 1 * j.val = a.val; rw [hm]; omega

/-- The body's loads at point t are the feature rows and labels of the argument arrays. -/
theorem loaded (m : (ℓ : Loc nD τ sig) → Buf (Elt Ideal) ℓ) (c : Dev nD) (t : Fin cfg0.N)
    (x : Fin 8192 → Fin 256 → ℝ)
    (hx : Spec.rowsOf (m ((c.tc : Thread nD τ).loc main_arg0)) = fun a d => ((x a d : ℝ) : EReal)) :
    ModelIdeal.Loaded x (Spec.labelsOf (m ((c.tc : Thread nD τ).loc main_arg1))) (tileOf t) (grid0.coords t)
      (Body.ldQ (grid0.coords t) (iblk m c 0 t)) (Body.ldLQ (iblk m c 1 t)) (Body.ldK (iblk m c 0 t)) (Body.ldLK (iblk m c 2 t)) := by
  obtain ⟨-, -, -, -, -, -, hco⟩ := idx_facts t
  refine ⟨hco, fun r d => ?_, fun r => ?_, fun k hk j d => ?_, fun k hk j => ?_⟩
  · refine (ldQ_apply (grid0.coords t) (iblk m c 0 t) r d (ModelIdeal.row (tileOf t) r) ?_).trans ?_
    · show 256 * t.val + r.val = 256 * (grid0.coords t 0).val + r.val
      rw [hco]
    · refine (congrFun (blk0_eq m c t) _).trans ?_
      refine (congrFun (feat_arr m c) _).trans ?_
      refine (feat_apply _ _ _).trans ?_
      exact congrFun (congrFun hx _) _
  · refine (ldLQ_apply (iblk m c 1 t) r).trans ?_
    refine (blk1_apply m c t r (ModelIdeal.row (tileOf t) r) rfl).trans ?_
    refine (congrFun (labcol_arr m c) _).trans ?_
    exact labcol_apply _ _
  · refine (ldK_apply (iblk m c 0 t) k hk j d (ModelIdeal.col k hk j) rfl).trans ?_
    refine (congrFun (blk0_eq m c t) _).trans ?_
    refine (congrFun (feat_arr m c) _).trans ?_
    refine (feat_apply _ _ _).trans ?_
    exact congrFun (congrFun hx _) _
  · refine (ldLK_apply (iblk m c 2 t) k hk j (ModelIdeal.col k hk j) rfl).trans ?_
    refine (congrFun (blk2_eq m c t) _).trans ?_
    refine (congrFun (labrow_arr m c) _).trans ?_
    exact labrow_apply _ _

end Cert.KernelIdeal.KernelValue

end
-- ==== Proof.KernelTail.lean ====
/-
  The host operations after the region, at the ideal instance: the sum of the 8192 entries of the result column from
  zero, divided by the word of 8192.0.
-/
import proofs.«406646_j46145128629053_3_alg».proof.Proof.Gen.KernelIdeal.Launch
import proofs.«406646_j46145128629053_3_alg».proof.Proof.Spec
import Idealize.ShloMosaic.PureOps.Ideal.Laws
import Idealize.ShloMosaic.Lib.ValueIdx

noncomputable section

open scoped BigOperators

namespace Cert.KernelIdeal.KernelValue

open Cert.KernelIdeal Cert.KernelIdeal.Gen
open Idealize.ShloMosaic Idealize.ShloMosaic.ValueIdx

/-- The host's sum over both axes of a column whose entry a is L a, from the zero constant, divided by the constant of
    the word 0x46000000, is the quotient of the sum of L by that word, at the one index of the scalar result. -/
theorem tail_value (G : (⟨S8192x1, .f32⟩ : BufTy).Contents (Elt Ideal)) (L : Fin 8192 → EReal)
    (hG : ∀ a : Fin 8192, G (ix2 a (0 : Fin 1)) = L a) :
    (Host.divf (F := Ideal) (Host.reduceAdd (F := Ideal) G (constant (F := Ideal) S_ .f32 0x00000000#32) reducesTo_S8192x1_S_d0_1 h_S_)
        (constant (F := Ideal) S_ .f32 0x46000000#32) : (⟨S_, .f32⟩ : BufTy).Contents (Elt Ideal))
      = fun _ => Ideal.div (∑ a : Fin 8192, L a) (Ideal.ofBits .f32 0x46000000#32) := by
  funext j
  -- at the one index: the quotient of the host's sum, from the zero word, by the divisor's word
  show Ideal.div (Ideal.hostReduceAdd reducesTo_S8192x1_S_d0_1 G (Ideal.ofBits .f32 0x00000000#32) j)
      (Ideal.ofBits .f32 0x46000000#32) = _
  -- a sum into a scalar is the initial value, here 0, plus the sum over every index of the column
  rw [Ideal.hostReduceAdd_total reducesTo_S8192x1_S_d0_1 (fun b => b.elim0) G _ j, Ideal.ofBits_zero_f32, zero_add]
  -- the column's indices are the pairs (a, 0): the sum over them is the sum over a of the one term at (a, 0)
  rw [sum_idx2]
  congr 1
  refine Finset.sum_congr rfl fun a _ => ?_
  rw [Fin.sum_univ_one]
  exact hG a

end Cert.KernelIdeal.KernelValue

end
-- ==== Proof.KernelValue.lean ====
/-
  The idealized kernel's result. The program's run leaves the result array at what the thirty-two write-backs left: block
  t of it is the block the body computed at point t, whose entry r is the loss of row 256 t + r (the body's loads are the
  feature rows and labels of the argument arrays: the host operations before the region only reshape them, and the change
  of float format is the identity on extended reals). The host operations after the region sum the 8192 entries and divide
  by 8192: the spec's result.
-/
import proofs.«406646_j46145128629053_3_alg».proof.Defs
import proofs.«406646_j46145128629053_3_alg».proof.Proof.Run
import proofs.«406646_j46145128629053_3_alg».proof.Proof.ModelIdeal2
import proofs.«406646_j46145128629053_3_alg».proof.Proof.KernelLoads
import proofs.«406646_j46145128629053_3_alg».proof.Proof.KernelTail

set_option maxRecDepth 16384

noncomputable section

open scoped BigOperators

namespace Cert.KernelIdeal.KernelValue

open Cert.KernelIdeal Cert.KernelIdeal.Gen
open Idealize.ShloMosaic Idealize.ShloMosaic.TcCoe Idealize.SL.Sem Idealize.ShloMosaic.ValueIdx

/-! ## The result array after the region

What each grid point writes back is its block of one column, the losses of the rows; the thirty-two blocks tile the
array, so the array ends at that column. -/

section Array

variable (m : (ℓ : Loc nD τ sig) → Buf (Elt Ideal) ℓ)

/-- The zero offsets of the result block's one store, as the constant function. -/
theorem hz : (![0, 0] : Fin 2 → Nat) = fun _ => 0 := funext fun a => by fin_cases a <;> rfl

/-- The result column as one function of the features x and the labels: entry (a, 0) is the loss of row a. -/
def lossCol (x : Fin 8192 → Fin 256 → ℝ) (lab : Fin 8192 → BitVec 32) : (⟨S8192x1, .f32⟩ : BufTy).Contents (Elt Ideal) :=
  fun j => Spec.loss (ModelIdeal.fE x) lab (j 0)

/-- The result window's block index at point t is (t, 0). -/
theorem out_idx_facts : ∀ t : Fin cfg0.N, win0_3.index t (0 : Fin 2) = t.val ∧ win0_3.index t (1 : Fin 2) = 0 :=
  (by decide +kernel : ∀ t : Fin grid0.N, _)

/-- What point t writes back is block t of the loss column: entry r of the block the body leaves is the loss of row
    256 t + r, and block t of the column starts at row 256 t. -/
theorem flushed_eq (c : Dev nD) (t : Fin cfg0.N) (x : Fin 8192 → Fin 256 → ℝ)
    (hx : Spec.rowsOf (m ((c.tc : Thread nD τ).loc main_arg0)) = fun a d => ((x a d : ℝ) : EReal)) :
    (Body.dats m 0 c).flushed 3 t
      = ((cfg0.win 3).blk t).view.read (Elt Ideal) (lossCol x (Spec.labelsOf (m ((c.tc : Thread nD τ).loc main_arg1)))) := by
  show (cfg0.win 3).cut (grid0.coords t) ((Body.dats m 0 c).after 3 t) = _
  rw [Body.after0_3]
  unfold Body.outBlock
  rw [View.canon_unit_zero hz]
  funext j
  have hL := loaded m c t x hx
  obtain ⟨e0, e1⟩ := out_idx_facts t
  have hj : j = ix2 (j 0) (0 : Fin 1) := by
    funext a
    match a with
    | ⟨0, _⟩ => rfl
    | ⟨1, _⟩ => exact Fin.ext (by have h : (j 1).val < 1 := (j 1).isLt; show (j 1).val = 0; omega)
  have h1 := (congrArg (Model.out (F := Ideal) (grid0.coords t) (Body.ldQ (grid0.coords t) (iblk m c 0 t)) (Body.ldLQ (iblk m c 1 t))
    (Body.ldK (iblk m c 0 t)) (Body.ldLK (iblk m c 2 t))) hj).trans (ModelIdeal.out_apply hL (j 0))
  refine Eq.trans (b := Spec.loss (ModelIdeal.fE x) (Spec.labelsOf (m ((c.tc : Thread nD τ).loc main_arg1))) (ModelIdeal.row (tileOf t) (j 0))) h1 ?_
  show Spec.loss _ _ (ModelIdeal.row (tileOf t) (j 0)) = Spec.loss _ _ ((((cfg0.win 3).blk t).view.emb j) 0)
  refine congrArg _ (Fin.ext ?_)
  show 256 * t.val + (j 0).val = win0_3.index t (0 : Fin 2) * 256 + 1 * (j 0).val
  omega

/-- An index of the result array is in point t's block iff each coordinate is in the block's range on its axis. -/
theorem mem_blk (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v4).slice (win0_3.rect t)).set ↔ _
  rw [View.set_slice_whole, Rect.mem_set_unit]
  exact Iff.rfl

/-- Every row of the result array is in the block of the point its row number over 256 names, which is written back. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 32 := N_0
  refine ⟨⟨(i 0).val / 256, by rw [hN]; omega⟩, flush0_3 _, ?_⟩
  rw [mem_blk]
  obtain ⟨e0, e1⟩ := out_idx_facts ⟨(i 0).val / 256, by rw [hN]; omega⟩
  intro a
  match a with
  | ⟨0, _⟩ =>
    show win0_3.index ⟨(i 0).val / 256, _⟩ (0 : Fin 2) * 256 ≤ (i 0).val ∧ (i 0).val < win0_3.index ⟨(i 0).val / 256, _⟩ (0 : Fin 2) * 256 + 256
    rw [e0]
    show (i 0).val / 256 * 256 ≤ (i 0).val ∧ (i 0).val < (i 0).val / 256 * 256 + 256
    omega
  | ⟨1, _⟩ =>
    show win0_3.index ⟨(i 0).val / 256, _⟩ (1 : Fin 2) * 1 ≤ (i 1).val ∧ (i 1).val < win0_3.index ⟨(i 0).val / 256, _⟩ (1 : Fin 2) * 1 + 1
    rw [e1]
    omega

/-- The result array after the run is the loss column. -/
theorem final (c : Dev nD) (x : Fin 8192 → Fin 256 → ℝ)
    (hx : Spec.rowsOf (m ((c.tc : Thread nD τ).loc main_arg0)) = fun a d => ((x a d : ℝ) : EReal)) :
    (Body.dats m 0 c).arrAt 3 cfg0.N = lossCol x (Spec.labelsOf (m ((c.tc : Thread nD τ).loc main_arg1))) :=
  (Body.dats m 0 c).arrAt_eq_of_cover 3 _ (fun t _ => flushed_eq m c t x hx) cover

/-! ## The host operations after the region -/

/-- The result buffer after the host operations that follow the region: they sum the loss column from zero and divide
    by the word of 8192.0, which is the spec's mean of the rows' losses. -/
theorem tail_eq (c : Dev nD) (x : Fin 8192 → Fin 256 → ℝ)
    (hx : Spec.rowsOf (m ((c.tc : Thread nD τ).loc main_arg0)) = fun a d => ((x a d : ℝ) : EReal)) :
    Pipeline.afterTail₀ cfgs (Body.dats m) 0 (V0 m) [hostOps1] c main_v6
      = fun _ => Spec.result (Spec.rowsOf (m ((c.tc : Thread nD τ).loc main_arg0))) (Spec.labelsOf (m ((c.tc : Thread nD τ).loc main_arg1))) := by
  unfold Pipeline.afterTail₀
  show StableHlo.after hostOps1 _ (Proc.devRef .tc main_v6) = _
  after_results
  have hA : Pipeline.withArrays (cfgs 0).spec c (V0 m c) (fun w => (Body.dats m 0 c).arrAt w (cfgs 0).N) (Proc.devRef .tc main_v4)
      = lossCol x (Spec.labelsOf (m ((c.tc : Thread nD τ).loc main_arg1))) :=
    (Pipeline.withArrays_arr spec0 launch0.win.arr_inj c _ _ 3).trans (final m c x hx)
  rw [hA, tail_value _ (fun a => Spec.loss (ModelIdeal.fE x) (Spec.labelsOf (m ((c.tc : Thread nD τ).loc main_arg1))) a) (fun a => rfl), hx]
  rfl

end Array

/-! ## The run -/
/-- With real feature entries, the idealized kernel runs to the end with its result at the spec's loss of its arguments,
    the arguments unchanged. -/
theorem kernel_run (m : (ℓ : Loc nD τ sig) → Buf (Elt Ideal) ℓ) (ρ : Dev nD → PrngReg)
    (hx : ∀ c : Dev nD, ∃ x : Fin 8192 → Fin 256 → ℝ,
      Spec.rowsOf (m ((c.tc : Thread nD τ).loc main_arg0)) = fun a d => ((x a d : ℝ) : EReal)) :
    θ_run (defs (F := Ideal)) (onTc (τ := τ) (main (F := Ideal))) ⟨m, fun _ => 0, ρ⟩ fun r => ∀ c : Dev nD,
      r.2.mem ((c.tc : Thread nD τ).loc main_v6)
        = (fun _ => Spec.result (Spec.rowsOf (m ((c.tc : Thread nD τ).loc main_arg0))) (Spec.labelsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun r h c => ?_) (Body.run_main (F := Ideal) m ρ)
  obtain ⟨x, hxc⟩ := hx c
  exact ⟨((h c).2 main_v6 (Pipeline.mem_restRefs_of main_v6 (by decide) (by decide))).trans (tail_eq m c x hxc),
    ((h c).2 main_arg0 (Pipeline.mem_restRefs_of main_arg0 (by decide) (by decide))).trans (W_main_arg0 m (Body.dats m) c),
    ((h c).2 main_arg1 (Pipeline.mem_restRefs_of main_arg1 (by decide) (by decide))).trans (W_main_arg1 m (Body.dats m) c)⟩

end Cert.KernelIdeal.KernelValue

end
-- ==== Proof.RefValue.lean ====
/-
  The reference program's result, read index by index at the ideal instance, is the contrastive loss
  Cert.Spec.result of the feature rows and the labels.
-/
import proofs.«406646_j46145128629053_3_alg».proof.Defs
import proofs.«406646_j46145128629053_3_alg».proof.Proof.Gen.ReferenceIdeal.Run
import proofs.«406646_j46145128629053_3_alg».proof.Proof.Gen.ReferenceIdeal.Read
import proofs.«406646_j46145128629053_3_alg».proof.Proof.Gen.Pre_finite_inputs
import proofs.«406646_j46145128629053_3_alg».proof.Proof.Spec
import Idealize.ShloMosaic.Lib.IdealHost
import Idealize.ShloMosaic.Lib.ValueIdxRank1

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Gen
open Cert.ReferenceIdeal.Read

/-! ## The constants

The two words whose values the stages need as numbers: the temperature and minus infinity. The words of 1.0 and 0.0 are
read by the library's laws; the words of -1.0 and 8192.0 stay as they are, as the spec has them. -/

/-- The word of the temperature is the dyadic rational 9395241 / 2^27, the binary32 value nearest 0.07. -/
theorem ofBits_temp : Ideal.ofBits .f32 0x3D8F5C29#32 = ((9395241 / 134217728 : ℝ) : EReal) := by
  simp [Ideal.ofBits, Ideal.ieee, -EReal.coe_mul]; norm_num

/-- The word of minus infinity is the bottom of the extended reals. -/
theorem ofBits_neg_inf : Ideal.ofBits .f32 0xFF800000#32 = ⊥ := by
  simp [Ideal.ofBits, Ideal.ieee]

/-! ## The stages, each read at explicit coordinates

Every stage of the reference is read at row i and column j (or at row i) and named by the spec's function of the feature
rows and the labels: the rows, their inner products, the logit, the row maximum, the shifted logit, the label mask and
its complement, the off-diagonal mask, the positives' mask, exp of the shifted logit, the negatives' sum, the
log-probability, the row's numerator and denominator, the row's loss, the sum of the losses and their mean. A layout
operation moves entries without changing them, so its stage is the earlier one at the index the coordinates give. -/

section Stages

variable (x0 : (⟨S8192x1x256, .f32⟩ : BufTy).Contents (Elt Ideal)) (x1 : (⟨S8192, .i32⟩ : BufTy).Contents (Elt Ideal))

/-- The features laid out as rows: entry d of row a is the argument at (a, 0, d). -/
theorem rows_at (a : Fin 8192) (d : Fin 256) : val_main_v1 (F := Ideal) x0 (ix2 a d) = Spec.rowsOf x0 a d := by
  rw [val_main_v1_apply, val_main_v0_apply]
  refine congrArg x0 (funext fun c => Fin.ext ?_)
  match c with
  | ⟨0, _⟩ => show (a.val * 256 + d.val) / 256 % 8192 = a.val; omega
  | ⟨1, _⟩ => rfl
  | ⟨2, _⟩ => show (a.val * 256 + d.val) % 256 = d.val; omega

/-- The transposed rows: entry (d, a) is entry d of row a. -/
theorem rowsT_at (d : Fin 256) (a : Fin 8192) : val_main_v13 (F := Ideal) x0 (ix2 d a) = Spec.rowsOf x0 a d := by
  rw [val_main_v13_apply, ← rows_at]
  refine congrArg _ (funext fun c => Fin.ext ?_)
  match c with
  | ⟨0, _⟩ => rfl
  | ⟨1, _⟩ => rfl

/-- The product of the rows with their transpose is the inner product of rows i and j. -/
theorem sim_at (i j : Fin 8192) : val_main_v14 (F := Ideal) x0 (ix2 i j) = Spec.sim (Spec.rowsOf x0) i j := by
  rw [val_main_v14_apply]
  unfold Spec.sim
  refine Finset.sum_congr rfl fun k _ => ?_
  rw [← rows_at x0 i k, ← rowsT_at x0 k j]
  refine congrArg₂ (fun u v => val_main_v1 (F := Ideal) x0 u * val_main_v13 (F := Ideal) x0 v) (funext fun c => Fin.ext ?_) (funext fun c => Fin.ext ?_)
  · match c with
    | ⟨0, _⟩ => rfl
    | ⟨1, _⟩ => rfl
  · match c with
    | ⟨0, _⟩ => rfl
    | ⟨1, _⟩ => rfl

/-- Dividing by the temperature's word is multiplying by its reciprocal 2^27 / 9395241: the logit. -/
theorem logit_at (i j : Fin 8192) : val_main_v16 (F := Ideal) x0 (ix2 i j) = Spec.logit (Spec.rowsOf x0) i j := by
  rw [val_main_v16_apply, val_main_v15_apply, val_main_cst_0_apply, sim_at]
  simp only [Ideal.hostDivf_def, Ideal.ofBits_def]
  rw [ofBits_temp, Ideal.div_coe (by norm_num : (9395241 / 134217728 : ℝ) ≠ 0)]
  unfold Spec.logit Spec.invTemp
  refine congrArg (fun r : ℝ => Spec.sim (Spec.rowsOf x0) i j * (r : EReal)) ?_
  norm_num

/-- A fold of the binary maximum from the bottom element is the supremum of the family. -/
theorem fold_max_bot_eq_sup {ι : Type} (s : Finset ι) (g : ι → EReal) : s.fold max ⊥ g = s.sup g := by
  refine le_antisymm ?_ (Finset.sup_le fun k hk => ?_)
  · exact (Finset.fold_max_le _).mpr ⟨bot_le, fun k hk => Finset.le_sup hk⟩
  · exact (Finset.le_fold_max _).mpr (Or.inr ⟨k, hk, le_rfl⟩)

/-- Reducing the square array over its second axis leaves the rows. -/
theorem reduces_cols : S8192x8192.Reduces [1] S8192 := by decide

/-- Row index i with column k put back on the reduced axis is the pair (i, k). -/
theorem lift_row (i : Fin 8192) (k : Fin 8192) : reduces_cols.lift (ix1 i) k = ix2 i k := by
  funext c; apply Fin.ext
  match c with
  | ⟨0, _⟩ => rfl
  | ⟨1, _⟩ => rfl

/-- The row maximum: the reduction with the binary maximum from minus infinity over the columns is the supremum of
    the row's logits. -/
theorem rowMax_at (i : Fin 8192) : val_main_v17 (F := Ideal) x0 (ix1 i) = Spec.rowMax (Spec.rowsOf x0) i := by
  unfold val_main_v17
  rw [Host.reduce_eq_fold_single FloatOps.maximumf _ _ reducesTo_S8192x8192_S8192_d1 reduces_cols h_S_]
  have hf : (val_main_v16 (F := Ideal) x0 ∘ reduces_cols.lift (ix1 i)) = fun k : Fin 8192 => Spec.logit (Spec.rowsOf x0) i k :=
    funext fun k : Fin 8192 => by
      show val_main_v16 (F := Ideal) x0 (reduces_cols.lift (ix1 i) k) = _
      rw [lift_row, logit_at]
  have hi : val_main_cst_1 (F := Ideal) (Shape.Idx.first h_S_) = (⊥ : EReal) := by
    rw [val_main_cst_1_apply]; exact ofBits_neg_inf
  rw [hf, hi]
  exact fold_max_bot_eq_sup Finset.univ _

/-- The logit less its row's maximum. -/
theorem shifted_at (i j : Fin 8192) : val_main_v20 (F := Ideal) x0 (ix2 i j) = Spec.shifted (Spec.rowsOf x0) i j := by
  rw [val_main_v20_apply, val_main_v19_apply, val_main_v18_apply, logit_at]
  unfold Spec.shifted
  rw [← rowMax_at x0 i]
  refine congrArg (fun u => FloatOps.subf (F := Ideal) (φ := .f32) (Spec.logit (Spec.rowsOf x0) i j) (val_main_v17 (F := Ideal) x0 u)) (funext fun c => Fin.ext ?_)
  match c with
  | ⟨0, _⟩ => rfl

/-- The labels broadcast along the rows: entry (i, j) is row i's label. -/
theorem labelRow_at (i j : Fin 8192) : val_main_v4 (F := Ideal) x1 (ix2 i j) = Spec.labelsOf x1 i := by
  rw [val_main_v4_apply, val_main_v2_apply]
  refine congrArg x1 (funext fun c => Fin.ext ?_)
  match c with
  | ⟨0, _⟩ => rfl

/-- The labels broadcast along the columns: entry (i, j) is row j's label. -/
theorem labelCol_at (i j : Fin 8192) : val_main_v5 (F := Ideal) x1 (ix2 i j) = Spec.labelsOf x1 j := by
  rw [val_main_v5_apply, val_main_v3_apply]
  refine congrArg x1 (funext fun c => Fin.ext ?_)
  match c with
  | ⟨0, _⟩ => rfl

/-- A one-bit word read as a number is 1 when the bit is set and 0 when it is not. -/
theorem uitofp_ofBool (b : Bool) : FloatOps.uitofp (F := Ideal) .f32 (BitVec.ofBool b) = if b then 1 else 0 := by
  cases b
  · show (((BitVec.ofBool false).toNat : ℝ) : EReal) = 0
    simp
  · show (((BitVec.ofBool true).toNat : ℝ) : EReal) = 1
    simp

/-- The label mask as numbers: 1 where the two labels are equal, 0 elsewhere. -/
theorem eqMask_at (i j : Fin 8192) : val_main_v7 (F := Ideal) x1 (ix2 i j)
    = if Spec.labelsOf x1 i = Spec.labelsOf x1 j then 1 else 0 := by
  rw [val_main_v7_apply, val_main_v6_apply, labelRow_at, labelCol_at]
  unfold IntOp.cmpi
  rw [uitofp_ofBool]
  by_cases h : Spec.labelsOf x1 i = Spec.labelsOf x1 j
  · rw [if_pos h, if_pos (by simpa using h)]
  · rw [if_neg h, if_neg (by simpa using h)]

/-- The reshapes and the broadcast between them leave the mask's entries where they were. -/
theorem mask_at (i j : Fin 8192) : val_main_v10 (F := Ideal) x1 (ix2 i j)
    = if Spec.labelsOf x1 i = Spec.labelsOf x1 j then 1 else 0 := by
  rw [val_main_v10_apply, val_main_v9_apply, val_main_v8_apply, ← eqMask_at x1 i j]
  refine congrArg _ (funext fun c => Fin.ext ?_)
  have hi := i.isLt
  have hj := j.isLt
  match c with
  | ⟨0, _⟩ =>
    show (((0 * 8192 + (i.val * 8192 + j.val) / 8192 % 8192) * 1 + 0) * 8192 + (i.val * 8192 + j.val) % 8192) / 8192 = i.val; omega
  | ⟨1, _⟩ =>
    show (((0 * 8192 + (i.val * 8192 + j.val) / 8192 % 8192) * 1 + 0) * 8192 + (i.val * 8192 + j.val) % 8192) % 8192 = j.val; omega

/-- One less one is zero on the extended reals. -/
theorem one_sub_one : (1 : EReal) - 1 = 0 := by
  rw [show (1 : EReal) = ((1 : ℝ) : EReal) from rfl, ← EReal.coe_sub, sub_self]; rfl

/-- The negatives' mask: 0 where the two labels are equal, 1 elsewhere. -/
theorem negMask_at (i j : Fin 8192) : val_main_v12 (F := Ideal) x1 (ix2 i j)
    = if Spec.labelsOf x1 i = Spec.labelsOf x1 j then 0 else 1 := by
  rw [val_main_v12_apply, val_main_v11_apply, val_main_cst_apply, mask_at]
  simp only [Ideal.subf_def, Ideal.ofBits_def]
  rw [Ideal.ofBits_one_f32]
  by_cases h : Spec.labelsOf x1 i = Spec.labelsOf x1 j
  · rw [if_pos h, if_pos h]; exact one_sub_one
  · rw [if_neg h, if_neg h]; exact sub_zero _

/-- Two row numbers below 8192 have equal 32-bit words exactly when they are equal. -/
theorem word_eq_iff (a b : Fin 8192) : (BitVec.ofNat 32 a.val == BitVec.ofNat 32 b.val) = decide (a = b) := by
  by_cases h : a = b
  · subst h; simp
  · have hne : BitVec.ofNat 32 a.val ≠ BitVec.ofNat 32 b.val := fun e => h (Fin.ext (by
      have e' := congrArg BitVec.toNat e
      simp only [BitVec.toNat_ofNat] at e'
      have ha := a.isLt
      have hb := b.isLt
      omega))
    simp [h, hne]

/-- The diagonal as numbers: 1 where the row number equals the column number, 0 elsewhere. -/
theorem diag_at (i j : Fin 8192) : val_main_v26 (F := Ideal) (ix2 i j) = if i = j then 1 else 0 := by
  rw [val_main_v26_apply, val_main_v25_apply, val_main_v24_apply, val_main_v21_apply, val_main_v23_apply,
    val_main_c_apply, val_main_v22_apply]
  unfold IntOp.cmpi IntOp.addi
  show FloatOps.uitofp (F := Ideal) .f32 (BitVec.ofBool (BitVec.ofNat 32 i.val + 0#32 == BitVec.ofNat 32 j.val)) = _
  rw [BitVec.add_zero, word_eq_iff, uitofp_ofBool]
  by_cases h : i = j
  · rw [if_pos h, if_pos (by simpa using h)]
  · rw [if_neg h, if_neg (by simpa using h)]

/-- The off-diagonal mask: 0 on the diagonal, 1 elsewhere. -/
theorem offDiag_at (i j : Fin 8192) : val_main_v28 (F := Ideal) (ix2 i j) = if i = j then 0 else 1 := by
  rw [val_main_v28_apply, val_main_v27_apply, val_main_cst_2_apply, diag_at]
  simp only [Ideal.subf_def, Ideal.ofBits_def]
  rw [Ideal.ofBits_one_f32]
  by_cases h : i = j
  · rw [if_pos h, if_pos h]; exact one_sub_one
  · rw [if_neg h, if_neg h]; exact sub_zero _

/-- The positives' mask: the label mask times the off-diagonal mask. -/
theorem pos_at (i j : Fin 8192) : val_main_v29 (F := Ideal) x1 (ix2 i j)
    = Spec.pos (Spec.labelsOf x1) i j := by
  rw [val_main_v29_apply, mask_at, offDiag_at]
  simp only [Ideal.mulf_def]
  unfold Spec.pos
  by_cases hl : Spec.labelsOf x1 i = Spec.labelsOf x1 j
  · by_cases hd : i = j
    · rw [if_pos hl, if_pos hd, if_neg (fun hc => hc.2 hd)]; exact mul_zero _
    · rw [if_pos hl, if_neg hd, if_pos ⟨hl, hd⟩]; exact mul_one _
  · rw [if_neg hl, if_neg (fun hc : Spec.labelsOf x1 i = Spec.labelsOf x1 j ∧ i ≠ j => hl hc.1)]; exact zero_mul _

/-- exp of the shifted logit. -/
theorem expo_at (i j : Fin 8192) : val_main_v30 (F := Ideal) x0 (ix2 i j) = Spec.expo (Spec.rowsOf x0) i j := by
  rw [val_main_v30_apply, shifted_at]
  rfl

/-- exp of the shifted logit kept on the negatives only: any extended real times 0 is 0 and times 1 is itself. -/
theorem negTerm_at (i j : Fin 8192) : val_main_v31 (F := Ideal) x0 x1 (ix2 i j)
    = if Spec.labelsOf x1 i = Spec.labelsOf x1 j then 0 else Spec.expo (Spec.rowsOf x0) i j := by
  rw [val_main_v31_apply, expo_at, negMask_at]
  simp only [Ideal.mulf_def]
  by_cases h : Spec.labelsOf x1 i = Spec.labelsOf x1 j
  · rw [if_pos h, if_pos h]; exact mul_zero _
  · rw [if_neg h, if_neg h]; exact mul_one _

/-- The negatives' sum of row i. -/
theorem negSum_at (i : Fin 8192) : val_main_v32 (F := Ideal) x0 x1 (ix1 i)
    = Spec.negSum (Spec.rowsOf x0) (Spec.labelsOf x1) i := by
  rw [val_main_v32_apply, val_main_cst_3_apply]
  simp only [Ideal.ofBits_def]
  rw [Ideal.ofBits_zero_f32, zero_add]
  unfold Spec.negSum
  refine Finset.sum_congr rfl fun k _ => ?_
  rw [← negTerm_at x0 x1 i k]
  refine congrArg _ (funext fun c => Fin.ext ?_)
  match c with
  | ⟨0, _⟩ => rfl
  | ⟨1, _⟩ => rfl

/-- The log-probability of column j in row i. -/
theorem logProb_at (i j : Fin 8192) : val_main_v37 (F := Ideal) x0 x1 (ix2 i j)
    = Spec.logProb (Spec.rowsOf x0) (Spec.labelsOf x1) i j := by
  rw [val_main_v37_apply, val_main_v36_apply, val_main_v35_apply, val_main_v34_apply, val_main_v33_apply, shifted_at, expo_at]
  unfold Spec.logProb
  rw [← negSum_at x0 x1 i]
  simp only [Ideal.subf_def, Ideal.addf_def, Ideal.hostUnary_log_def]
  refine congrArg (fun u => Spec.shifted (Spec.rowsOf x0) i j
    - Ideal.log (Spec.expo (Spec.rowsOf x0) i j + val_main_v32 (F := Ideal) x0 x1 u)) (funext fun c => Fin.ext ?_)
  match c with
  | ⟨0, _⟩ => rfl

/-- The positives' mask times the log-probability. -/
theorem posLogProb_at (i j : Fin 8192) : val_main_v38 (F := Ideal) x0 x1 (ix2 i j)
    = Spec.pos (Spec.labelsOf x1) i j * Spec.logProb (Spec.rowsOf x0) (Spec.labelsOf x1) i j := by
  rw [val_main_v38_apply, pos_at, logProb_at]
  rfl

/-- Row i's numerator: the log-probabilities summed over its positives. -/
theorem num_at (i : Fin 8192) : val_main_v39 (F := Ideal) x0 x1 (ix1 i)
    = Spec.num (Spec.rowsOf x0) (Spec.labelsOf x1) i := by
  rw [val_main_v39_apply, val_main_cst_4_apply]
  simp only [Ideal.ofBits_def]
  rw [Ideal.ofBits_zero_f32, zero_add]
  unfold Spec.num
  refine Finset.sum_congr rfl fun k _ => ?_
  rw [← posLogProb_at x0 x1 i k]
  refine congrArg _ (funext fun c => Fin.ext ?_)
  match c with
  | ⟨0, _⟩ => rfl
  | ⟨1, _⟩ => rfl

/-- Row i's denominator: the number of its positives. -/
theorem den_at (i : Fin 8192) : val_main_v40 (F := Ideal) x1 (ix1 i) = Spec.den (Spec.labelsOf x1) i := by
  rw [val_main_v40_apply, val_main_cst_5_apply]
  simp only [Ideal.ofBits_def]
  rw [Ideal.ofBits_zero_f32, zero_add]
  unfold Spec.den
  refine Finset.sum_congr rfl fun k _ => ?_
  rw [← pos_at x1 i k]
  refine congrArg _ (funext fun c => Fin.ext ?_)
  match c with
  | ⟨0, _⟩ => rfl
  | ⟨1, _⟩ => rfl

/-- Row i's loss: the word of minus one times the quotient of numerator and denominator. -/
theorem loss_at (i : Fin 8192) : val_main_v43 (F := Ideal) x0 x1 (ix1 i)
    = Spec.loss (Spec.rowsOf x0) (Spec.labelsOf x1) i := by
  rw [val_main_v43_apply, val_main_v42_apply, val_main_cst_6_apply, val_main_v41_apply, num_at, den_at]
  rfl

/-- The sum of the rows' losses: the sum over the rank-1 index set is the sum over the row numbers. -/
theorem lossSum_at : val_main_v44 (F := Ideal) x0 x1 ix0
    = ∑ i : Fin 8192, Spec.loss (Spec.rowsOf x0) (Spec.labelsOf x1) i := by
  rw [val_main_v44_apply, val_main_cst_7_apply]
  simp only [Ideal.ofBits_def]
  rw [Ideal.ofBits_zero_f32, zero_add]
  refine Fintype.sum_equiv idxEquiv1 _ _ fun u => ?_
  exact (congrArg (val_main_v43 (F := Ideal) x0 x1) (eq_ix1 u)).trans (loss_at x0 x1 (u 0))

/-- The mean of the rows' losses. -/
theorem result_at : val_main_v45 (F := Ideal) x0 x1 ix0
    = Spec.result (Spec.rowsOf x0) (Spec.labelsOf x1) := by
  rw [val_main_v45_apply, val_main_cst_8_apply, lossSum_at]
  rfl

end Stages

/-! ## The result and the run -/
/-- The reference's result, as the generated run states it, is the spec's loss of the argument arrays. -/
theorem result_eq (m : (ℓ : Loc nD τ sig) → Buf (Elt Ideal) ℓ) (c : Dev nD) :
    Cert.ReferenceIdeal.Value.res_out0 (F := Ideal) m c
      = fun _ => Spec.result (Spec.rowsOf (m ((c.tc : Thread nD τ).loc main_arg0))) (Spec.labelsOf (m ((c.tc : Thread nD τ).loc main_arg1))) := by
  refine (val_main_v45_eq (F := Ideal) m c).trans ?_
  funext u
  rw [eq_ix0 u]
  exact result_at _ _

/-- The reference's run with its result named by the spec. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v45)
        = (fun _ => Spec.result (Spec.rowsOf (m ((c.tc : Thread nD τ).loc main_arg0))) (Spec.labelsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run (defs (F := Ideal)) _ _).mono (fun _ h c => ⟨(h c).1.trans (result_eq m c), (h c).2⟩)
    (Cert.ReferenceIdeal.Value.run (F := Ideal) m ρ)

/-- The reference runs to the end and leaves its arguments as they were. -/
theorem frame_ri : Cert.frame_ReferenceIdeal := by
  exact fun m ρ _ =>
    (θ_run (Cert.ReferenceIdeal.defs (F := Ideal)) _ _).mono (fun _ h c => (h c).2)
      (Cert.ReferenceIdeal.Value.run (F := Ideal) m ρ)

end Cert.ReferenceIdeal.RefValue

end
-- ==== Proof.Finite.lean ====
/-
  The precondition, read entry by entry: every entry of the feature array is a real number. And the named reciprocal
  of the temperature.
  The precondition is the conjunction, over all 8192 x 1 x 256 entries v of the feature array, of |v| < +∞, where
  |v| = max v (-v) on the extended reals. A conjunction that is true is true at each entry; and of the three kinds of
  extended real only a real has max v (-v) below +∞: at v = -∞ and at v = +∞ the maximum is +∞ itself.
-/
import proofs.«406646_j46145128629053_3_alg».proof.Defs
import proofs.«406646_j46145128629053_3_alg».proof.Proof.Gen.KernelIdeal
import proofs.«406646_j46145128629053_3_alg».proof.Proof.Gen.Pre_finite_inputs
import proofs.«406646_j46145128629053_3_alg».proof.Proof.Spec
import Idealize.ShloMosaic.Lib.ReduceAll
import Idealize.ShloMosaic.PureOps.IdealRules

noncomputable section

namespace Cert.Proof.Finite

open Idealize.ShloMosaic Idealize.ShloMosaic.TcCoe Idealize.SL.Sem Idealize.ShloMosaic.ValueIdx

/-- The result of a reduction over all three axes is a scalar: its index set has one element. -/
instance : Subsingleton Cert.Pre_finite_inputs.S_.Idx := ⟨fun a b => funext fun d => d.elim0⟩

/-- The binary32 word with exponent field all ones and fraction zero denotes +∞. -/
theorem top_word : Ideal.ofBits .f32 0x7F800000#32 = (⊤ : EReal) := by simp [Ideal.ofBits, Ideal.ieee]

/-- An extended real whose absolute value max v (-v) compares below +∞ is a real: at v = -∞ the maximum is
    max (-∞) (+∞) = +∞, at v = +∞ it is max (+∞) (-∞) = +∞, and +∞ < +∞ fails, so the comparison's bit is 0 there. -/
theorem real_of_abs_lt_top (v : EReal)
    (hv : Ideal.cmp .olt (max v (-v)) (Ideal.ofBits .f32 0x7F800000#32) = 1#1) : ∃ r : ℝ, v = (r : EReal) := by
  rw [top_word] at hv
  induction v using EReal.rec with
  | bot => exact absurd hv (by simp [Ideal.cmp])
  | coe r => exact ⟨r, rfl⟩
  | top => exact absurd hv (by simp [Ideal.cmp])

/-- The predicate decoded at one entry: it is the conjunction over all entries of |v| < +∞ started from true, and its
    one result is 1, so the comparison is 1 at every entry i; there the compared values are max (x0 i) (-(x0 i)) and
    the broadcast constant +∞. The label array plays no part. -/
theorem entry_real (x0 : Cert.Pre_finite_inputs.S8192x1x256.Idx → EReal) (x1 : Cert.Pre_finite_inputs.S8192.Idx → BitVec 32)
    (h : Cert.Pre_finite_inputs.fn (F := Ideal) x0 x1 = fun _ => 1#1) (i : Cert.Pre_finite_inputs.S8192x1x256.Idx) :
    ∃ r : ℝ, x0 i = (r : EReal) := by
  have e := congrFun h ValueIdx.ix0
  dsimp only [Cert.Pre_finite_inputs.fn] at e
  exact real_of_abs_lt_top (x0 i) (Host.reduce_andi_all _ _ _ _ _ e i)

/-- Under the precondition every feature entry of the idealized kernel's argument is a real. -/
theorem real_of_pre (m : (ℓ : Loc Cert.KernelIdeal.nD Cert.KernelIdeal.τ Cert.KernelIdeal.sig) → Buf (Elt Ideal) ℓ)
    (h : Cert.Pre_KernelIdeal m) (c : Dev Cert.KernelIdeal.nD) :
    ∃ x : Fin 8192 → Fin 256 → ℝ,
      Spec.rowsOf (m ((c.tc : Thread Cert.KernelIdeal.nD Cert.KernelIdeal.τ).loc Cert.KernelIdeal.main_arg0))
        = fun a d => ((x a d : ℝ) : EReal) := by
  -- entry (a, d) of the rows is the array's entry at (a, 0, d), a real by the decoded predicate on device c
  have hr : ∀ (a : Fin 8192) (d : Fin 256), ∃ r : ℝ,
      m ((c.tc : Thread Cert.KernelIdeal.nD Cert.KernelIdeal.τ).loc Cert.KernelIdeal.main_arg0) (ValueIdx.ix3 a (0 : Fin 1) d) = (r : EReal) :=
    fun a d => entry_real _ _ (h c) _
  -- one real per entry, gathered into a function of the row and the column
  choose x hx using hr
  exact ⟨x, funext fun a => funext fun d => hx a d⟩

/-- The ledger's one entry: the named reciprocal of the temperature denotes 2^27 / 9395241 at the ideal instance. -/
theorem preserves : Cert.preserves_Kernel_KernelIdeal :=
  IdealRules.named_const.statement Cert.KernelIdeal.κ "inv_temperature" .f32 0x41649249#32 ((134217728 / 9395241 : ℝ) : EReal) rfl

end Cert.Proof.Finite

end
-- ==== Proof.lean ====
/-
  The certificate: a supervised contrastive loss computed by a tiled kernel with an online maximum equals its plain
  reference over the extended reals, for finite features.
  The kernel walks each tile of 256 query rows over sixteen chunks of 512 columns twice. Pass 1 keeps a running row
  maximum and the sum of exp (logit - maximum) over the columns labelled otherwise, rescaling the sum by
  exp (old maximum - new maximum) at every chunk, and caches the logits, the exponentials against the maximum so far and
  that maximum. Pass 2 rescales the cached exponentials to the final maximum and accumulates the positives'
  log-probabilities and their number; the row's loss is minus their quotient, and the result is the mean over the rows.
  The reference computes the same quantities from the whole 8192 x 8192 logit matrix. Over the reals
  exp (u - v) * exp (v - w) = exp (u - w), so both are the one function Cert.Spec.result of the feature rows and labels
  (finiteness is what makes every maximum a real, so that this law and the distribution of the rescaling over the sum
  apply). The kernel's reciprocal temperature is named as exactly one over the reference's divisor.
  The frames: the kernel body is run once at a symbolic grid point, its two counted loops by their invariants; the
  reference is a straight line of host operations.
-/
import proofs.«406646_j46145128629053_3_alg».proof.Defs
import proofs.«406646_j46145128629053_3_alg».proof.Proof.Gen.Kernel
import proofs.«406646_j46145128629053_3_alg».proof.Proof.Gen.KernelIdeal
import proofs.«406646_j46145128629053_3_alg».proof.Proof.Gen.ReferenceIdeal
import proofs.«406646_j46145128629053_3_alg».proof.Proof.Gen.Pre_finite_inputs
import proofs.«406646_j46145128629053_3_alg».proof.Proof.KRun
import proofs.«406646_j46145128629053_3_alg».proof.Proof.KernelValue
import proofs.«406646_j46145128629053_3_alg».proof.Proof.RefValue
import proofs.«406646_j46145128629053_3_alg».proof.Proof.Finite
import Idealize.ShloMosaic.Adequacy
import Idealize.ShloMosaic.Init

noncomputable section

namespace Cert.Proof

open Idealize.ShloMosaic Idealize.SL.Sem

/-- Both idealized programs end at the spec's loss of the (agreeing) arguments. -/
theorem algebraic : Cert.algebraic_KernelIdeal_ReferenceIdeal := by
  intro m ρ m' ρ' hpre hagree
  refine ⟨_, Cert.KernelIdeal.KernelValue.kernel_run m ρ (fun c => Cert.Proof.Finite.real_of_pre m hpre c), ?_⟩
  refine (θ_run Cert.ReferenceIdeal.defs _ _).mono (fun _ h c => ⟨(h c).1.trans ?_, (h c).2⟩)
    (Cert.ReferenceIdeal.RefValue.ref_run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    fun m ρ _ => Cert.Kernel.Body.frame (F := Bits) m ρ,
    fun m ρ _ => Cert.KernelIdeal.Body.frame (F := Ideal) m ρ,
    Cert.ReferenceIdeal.RefValue.frame_ri,
    Cert.Proof.Finite.preserves,
    algebraic⟩

end Cert.Proof

end
